-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1000#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x1000 : Shape := ⟨2, ![65536, 1000]⟩
abbrev S65536 : Shape := ⟨1, ![65536]⟩
abbrev S65536x1 : Shape := ⟨2, ![65536, 1]⟩
abbrev S16x128 : Shape := ⟨2, ![16, 128]⟩
abbrev S2048x1000 : Shape := ⟨2, ![2048, 1000]⟩
abbrev S2048x1 : Shape := ⟨2, ![2048, 1]⟩
abbrev S8x128 : Shape := ⟨2, ![8, 128]⟩
abbrev S2048 : Shape := ⟨1, ![2048]⟩
abbrev S1 : Shape := ⟨1, ![1]⟩
abbrev S1x1 : Shape := ⟨2, ![1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1, .i32⟩
  | .hbm, ⟨3, _⟩ => ⟨S16x128, .f32⟩
  | .hbm, ⟨4, _⟩ => ⟨S_, .f32⟩
  | .hbm, ⟨5, _⟩ => ⟨S_, .f32⟩
  | .local _ .vmem, ⟨0, _⟩ => ⟨S2048x1000, .f32⟩
  | .local _ .vmem, ⟨1, _⟩ => ⟨S2048x1000, .f32⟩
  | .local _ .vmem, ⟨2, _⟩ => ⟨S2048x1, .i32⟩
  | .local _ .vmem, ⟨3, _⟩ => ⟨S2048x1, .i32⟩
  | .local _ .vmem, ⟨4, _⟩ => ⟨S8x128, .f32⟩
  | .local _ .vmem, ⟨5, _⟩ => ⟨S8x128, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536_S65536x1 : S65536.ShapeCasts S65536x1
  inb_S8x128_S8x128_0_0 : ∀ a, (![0, 0] : Fin 2 → Nat) a + S8x128.size a ≤ S8x128.size a
  h_S8x128 : 0 < S8x128.numel
  inb_S2048x1000_S2048x1000_0_0 : ∀ a, (![0, 0] : Fin 2 → Nat) a + S2048x1000.size a ≤ S2048x1000.size a
  h_S2048x1000 : 0 < S2048x1000.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1000_d1_w32 : S2048x1000.Iotas .tc 32 [1]
  broadcasts_S2048x1_S2048x1000 : S2048x1.Broadcasts S2048x1000
  reduces_S2048x1000_S2048 : S2048x1000.Reduces [1] S2048
  shapeCasts_S2048_S2048x1 : S2048.ShapeCasts S2048x1
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S65536x1000.size a
  hwx0_0 : ∀ i : grid0.Coords, EltTy.bits .f32 = 32 ∨ (Rect.block (s := S65536x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S65536x1x1 : Shape := ⟨3, ![65536, 1, 1]⟩
abbrev S1 : Shape := ⟨1, ![1]⟩
abbrev S1x1x1 : Shape := ⟨3, ![1, 1, 1]⟩
abbrev S1x1000 : Shape := ⟨2, ![1, 1000]⟩

abbrev nBuf : Space → Nat
  | .hbm => 73
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S65536, .f32⟩
  | .hbm, ⟨6, _⟩ => ⟨S65536, .f32⟩
  | .hbm, ⟨7, _⟩ => ⟨S65536x1, .f32⟩
  | .hbm, ⟨8, _⟩ => ⟨S65536x1000, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S65536x1, .f32⟩
  | .hbm, ⟨15, _⟩ => ⟨S65536x1000, .f32⟩
  | .hbm, ⟨16, _⟩ => ⟨S65536x1000, .f32⟩
  | .hbm, ⟨17, _⟩ => ⟨S65536x1, .i32⟩
  | .hbm, ⟨18, _⟩ => ⟨S_, .i32⟩
  | .hbm, ⟨19, _⟩ => ⟨S65536x1, .i32⟩
  | .hbm, ⟨20, _⟩ => ⟨S65536x1, .i1⟩
  | .hbm, ⟨21, _⟩ => ⟨S_, .i32⟩
  | .hbm, ⟨22, _⟩ => ⟨S65536x1, .i32⟩
  | .hbm, ⟨23, _⟩ => ⟨S65536x1, .i32⟩
  | .hbm, ⟨24, _⟩ => ⟨S65536x1, .i32⟩
  | .hbm, ⟨25, _⟩ => ⟨S65536x1x1, .i32⟩
  | .hbm, ⟨26, _⟩ => ⟨S1, .i32⟩
  | .hbm, ⟨27, _⟩ => ⟨S_, .i32⟩
  | .hbm, ⟨28, _⟩ => ⟨S65536x1x1, .i32⟩
  | .hbm, ⟨29, _⟩ => ⟨S65536x1x1, .i1⟩
  | .hbm, ⟨30, _⟩ => ⟨S1x1x1, .i32⟩
  | .hbm, ⟨31, _⟩ => ⟨S65536x1x1, .i32⟩
  | .hbm, ⟨32, _⟩ => ⟨S65536x1x1, .i1⟩
  | .hbm, ⟨33, _⟩ => ⟨S65536x1x1, .i1⟩
  | .hbm, ⟨34, _⟩ => ⟨S_, .i1⟩
  | .hbm, ⟨35, _⟩ => ⟨S65536x1, .i1⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536, .f32⟩
  | .hbm, ⟨41, _⟩ => ⟨S65536x1000, .f32⟩
  | .hbm, ⟨42, _⟩ => ⟨S65536, .f32⟩
  | .hbm, ⟨43, _⟩ => ⟨S_, .f32⟩
  | .hbm, ⟨44, _⟩ => ⟨S65536, .f32⟩
  | .hbm, ⟨45, _⟩ => ⟨S65536, .i1⟩
  | .hbm, ⟨46, _⟩ => ⟨S_, .f32⟩
  | .hbm, ⟨47, _⟩ => ⟨S65536, .f32⟩
  | .hbm, ⟨48, _⟩ => ⟨S65536, .i1⟩
  | .hbm, ⟨49, _⟩ => ⟨S_, .f32⟩
  | .hbm, ⟨50, _⟩ => ⟨S_, .f32⟩
  | .hbm, ⟨51, _⟩ => ⟨S65536, .f32⟩
  | .hbm, ⟨52, _⟩ => ⟨S65536, .f32⟩
  | .hbm, ⟨53, _⟩ => ⟨S65536, .f32⟩
  | .hbm, ⟨54, _⟩ => ⟨S_, .f32⟩
  | .hbm, ⟨55, _⟩ => ⟨S65536, .f32⟩
  | .hbm, ⟨56, _⟩ => ⟨S65536, .f32⟩
  | .hbm, ⟨57, _⟩ => ⟨S65536x1, .i32⟩
  | .hbm, ⟨58, _⟩ => ⟨S1x1000, .i32⟩
  | .hbm, ⟨59, _⟩ => ⟨S65536x1000, .i32⟩
  | .hbm, ⟨60, _⟩ => ⟨S65536x1000, .i32⟩
  | .hbm, ⟨61, _⟩ => ⟨S65536x1000, .i1⟩
  | .hbm, ⟨62, _⟩ => ⟨S65536x1000, .f32⟩
  | .hbm, ⟨63, _⟩ => ⟨S65536x1000, .f32⟩
  | .hbm, ⟨64, _⟩ => ⟨S65536x1000, .f32⟩
  | .hbm, ⟨65, _⟩ => ⟨S_, .f32⟩
  | .hbm, ⟨66, _⟩ => ⟨S65536, .f32⟩
  | .hbm, ⟨67, _⟩ => ⟨S65536, .f32⟩
  | .hbm, ⟨68, _⟩ => ⟨S65536, .f32⟩
  | .hbm, ⟨69, _⟩ => ⟨S65536, .f32⟩
  | .hbm, ⟨70, _⟩ => ⟨S65536, .f32⟩
  | .hbm, ⟨71, _⟩ => ⟨S_, .f32⟩
  | .hbm, ⟨72, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_v9 : Ref sig .tc := ⟨.hbm, 48, rfl⟩
abbrev main_cst_1 : Ref sig .tc := ⟨.hbm, 49, rfl⟩
abbrev main_cst_2 : Ref sig .tc := ⟨.hbm, 50, rfl⟩
abbrev main_call2_v0 : Ref sig .tc := ⟨.hbm, 51, rfl⟩
abbrev main_call2_v1 : Ref sig .tc := ⟨.hbm, 52, rfl⟩
abbrev main_v10 : Ref sig .tc := ⟨.hbm, 53, rfl⟩
abbrev main_cst_3 : Ref sig .tc := ⟨.hbm, 54, rfl⟩
abbrev main_call3_v0 : Ref sig .tc := ⟨.hbm, 55, rfl⟩
abbrev main_v11 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_cst_4 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst_5 : Ref sig .tc := ⟨.hbm, 71, rfl⟩
abbrev main_v20 : Ref sig .tc := ⟨.hbm, 72, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  bcast_S1x1000_S65536x1000_0_1 : S1x1000.BroadcastsInDim S65536x1000 (![0, 1] : Fin 2 → Fin S65536x1000.rank)
  reducesTo_S65536_S_d0 : S65536.ReducesTo [0] S_
  gather_S65536x1000_S65536x1x1_S65536x1_n_1_0_0_1_2_11_wf : GatherDims.WF S65536x1000 S65536x1x1 S65536x1 [] [1] [0] [1] [0] 2 ![1, 1]

variable [Facts₀]

def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf

class Facts : Prop extends Facts₀ where

variable [Facts]
-- ==== Proof.KernelPieces.lean ====
/-
  What one grid point leaves in the output block, as a value.

  The body of the kernel ends in one store of the whole [8,128] block: the block's previous contents plus a
  block that is zero except at entry (0, 0), where it holds the sum over the point's 2048 rows of the rows'
  losses.  At the first point of each core's sweep the block is first overwritten with zeros, so the
  "previous contents" the final store adds to are zeros; at every other point they are what the point before left.
-/
import proofs.«406106_j66898410602953_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- The block a point adds into: the final store's value, as a function of the point's two input blocks
    and of what the output block held when the final store's operand was loaded. -/
abbrev upd (x0 : Vec F S2048x1000 .f32) (x1 : Vec F S2048x1 .i32) (prev : Vec F S8x128 .f32) : Vec F S8x128 .f32 :=
  k0_pay1 (k0_pay3 x0 x1) (k0_pay5 x0 x1) (k0_pay6 x0 x1) prev

/-- A point that is not the first of its core's sweep: the block ends at the update over what it held. -/
theorem out_B (c : Dev nD) (i : grid0.Coords) (arg2 : Memref sig .tc .vmem S2048x1000 .f32) (harg2 : arg2.IsWhole)
    (arg3 : Memref sig .tc .vmem S2048x1 .i32) (harg3 : arg3.IsWhole) (arg4 : Memref sig .tc .vmem S8x128 .f32)
    (harg4 : arg4.IsWhole) (hc0 : ¬cond0_0 i) (x0 : Vec F S2048x1000 .f32) (x1 : Vec F S2048x1 .i32)
    (xo2 : Vec F S8x128 .f32) :
    out0_B_2 c i arg2 harg2 arg3 harg3 arg4 harg4 hc0 x0 x1 xo2 = upd x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz]
  simp only [View.readAt_eq_ld, harg2.read_unread, harg3.read_unread, harg4.read_unread,
    View.ld_unit_zero (S := S2048x1000) hz, View.ld_unit_zero (S := S2048x1) hz, View.ld_unit_zero (S := S8x128) hz]

/-- The first point of a core's sweep: the block is zeroed first, so it ends at the update over zeros. -/
theorem out_A (c : Dev nD) (i : grid0.Coords) (arg2 : Memref sig .tc .vmem S2048x1000 .f32) (harg2 : arg2.IsWhole)
    (arg3 : Memref sig .tc .vmem S2048x1 .i32) (harg3 : arg3.IsWhole) (arg4 : Memref sig .tc .vmem S8x128 .f32)
    (harg4 : arg4.IsWhole) (hc0 : cond0_0 i) (x0 : Vec F S2048x1000 .f32) (x1 : Vec F S2048x1 .i32) :
    out0_A_2 c i arg2 harg2 arg3 harg3 arg4 harg4 hc0 x0 x1 = upd x0 x1 (k0_pay2 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread,
    View.ld_unit_zero (S := S2048x1000) hz, View.ld_unit_zero (S := S2048x1) hz, View.ld_unit_zero (S := S8x128) hz]

end Cert.KernelIdeal.KValue

end
-- ==== Proof.RowLoss.lean ====
/-
  The loss of one row, as a function of the row's thousand logits and its label, over the extended reals.

  Two spellings of one number.  With `m = max_c x_c`, `S = Σ_c exp (x_c - m)` and `t` the label,
  the log-probability of the label is `ℓ = x_t - (m + log S) = (x_t - m) - log S`, its probability
  `p = exp ℓ`, and the distance of the one-hot row from the softmax row in the 1-norm is
  `Σ_c |δ_{ct} - exp ((x_c - m) - log S)| = (1 - p) + Σ_{c ≠ t} p_c = 2 (1 - p)`, because the softmax
  row sums to one and `p ≤ 1`.  The loss of the row is `-(d ^ γ(p)) · ℓ` with `d` that distance and
  `γ(p) ∈ {3, 5}` chosen by two thresholds on `p`.

  `rowK` spells `d ^ γ` as `exp (γ · log d)` where `d > 0` and as `0` where `d = 0`, takes `x_t` as the
  sum of the row masked by `column = label`, and takes `d` as `max (2 (1 - p)) 0`.
  `rowR` spells it with the real power, takes `x_t` by indexing, and `d` as the sum of absolute values.
-/
import Idealize.ShloMosaic.PureOps.Ideal

noncomputable section

namespace Cert.RowLoss

open Idealize.ShloMosaic

/-- The exponent: `3` where `p` is at least the first threshold (the word of `0.5`), else `5` where `p` is
    below the second (the word of `0.2`), else `3`.  Constants are kept as the words the programs carry. -/
def gamma (p : EReal) : EReal :=
  Scalar.select (Ideal.cmp .oge p (Ideal.ofBits .f32 0x3F000000#32)) (Ideal.ofBits .f32 0x40400000#32)
    (Scalar.select (Ideal.cmp .olt p (Ideal.ofBits .f32 0x3E4CCCCD#32)) (Ideal.ofBits .f32 0x40A00000#32)
      (Ideal.ofBits .f32 0x40400000#32))

/-- The row's maximum, folded from `-∞`. -/
def rowMax (xs : Fin 1000 → EReal) : EReal :=
  (Finset.univ : Finset (Fin 1000)).fold max (Ideal.ofBits .f32 0xFF800000#32) xs

/-- The row's loss, first spelling: the label arrives as a 32-bit word `tw`; the label's logit is the sum of
    the row masked by `column = tw`; the power is `exp (γ · log d)` guarded at `d = 0`. -/
def rowK (xs : Fin 1000 → EReal) (tw : BitVec 32) : EReal :=
  let lt : EReal := ∑ c : Fin 1000,
    Scalar.select (IntOp.cmpi .eq (BitVec.ofNat 32 c.val) tw) (xs c) (Ideal.ofBits .f32 0x00000000#32)
  let mx : EReal := rowMax xs
  let se : EReal := ∑ c : Fin 1000, Ideal.exp (xs c - mx)
  let lp : EReal := lt - (mx + Ideal.log se)
  let p : EReal := Ideal.exp lp
  let base : EReal :=
    max (Ideal.ofBits .f32 0x40000000#32 * (Ideal.ofBits .f32 0x3F800000#32 - p)) (Ideal.ofBits .f32 0x00000000#32)
  let pos : BitVec 1 := Ideal.cmp .ogt base (Ideal.ofBits .f32 0x00000000#32)
  let diff : EReal :=
    Scalar.select pos (Ideal.exp (gamma p * Ideal.log (Scalar.select pos base (Ideal.ofBits .f32 0x3F800000#32))))
      (Ideal.ofBits .f32 0x00000000#32)
  (Ideal.ofBits .f32 0x00000000#32 - diff) * lp

/-- The row's loss, second spelling: the label is a column `t`; the log-softmax row is formed whole, the label's
    entry read from it; the distance is the sum of `|δ_{ct} - p_c|`; the power is the real power. -/
def rowR (xs : Fin 1000 → EReal) (t : Fin 1000) : EReal :=
  let mx : EReal := max (Ideal.ofBits .f32 0xFF800000#32) (rowMax xs)
  let lse : EReal := Ideal.log (Ideal.ofBits .f32 0x00000000#32 + ∑ c : Fin 1000, Ideal.exp (xs c - mx))
  let logp : Fin 1000 → EReal := fun c => (xs c - mx) - lse
  let lp : EReal := logp t
  let p : EReal := Ideal.exp lp
  let dev : Fin 1000 → EReal := fun c => (if c = t then (1 : EReal) else 0) - Ideal.exp (logp c)
  let d : EReal := Ideal.ofBits .f32 0x00000000#32 + ∑ c : Fin 1000, max (dev c) (-(dev c))
  (-(Ideal.pow d (gamma p))) * lp

/-- A label word read as a column (a word outside `[0, 1000)` is sent somewhere; only in-range words are used). -/
def tIdx (w : BitVec 32) : Fin 1000 := ⟨w.toNat % 1000, Nat.mod_lt _ (by decide)⟩

end Cert.RowLoss

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.KernelRows.lean ====
/-
  The kernel body's arithmetic, read row by row over the extended reals.

  A point's input blocks are 2048 rows of 1000 logits and a column of 2048 labels.  Row `j` of the body's
  intermediate columns depends on row `j` of the logits and on label `j` only: the label's log-probability,
  the exponent, and the distance `max (2 (1 - p)) 0`.  The value the final store adds to the output block is zero
  except at entry (0, 0), where it is the sum over the 2048 rows of the rows' losses.
-/
import proofs.«406106_j66898410602953_2_alg».proof.Proof.Gen.KernelIdeal.Skeleton
import proofs.«406106_j66898410602953_2_alg».proof.Proof.RowLoss
import proofs.«406106_j66898410602953_2_alg».proof.Proof.LibRowReduce
import Idealize.ShloMosaic.Lib.ValueIdx
import Idealize.ShloMosaic.Lib.Pipeline.Value

noncomputable section

open Idealize.ShloMosaic Idealize.ShloMosaic.ValueIdx

namespace Cert.KernelIdeal.KValue

open Cert.KernelIdeal Cert.KernelIdeal.Gen Cert.RowReduce Cert.RowLoss

/-- The label's log-probability in the first spelling: the masked row sum minus the log-sum-exp. -/
def lpK (xs : Fin 1000 → EReal) (tw : BitVec 32) : EReal :=
  (∑ c : Fin 1000, Scalar.select (IntOp.cmpi .eq (BitVec.ofNat 32 c.val) tw) (xs c) (Ideal.ofBits .f32 0x00000000#32))
    - (rowMax xs + Ideal.log (∑ c : Fin 1000, Ideal.exp (xs c - rowMax xs)))

/-- The distance in the first spelling. -/
def baseK (p : EReal) : EReal :=
  max (Ideal.ofBits .f32 0x40000000#32 * (Ideal.ofBits .f32 0x3F800000#32 - p)) (Ideal.ofBits .f32 0x00000000#32)

/-- The guarded power in the first spelling, from the exponent `g` and the distance `b`. -/
def diffK (g b : EReal) : EReal :=
  Scalar.select (Ideal.cmp .ogt b (Ideal.ofBits .f32 0x00000000#32))
    (Ideal.exp (g * Ideal.log (Scalar.select (Ideal.cmp .ogt b (Ideal.ofBits .f32 0x00000000#32)) b (Ideal.ofBits .f32 0x3F800000#32))))
    (Ideal.ofBits .f32 0x00000000#32)

/-- The first spelling of a row's loss is assembled from those three. -/
theorem rowK_eq (xs : Fin 1000 → EReal) (tw : BitVec 32) :
    rowK xs tw = (Ideal.ofBits .f32 0x00000000#32 - diffK (gamma (Ideal.exp (lpK xs tw))) (baseK (Ideal.exp (lpK xs tw)))) * lpK xs tw := rfl

variable (x0 : FVec Ideal S2048x1000 .f32) (x1 : IVec S2048x1 32)

/-! ### The three row reductions, as columns -/

/-- The rows with every entry but the label's column zeroed. -/
def maskedRows : FVec Ideal S2048x1000 .f32 :=
  select (cmpi .eq (iota .tc S2048x1000 32 [1] iota_S2048x1000_d1_w32)
      (broadcastTo S2048x1000 (shapeCast S2048x1 x1 shapeCasts_S2048x1_S2048x1) broadcasts_S2048x1_S2048x1000))
    x0 (broadcast S2048x1000 (Scalar.ofBits (F := Ideal) .f32 0x00000000#32))

/-- The label's logit of each row, as a column. -/
def colLt : FVec Ideal S2048x1 .f32 :=
  shapeCast S2048x1 (multiReduction .add [1] S2048 (maskedRows x0 x1) 0x00000000#32 reduces_S2048x1000_S2048 (.inl rfl) rfl)
    shapeCasts_S2048_S2048x1

/-- The maximum of each row, as a column. -/
def colMax : FVec Ideal S2048x1 .f32 :=
  shapeCast S2048x1 (multiReduction .maximumf [1] S2048 x0 0xFF800000#32 reduces_S2048x1000_S2048 (.inl rfl) rfl)
    shapeCasts_S2048_S2048x1

/-- The sum of `exp (x - max)` along each row, as a column. -/
def colSumExp : FVec Ideal S2048x1 .f32 :=
  shapeCast S2048x1
    (multiReduction .add [1] S2048 (exp (subf x0 (broadcastTo S2048x1000 (colMax x0) broadcasts_S2048x1_S2048x1000)))
      0x00000000#32 reduces_S2048x1000_S2048 (.inl rfl) rfl)
    shapeCasts_S2048_S2048x1

/-- The log-probability column is assembled from the three. -/
theorem pay3_eq : k0_pay3 (F := Ideal) x0 x1 = subf (colLt x0 x1) (addf (colMax x0) (log (colSumExp x0))) := rfl

theorem maskedRows_apply (j : Fin 2048) (k : Fin 1000) :
    maskedRows x0 x1 (ix2 j k)
      = Scalar.select (IntOp.cmpi .eq (BitVec.ofNat 32 k.val) (x1 (ix2 j (0 : Fin 1)))) (x0 (ix2 j k)) (Ideal.ofBits .f32 0x00000000#32) := by
  show Scalar.select (IntOp.cmpi .eq (iota .tc S2048x1000 32 [1] iota_S2048x1000_d1_w32 (ix2 j k))
      (broadcastTo S2048x1000 (shapeCast S2048x1 x1 shapeCasts_S2048x1_S2048x1) broadcasts_S2048x1_S2048x1000 (ix2 j k)))
      (x0 (ix2 j k)) (Ideal.ofBits .f32 0x00000000#32) = _
  rw [iota_single_apply, broadcastTo_a1_ab_apply, shapeCast_self]

theorem colLt_apply (j : Fin 2048) :
    colLt x0 x1 (ix2 j (0 : Fin 1))
      = ∑ k : Fin 1000, Scalar.select (IntOp.cmpi .eq (BitVec.ofNat 32 k.val) (x1 (ix2 j (0 : Fin 1)))) (x0 (ix2 j k)) (Ideal.ofBits .f32 0x00000000#32) := by
  refine (shapeCast_a_a1_apply _ shapeCasts_S2048_S2048x1 j 0).trans ?_
  refine (rowSum_apply (maskedRows x0 x1) 0x00000000#32 reduces_S2048x1000_S2048 (.inl rfl) rfl j).trans ?_
  exact Finset.sum_congr rfl fun k _ => maskedRows_apply x0 x1 j k

theorem colMax_apply (j : Fin 2048) : colMax x0 (ix2 j (0 : Fin 1)) = rowMax (fun c => x0 (ix2 j c)) := by
  refine (shapeCast_a_a1_apply _ shapeCasts_S2048_S2048x1 j 0).trans ?_
  exact rowMax_apply x0 0xFF800000#32 reduces_S2048x1000_S2048 (.inl rfl) rfl j

theorem colSumExp_apply (j : Fin 2048) :
    colSumExp x0 (ix2 j (0 : Fin 1)) = ∑ k : Fin 1000, Ideal.exp (x0 (ix2 j k) - rowMax (fun c => x0 (ix2 j c))) := by
  refine (shapeCast_a_a1_apply _ shapeCasts_S2048_S2048x1 j 0).trans ?_
  refine (rowSum_apply _ 0x00000000#32 reduces_S2048x1000_S2048 (.inl rfl) rfl j).trans ?_
  refine Finset.sum_congr rfl fun k _ => ?_
  show Ideal.exp (x0 (ix2 j k) - broadcastTo S2048x1000 (colMax x0) broadcasts_S2048x1_S2048x1000 (ix2 j k)) = _
  rw [broadcastTo_a1_ab_apply, colMax_apply]

/-- A logarithm at an index is the logarithm of the element, and an exponential the exponential. -/
theorem log_apply' {s : Shape} {φ : FTy} (a : FVec Ideal s φ) (i : s.Idx) : log a i = Ideal.log (a i) := rfl
theorem exp_apply' {s : Shape} {φ : FTy} (a : FVec Ideal s φ) (i : s.Idx) : exp a i = Ideal.exp (a i) := rfl

/-- Row `j` of the log-probability column. -/
theorem pay3_apply (j : Fin 2048) :
    k0_pay3 (F := Ideal) x0 x1 (ix2 j (0 : Fin 1)) = lpK (fun c => x0 (ix2 j c)) (x1 (ix2 j (0 : Fin 1))) := by
  rw [pay3_eq, subf_apply, addf_apply, log_apply', colLt_apply, colMax_apply, colSumExp_apply]
  rfl

/-- Row `j` of the probability column. -/
theorem pay4_apply (j : Fin 2048) :
    k0_pay4 (F := Ideal) x0 x1 (ix2 j (0 : Fin 1)) = Ideal.exp (lpK (fun c => x0 (ix2 j c)) (x1 (ix2 j (0 : Fin 1)))) := by
  rw [show k0_pay4 (F := Ideal) x0 x1 = exp (k0_pay3 (F := Ideal) x0 x1) from rfl, exp_apply', pay3_apply]

/-- The exponent column, from the probability column. -/
theorem pay5_eq : k0_pay5 (F := Ideal) x0 x1
    = select (cmpf .oge (k0_pay4 (F := Ideal) x0 x1) (broadcast S2048x1 (Scalar.ofBits (F := Ideal) .f32 0x3F000000#32)))
        (broadcast S2048x1 (Scalar.ofBits (F := Ideal) .f32 0x40400000#32))
        (select (cmpf .olt (k0_pay4 (F := Ideal) x0 x1) (broadcast S2048x1 (Scalar.ofBits (F := Ideal) .f32 0x3E4CCCCD#32)))
          (broadcast S2048x1 (Scalar.ofBits (F := Ideal) .f32 0x40A00000#32))
          (broadcast S2048x1 (Scalar.ofBits (F := Ideal) .f32 0x40400000#32))) := rfl

/-- Row `j` of the exponent column. -/
theorem pay5_apply (j : Fin 2048) :
    k0_pay5 (F := Ideal) x0 x1 (ix2 j (0 : Fin 1)) = gamma (Ideal.exp (lpK (fun c => x0 (ix2 j c)) (x1 (ix2 j (0 : Fin 1))))) := by
  rw [pay5_eq, select_apply, select_apply, cmpf_apply, cmpf_apply, pay4_apply]
  rfl

/-- The distance column, from the probability column. -/
theorem pay6_eq : k0_pay6 (F := Ideal) x0 x1
    = maximumf (mulf (broadcast S2048x1 (Scalar.ofBits (F := Ideal) .f32 0x40000000#32))
        (subf (broadcast S2048x1 (Scalar.ofBits (F := Ideal) .f32 0x3F800000#32)) (k0_pay4 (F := Ideal) x0 x1)))
        (broadcast S2048x1 (Scalar.ofBits (F := Ideal) .f32 0x00000000#32)) := rfl

/-- Row `j` of the distance column. -/
theorem pay6_apply (j : Fin 2048) :
    k0_pay6 (F := Ideal) x0 x1 (ix2 j (0 : Fin 1)) = baseK (Ideal.exp (lpK (fun c => x0 (ix2 j c)) (x1 (ix2 j (0 : Fin 1))))) := by
  rw [pay6_eq, maximumf_apply, mulf_apply, subf_apply, pay4_apply]
  rfl

/-! ### The block the final store adds -/

variable (v22 v32 v38 : FVec Ideal S2048x1 .f32) (prev : FVec Ideal S8x128 .f32)

/-- The rows' losses as a column, from the three columns. -/
def lossCol : FVec Ideal S2048x1 .f32 :=
  mulf (subf (broadcast S2048x1 (Scalar.ofBits (F := Ideal) .f32 0x00000000#32))
      (select (cmpf .ogt v38 (broadcast S2048x1 (Scalar.ofBits (F := Ideal) .f32 0x00000000#32)))
        (exp (mulf v32 (log (select (cmpf .ogt v38 (broadcast S2048x1 (Scalar.ofBits (F := Ideal) .f32 0x00000000#32)))
          v38 (broadcast S2048x1 (Scalar.ofBits (F := Ideal) .f32 0x3F800000#32))))))
        (broadcast S2048x1 (Scalar.ofBits (F := Ideal) .f32 0x00000000#32)))) v22

/-- The sum of the column, as a [1,1] cell. -/
def totalCell : FVec Ideal S1x1 .f32 :=
  shapeCast S1x1 (shapeCast S1x1
    (multiReduction .add [0] S1 (lossCol v22 v32 v38) 0x00000000#32 reduces_S2048x1_S1 (.inl rfl) rfl)
    shapeCasts_S1_S1x1) shapeCasts_S1x1_S1x1

/-- The mask of entry (0, 0) of the output block. -/
def cellMask : IVec S8x128 1 :=
  andi (cmpi .eq (iota .tc S8x128 32 [0] iota_S8x128_d0_w32) (broadcast S8x128 (0#32 : BitVec 32)))
    (cmpi .eq (iota .tc S8x128 32 [1] iota_S8x128_d1_w32) (broadcast S8x128 (0#32 : BitVec 32)))

/-- The final store's value: what the block held, plus the column's sum at entry (0, 0) and zero elsewhere. -/
theorem pay1_eq : k0_pay1 (F := Ideal) v22 v32 v38 prev
    = addf (shapeCast S8x128 prev shapeCasts_S8x128_S8x128)
        (select cellMask (broadcastTo S8x128 (totalCell v22 v32 v38) broadcasts_S1x1_S8x128)
          (broadcast S8x128 (Scalar.ofBits (F := Ideal) .f32 0x00000000#32))) := rfl

theorem lossCol_apply (j : Fin 2048) :
    lossCol v22 v32 v38 (ix2 j (0 : Fin 1))
      = (Ideal.ofBits .f32 0x00000000#32 - diffK (v32 (ix2 j (0 : Fin 1))) (v38 (ix2 j (0 : Fin 1)))) * v22 (ix2 j (0 : Fin 1)) := by
  unfold lossCol
  rw [mulf_apply, subf_apply, select_apply, exp_apply', mulf_apply, log_apply', select_apply, cmpf_apply]
  rfl

/-- Along the first axis of a column `[a, 1]`, the source index over the one result entry with coordinate `k` inserted is `(k, 0)`. -/
theorem lift_col {a : ℕ} (h : (⟨2, ![a, 1]⟩ : Shape).Reduces [0] (⟨1, ![1]⟩ : Shape))
    (k : Fin ((⟨2, ![a, 1]⟩ : Shape).size 0)) : h.lift (ix1 (0 : Fin 1)) k = ix2 (⟨k.val, k.isLt⟩ : Fin a) (0 : Fin 1) := by
  funext c; apply Fin.ext
  fin_cases c <;> rfl

theorem totalCell_apply :
    totalCell v22 v32 v38 (ix2 (0 : Fin 1) (0 : Fin 1)) = ∑ j : Fin 2048, lossCol v22 v32 v38 (ix2 j (0 : Fin 1)) := by
  unfold totalCell
  rw [shapeCast_self]
  refine (shapeCast_a_a1_apply _ shapeCasts_S1_S1x1 (0 : Fin 1) (0 : Fin 1)).trans ?_
  refine (Ideal.multiReduction_add_single (lossCol v22 v32 v38) 0x00000000#32 reduces_S2048x1_S1 (.inl rfl) rfl (ix1 (0 : Fin 1))).trans ?_
  exact Finset.sum_congr rfl fun k _ => congrArg (lossCol v22 v32 v38) (lift_col reduces_S2048x1_S1 k)

theorem cellMask_apply (r : Fin 8) (l : Fin 128) :
    cellMask (ix2 r l) = IntOp.andi (IntOp.cmpi .eq (BitVec.ofNat 32 r.val) 0#32) (IntOp.cmpi .eq (BitVec.ofNat 32 l.val) 0#32) := by
  unfold cellMask
  show IntOp.andi (IntOp.cmpi .eq (iota .tc S8x128 32 [0] iota_S8x128_d0_w32 (ix2 r l)) 0#32)
      (IntOp.cmpi .eq (iota .tc S8x128 32 [1] iota_S8x128_d1_w32 (ix2 r l)) 0#32) = _
  rw [iota_single_apply, iota_single_apply]

/-- The final store's value at entry `(r, l)`. -/
theorem pay1_apply (r : Fin 8) (l : Fin 128) :
    k0_pay1 (F := Ideal) v22 v32 v38 prev (ix2 r l)
      = prev (ix2 r l) + Scalar.select (IntOp.andi (IntOp.cmpi .eq (BitVec.ofNat 32 r.val) 0#32) (IntOp.cmpi .eq (BitVec.ofNat 32 l.val) 0#32))
          (∑ j : Fin 2048, (Ideal.ofBits .f32 0x00000000#32 - diffK (v32 (ix2 j (0 : Fin 1))) (v38 (ix2 j (0 : Fin 1)))) * v22 (ix2 j (0 : Fin 1)))
          (Ideal.ofBits .f32 0x00000000#32) := by
  rw [pay1_eq, addf_apply, shapeCast_self, select_apply, cellMask_apply]
  have hb : broadcastTo S8x128 (totalCell v22 v32 v38) broadcasts_S1x1_S8x128 (ix2 r l)
      = totalCell v22 v32 v38 (ix2 (0 : Fin 1) (0 : Fin 1)) :=
    broadcastTo_apply _ broadcasts_S1x1_S8x128 (ix2 r l) (ix2 (0 : Fin 1) (0 : Fin 1)) fun ax => by
      match ax with
      | ⟨0, _⟩ => rfl
      | ⟨1, _⟩ => rfl
  rw [hb, totalCell_apply, Finset.sum_congr rfl fun j _ => lossCol_apply v22 v32 v38 j]
  rfl

end Cert.KernelIdeal.KValue

end
-- ==== Proof.KernelAccum.lean ====
/-
  What the output block holds after each grid point.

  Each of the two cores sweeps sixteen points; a point adds, at entry (0, 0) of the core's [8,128] output block, the
  sum of the losses of the point's 2048 rows, the first point of a sweep starting from zeros.  So after point `n` the
  block is zero except at entry (0, 0), which holds the running sum of the sweep: by induction on the point.
-/
import proofs.«406106_j66898410602953_2_alg».proof.Proof.KernelPieces
import proofs.«406106_j66898410602953_2_alg».proof.Proof.KernelRows
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.RowLoss

/-- Entry `(r, l)` of the block that holds `v` at entry (0, 0) and zero elsewhere. -/
def cell (r : Fin 8) (l : Fin 128) (v : EReal) : EReal :=
  Scalar.select (IntOp.andi (IntOp.cmpi .eq (BitVec.ofNat 32 r.val) 0#32) (IntOp.cmpi .eq (BitVec.ofNat 32 l.val) 0#32))
    v (Ideal.ofBits .f32 0x00000000#32)

theorem cell_add (r : Fin 8) (l : Fin 128) (a b : EReal) : cell r l a + cell r l b = cell r l (a + b) := by
  unfold cell Scalar.select
  split
  · rfl
  · rw [Ideal.ofBits_zero_f32, add_zero]

theorem zero_add_cell (r : Fin 8) (l : Fin 128) (v : EReal) : Ideal.ofBits .f32 0x00000000#32 + cell r l v = cell r l v := by
  rw [Ideal.ofBits_zero_f32, zero_add]

/-- The block a point adds, entry by entry: the block's previous entry plus the rows' losses summed at entry (0, 0). -/
theorem upd_apply (x0 : FVec Ideal S2048x1000 .f32) (x1 : IVec S2048x1 32) (prev : FVec Ideal S8x128 .f32)
    (r : Fin 8) (l : Fin 128) :
    upd (F := Ideal) x0 x1 prev (ix2 r l)
      = prev (ix2 r l) + cell r l (∑ j : Fin 2048, rowK (fun k => x0 (ix2 j k)) (x1 (ix2 j (0 : Fin 1)))) := by
  refine (pay1_apply (k0_pay3 (F := Ideal) x0 x1) (k0_pay5 (F := Ideal) x0 x1) (k0_pay6 (F := Ideal) x0 x1) prev r l).trans ?_
  refine congrArg (fun z => prev (ix2 r l) + cell r l z) (Finset.sum_congr rfl fun j _ => ?_)
  rw [pay3_apply, pay5_apply, pay6_apply, rowK_eq]

variable (m : (ℓ : Loc nD τ sig) → Buf (Elt Ideal) ℓ)

/-- A point's two input blocks, at their literal types. -/
abbrev inX (c : Dev nD) (t : Fin cfg0.N) : FVec Ideal S2048x1000 .f32 := iblk m c 0 t
abbrev inT (c : Dev nD) (t : Fin cfg0.N) : IVec S2048x1 32 := iblk m c 1 t

/-- The sum of the losses of a point's rows. -/
def tot (c : Dev nD) (t : Fin cfg0.N) : EReal :=
  ∑ j : Fin 2048, rowK (fun k => inX m c t (ix2 j k)) (inT m c t (ix2 j (0 : Fin 1)))

/-- The running sum of a core's sweep after point `n`: restarted at the points divisible by sixteen. -/
def acc (c : Dev nD) : (n : ℕ) → n < cfg0.N → EReal
  | 0, h => tot m c ⟨0, h⟩
  | n + 1, h => if (n + 1) % 16 = 0 then tot m c ⟨n + 1, h⟩ else acc c n (Nat.lt_of_succ_lt h) + tot m c ⟨n + 1, h⟩

/-- After point `n` the output block holds the running sum at entry (0, 0) and zero elsewhere. -/
theorem outsAt_apply (c : Dev nD) : ∀ (n : ℕ) (h : n < cfg0.N) (r : Fin 8) (l : Fin 128),
    outsAt0 m c n h (ix2 r l) = cell r l (acc m c n h)
  | 0, h, r, l => by
    have e := (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr rfl) (iblk m c 0 ⟨0, h⟩) (iblk m c 1 ⟨0, h⟩))
    refine (congrFun e (ix2 r l)).trans ?_
    refine (upd_apply (inX m c ⟨0, h⟩) (inT m c ⟨0, h⟩) (k0_pay2 (F := Ideal)) r l).trans ?_
    exact zero_add_cell r l _
  | n + 1, h, r, l => by
    by_cases h0 : (n + 1) % 16 = 0
    · have e := (outsAt0_A m c ⟨n + 1, h⟩ h0).trans
        (out_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) ((hcond0_0 ⟨n + 1, h⟩).mpr h0) (iblk m c 0 ⟨n + 1, h⟩) (iblk m c 1 ⟨n + 1, h⟩))
      refine (congrFun e (ix2 r l)).trans ?_
      refine (upd_apply (inX m c ⟨n + 1, h⟩) (inT m c ⟨n + 1, h⟩) (k0_pay2 (F := Ideal)) r l).trans ?_
      refine (zero_add_cell r l _).trans ?_
      simp only [acc, if_pos h0]
      rfl
    · have e := (outsAt0_B m c ⟨n + 1, h⟩ h0).trans
        (out_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (fun hh => h0 ((hcond0_0 ⟨n + 1, h⟩).mp hh)) (iblk m c 0 ⟨n + 1, h⟩) (iblk m c 1 ⟨n + 1, h⟩)
          (outsAt0 m c n (Nat.lt_of_succ_lt h)))
      refine (congrFun e (ix2 r l)).trans ?_
      refine (upd_apply (inX m c ⟨n + 1, h⟩) (inT m c ⟨n + 1, h⟩) (outsAt0 m c n (Nat.lt_of_succ_lt h)) r l).trans ?_
      rw [outsAt_apply c n (Nat.lt_of_succ_lt h) r l, cell_add]
      simp only [acc, if_neg h0]
      rfl

end Cert.KernelIdeal.KValue

end
-- ==== Proof.KernelFinal.lean ====
/-
  The output array after the region.

  The core's output block is written back once, after the last point of the core's sweep, when its entry (0, 0) holds
  the sum of the losses of all the rows the core was given.  Core `q`'s block is rows 8 q … 8 q + 7 of the [16,128]
  array, so the array ends zero except at entries (0, 0) and (8, 0), which hold the two cores' sums.
-/
import proofs.«406106_j66898410602953_2_alg».proof.Proof.KernelAccum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.RowLoss

variable (m : (ℓ : Loc nD τ sig) → Buf (Elt Ideal) ℓ)

/-- A point's sum of losses, extended by zero past the grid. -/
def totN (c : Dev nD) (i : ℕ) : EReal := if h : i < cfg0.N then tot m c ⟨i, h⟩ else 0

/-- The running sum after point `n` is the sum over the points of the sweep so far. -/
theorem acc_eq (c : Dev nD) : ∀ (n : ℕ) (h : n < cfg0.N),
    acc m c n h = ∑ i ∈ Finset.Ico (16 * (n / 16)) (n + 1), totN m c i
  | 0, h => by
    show tot m c ⟨0, h⟩ = _
    rw [show 16 * (0 / 16) = 0 from rfl, Nat.Ico_succ_singleton, Finset.sum_singleton, totN, dif_pos h]
  | n + 1, h => by
    by_cases h0 : (n + 1) % 16 = 0
    · have e : 16 * ((n + 1) / 16) = n + 1 := by omega
      rw [e, Nat.Ico_succ_singleton, Finset.sum_singleton, totN, dif_pos h]
      simp only [acc, if_pos h0]
    · have e : (n + 1) / 16 = n / 16 := by omega
      rw [e, Finset.sum_Ico_succ_top (by omega), ← acc_eq c n (Nat.lt_of_succ_lt h), totN, dif_pos h]
      simp only [acc, if_neg h0]

/-- The sum of the losses of all the rows of sweep `q`. -/
def sweep (c : Dev nD) (q : ℕ) : EReal := ∑ i ∈ Finset.Ico (16 * q) (16 * q + 16), totN m c i

/-- Entry `(r, l)` (as naturals) of the block that holds `v` at entry (0, 0) and zero elsewhere. -/
def cellN (r l : ℕ) (v : EReal) : EReal :=
  Scalar.select (IntOp.andi (IntOp.cmpi .eq (BitVec.ofNat 32 r) 0#32) (IntOp.cmpi .eq (BitVec.ofNat 32 l) 0#32))
    v (Ideal.ofBits .f32 0x00000000#32)

theorem cell_eq_cellN (r : Fin 8) (l : Fin 128) (v : EReal) : cell r l v = cellN r.val l.val v := rfl

/-- The output array: row `R`, lane `l` holds core `R / 8`'s sum where `R` is the core's first row and `l = 0`. -/
def outArr (c : Dev nD) : Buf (Elt Ideal) ((c : Thread nD τ).loc main_v1) :=
  fun i => cellN ((i 0).val % 8) (i 1).val (sweep m c ((i 0).val / 8))

/-- The printed index map of the output window, decided over the grid: point `t` is on block `t / 16`. -/
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a writing-back point writes back is its block of the output array. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  obtain ⟨e0, e1⟩ := idx2 t
  show (cfg0.win 2).cut (grid0.coords t) ((dats m 0 c).after 2 t) = _
  rw [after0_2]
  funext j
  obtain ⟨r, l, rfl⟩ : ∃ (r : Fin 8) (l : Fin 128), j = ix2 r l := ⟨j 0, j 1, eq_ix2 j⟩
  rw [View.read_apply]
  show outsAt0 m c t.val t.isLt (ix2 r l)
    = cellN ((win0_2.index t (0 : Fin 2) * 8 + 1 * r.val) % 8) (win0_2.index t (1 : Fin 2) * 128 + 1 * l.val)
        (sweep m c ((win0_2.index t (0 : Fin 2) * 8 + 1 * r.val) / 8))
  rw [outsAt_apply, acc_eq, cell_eq_cellN, e0, e1]
  have hr := r.isLt
  have a0 : (t.val / 16 * 8 + 1 * r.val) % 8 = r.val := by omega
  have a1 : 0 * 128 + 1 * l.val = l.val := by omega
  have a2 : (t.val / 16 * 8 + 1 * r.val) / 8 = t.val / 16 := by omega
  have a3 : t.val + 1 = 16 * (t.val / 16) + 16 := by omega
  rw [a0, a1, a2, a3]
  rfl

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

/-- Every entry of the array is in the block of the last point of its core's sweep. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  let t : Fin cfg0.N := ⟨16 * ((i 0).val / 8) + 15, by omega⟩
  obtain ⟨e0, e1⟩ := idx2 t
  have ht : t.val = 16 * ((i 0).val / 8) + 15 := rfl
  refine ⟨t, (flush0_2 t).mpr (by omega), ?_⟩
  rw [mem_blk]
  intro a
  match a with
  | ⟨0, _⟩ =>
    show win0_2.index t (0 : Fin 2) * 8 ≤ (i 0).val ∧ (i 0).val < win0_2.index t (0 : Fin 2) * 8 + 8
    rw [e0]; omega
  | ⟨1, _⟩ =>
    show win0_2.index t (1 : Fin 2) * 128 ≤ (i 1).val ∧ (i 1).val < win0_2.index t (1 : Fin 2) * 128 + 128
    rw [e1]; omega

/-- The output array after the region. -/
theorem final_o (c : Dev nD) : (dats m 0 c).arrAt 2 cfg0.N = outArr m c :=
  (dats m 0 c).arrAt_eq_of_cover 2 (outArr m c) (flushed_eq m c) (fun i => cover i)

end Cert.KernelIdeal.KValue

end
-- ==== Proof.KernelBlocks.lean ====
/-
  What the kernel's two input windows read at a grid point, as entries of the argument arrays.

  The grid has 32 points; at point t window 0 stages the block of rows 2048 t … 2048 t + 2047 (all 1000 columns)
  of the logits, and window 1 the same rows of the labels reshaped to one column.  The reshape is the one host
  operation before the region, so the labels' column array at (r, 0) is the labels' entry r.
-/
import proofs.«406106_j66898410602953_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ)

/-- Window 0's block at point `t`, at its literal type. -/
abbrev xblk (c : Dev nD) (t : Fin cfg0.N) : FVec Ideal S2048x1000 .f32 := iblk m c 0 t
/-- Window 1's block at point `t`, at its literal type. -/
abbrev tblk (c : Dev nD) (t : Fin cfg0.N) : IVec S2048x1 32 := iblk m c 1 t

/-- Row `j` of block `t` is a row of the array. -/
theorem row_lt (t : Fin cfg0.N) (j : Fin 2048) : 2048 * t.val + j.val < 65536 := by
  have h : t.val < 32 := lt_of_lt_of_eq t.isLt N_0
  have := j.isLt
  omega

/-- Window 0's index map over the grid: block row `t`, block column 0. -/
theorem idx0 : ∀ t : Fin cfg0.N, win0_0.index t (0 : Fin 2) = t.val ∧ win0_0.index t (1 : Fin 2) = 0 :=
  (by decide +kernel : ∀ t : Fin grid0.N, _)

/-- Window 1's index map over the grid: the same. -/
theorem idx1 : ∀ t : Fin cfg0.N, win0_1.index t (0 : Fin 2) = t.val ∧ win0_1.index t (1 : Fin 2) = 0 :=
  (by decide +kernel : ∀ t : Fin grid0.N, _)

theorem xblk_apply (c : Dev nD) (t : Fin cfg0.N) (j : Fin 2048) (k : Fin 1000) :
    xblk m c t (ix2 j k) = m ((c : Thread nD τ).loc main_arg0) (ix2 (⟨2048 * t.val + j.val, row_lt t j⟩ : Fin 65536) k) := by
  unfold xblk iblk
  rw [View.read_apply]
  show V m c main_arg0 _ = _
  rw [V_main_arg0]
  congr 1
  funext a
  apply Fin.ext
  match a with
  | ⟨0, _⟩ => show win0_0.index t 0 * 2048 + 1 * j.val = 2048 * t.val + j.val; rw [(idx0 t).1]; omega
  | ⟨1, _⟩ => show win0_0.index t 1 * 1000 + 1 * k.val = k.val; rw [(idx0 t).2]; omega

/-- The labels' column array as the region finds it: the host reshape of the labels. -/
theorem V_main_v0 (c : Dev nD) : (V m c main_v0 : S65536x1.Idx → BitVec 32)
    = shapeCast S65536x1 (m ((c : Thread nD τ).loc main_arg1)) shapeCasts_S65536_S65536x1 := by
  show StableHlo.after hostOps0 (fun b => m (c, b)) (Proc.devRef .tc main_v0) = _
  after_results
  rfl

/-- A vector of length `n` reshaped to one column reads at `(i, 0)` its entry `i`. -/
theorem shapeCast_col {α : Type} {n : Nat} (x : (⟨1, ![n]⟩ : Shape).Idx → α)
    (h : (⟨1, ![n]⟩ : Shape).ShapeCasts ⟨2, ![n, 1]⟩) (i : Fin n) :
    shapeCast (⟨2, ![n, 1]⟩ : Shape) x h (ix2 i (0 : Fin 1)) = x (ix1 i) := by
  refine shapeCast_apply x h _ _ ?_
  rw [Shape.rowMajor_val_one, Shape.rowMajor_val_two]
  show i.val = i.val * 1 + 0
  omega

theorem tblk_apply (c : Dev nD) (t : Fin cfg0.N) (j : Fin 2048) :
    tblk m c t (ix2 j (0 : Fin 1)) = m ((c : Thread nD τ).loc main_arg1) (ix1 (⟨2048 * t.val + j.val, row_lt t j⟩ : Fin 65536)) := by
  unfold tblk iblk
  rw [View.read_apply]
  show V m c main_v0 _ = _
  rw [V_main_v0]
  rw [← shapeCast_col (m ((c : Thread nD τ).loc main_arg1)) shapeCasts_S65536_S65536x1 ⟨2048 * t.val + j.val, row_lt t j⟩]
  congr 1
  funext a
  apply Fin.ext
  match a with
  | ⟨0, _⟩ => show win0_1.index t 0 * 2048 + 1 * j.val = 2048 * t.val + j.val; rw [(idx1 t).1]; omega
  | ⟨1, _⟩ => show win0_1.index t 1 * 1 + 1 * (0 : Fin 1).val = (0 : Fin 1).val; rw [(idx1 t).2]; rfl

end Cert.KernelIdeal.KValue

end
-- ==== Proof.BlockSum.lean ====
/-
  A sum over 65536 rows, regrouped: 65536 = 2 · 16 · 2048, so the rows may be summed core by core,
  block by block, row by row.  The general step is the splitting of a sum over `Fin (m * n)` into a
  double sum by quotient and remainder.
-/
import Mathlib.Algebra.BigOperators.Fin
import Mathlib.Logic.Equiv.Fin.Basic
import Mathlib.Tactic.Ring

namespace Cert.BlockSum

open Finset

/-- The term at quotient `a` and remainder `b` lies below `m * n`. -/
theorem split_lt {N m n : ℕ} (hN : N = m * n) (a : Fin m) (b : Fin n) : a.val * n + b.val < N := by
  have ha := a.isLt
  have hb := b.isLt
  have h : (a.val + 1) * n ≤ m * n := Nat.mul_le_mul_right n ha
  rw [Nat.add_mul, Nat.one_mul] at h
  omega

/-- A sum over `Fin N` with `N = m * n` is the double sum over quotient `a` and remainder `b` of the
    term at `a * n + b`. -/
theorem sum_split {M : Type*} [AddCommMonoid M] {N : ℕ} (m n : ℕ) (hN : N = m * n) (f : Fin N → M) :
    ∑ a : Fin m, ∑ b : Fin n, f ⟨a.val * n + b.val, split_lt hN a b⟩ = ∑ i : Fin N, f i := by
  subst hN
  rw [← (finProdFinEquiv (m := m) (n := n)).sum_comp, Fintype.sum_prod_type]
  refine Finset.sum_congr rfl fun a _ => Finset.sum_congr rfl fun b _ => ?_
  congr 1
  ext
  simp only [finProdFinEquiv_apply_val]
  ring

/-- The rows, summed core by core (2), block by block (16), row by row (2048). -/
theorem sum_rows {M : Type*} [AddCommMonoid M] (g : Fin 65536 → M) :
    ∑ c : Fin 2, ∑ s : Fin 16, ∑ j : Fin 2048,
      g ⟨(c.val * 16 + s.val) * 2048 + j.val, by have := c.isLt; have := s.isLt; have := j.isLt; omega⟩ = ∑ i : Fin 65536, g i := by
  rw [← sum_split 32 2048 (by decide) g]
  rw [← sum_split 2 16 (by decide)
    (fun r : Fin 32 => ∑ j : Fin 2048, g ⟨r.val * 2048 + j.val, split_lt (by decide) r j⟩)]

end Cert.BlockSum
-- ==== Proof.KernelRun.lean ====
/-
  The kernel's result.

  After the region the host sums the [16,128] output array.  The array is zero but for the two cores' sums, each
  the sum of the losses of the core's sixteen points, each of those the sum of the losses of the point's 2048 rows:
  so the result is the sum of the losses of all 65536 rows.
-/
import proofs.«406106_j66898410602953_2_alg».proof.Proof.KernelFinal
import proofs.«406106_j66898410602953_2_alg».proof.Proof.KernelBlocks
import proofs.«406106_j66898410602953_2_alg».proof.Proof.BlockSum
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.RowLoss

variable (m : (ℓ : Loc nD τ sig) → Buf (Elt Ideal) ℓ) (ρ : Dev nD → PrngReg)

/-- The host's sum after the region is applied to the output array the region left. -/
theorem tail_eq (c : Dev nD) :
    Pipeline.afterTail₀ cfgs (dats m) 0 (V0 m) [hostOps1] c main_v2
      = Host.reduceAdd (F := Ideal) (outArr m c) (constant (F := Ideal) S_ .f32 0x00000000#32) reducesTo_S16x128_S_d0_1 h_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = outArr m c := (Pipeline.withArrays_arr spec0 launch0.win.arr_inj c _ _ 2).trans (final_o m c)
  rw [e]

/-! ### The sum of the output array -/

theorem ofNat_beq_zero (r : ℕ) (hr : r < 2 ^ 32) : (BitVec.ofNat 32 r == 0#32) = decide (r = 0) := by
  by_cases h : r = 0
  · subst h; rfl
  · rw [decide_eq_false h]
    refine beq_eq_false_iff_ne.2 fun hb => h ?_
    have h2 := congrArg BitVec.toNat hb
    simp only [BitVec.toNat_ofNat] at h2
    omega

/-- The block with `v` at entry (0, 0), entry by entry, as a case distinction on the coordinates. -/
theorem cellN_eq (r l : ℕ) (hr : r < 2 ^ 32) (hl : l < 2 ^ 32) (v : EReal) :
    cellN r l v = if r = 0 ∧ l = 0 then v else 0 := by
  unfold cellN Scalar.select IntOp.andi IntOp.cmpi
  rw [ofNat_beq_zero r hr, ofNat_beq_zero l hl, Ideal.ofBits_zero_f32]
  by_cases h0 : r = 0 <;> by_cases h1 : l = 0 <;> simp [h0, h1]

/-- The output array as a function into the extended reals. -/
def outE (c : Dev nD) : S16x128.Idx → EReal := outArr m c

/-- The output array sums to the two cores' sums. -/
theorem sum_outArr (c : Dev nD) : ∑ i : S16x128.Idx, outE m c i = sweep m c 0 + sweep m c 1 := by
  rw [sum_idx2]
  have inner : ∀ a : Fin 16, ∑ b : Fin 128, outE m c (ix2 a b) = if a.val % 8 = 0 then sweep m c (a.val / 8) else 0 := by
    intro a
    have ha := a.isLt
    rw [Finset.sum_eq_single (0 : Fin 128)]
    · show cellN (a.val % 8) 0 (sweep m c (a.val / 8)) = _
      rw [cellN_eq _ _ (by omega) (by omega)]
      simp
    · intro b _ hb
      have hb' : b.val ≠ 0 := fun h => hb (Fin.ext h)
      have hbl := b.isLt
      show cellN (a.val % 8) b.val (sweep m c (a.val / 8)) = 0
      rw [cellN_eq _ _ (by omega) (by omega), if_neg (fun h => hb' h.2)]
    · intro h; exact absurd (Finset.mem_univ _) h
  rw [Finset.sum_congr rfl fun a _ => inner a, ← Finset.sum_filter]
  have hf : (Finset.univ.filter fun a : Fin 16 => a.val % 8 = 0) = {(0 : Fin 16), (8 : Fin 16)} := by decide
  rw [hf, Finset.sum_pair (by decide)]
  rfl

/-- The two cores' sums together are the sum over all thirty-two points. -/
theorem sweeps_eq (c : Dev nD) : sweep m c 0 + sweep m c 1 = ∑ t : Fin 32, totN m c t.val := by
  unfold sweep
  rw [Fin.sum_univ_eq_sum_range (fun i => totN m c i) 32, Finset.range_eq_Ico,
    ← Finset.sum_Ico_consecutive (fun i => totN m c i) (by omega : 0 ≤ 16) (by omega : 16 ≤ 32)]

/-- The loss of row `i` of the argument arrays, in the first spelling. -/
def rowG (c : Dev nD) (i : Fin 65536) : EReal :=
  rowK (fun k : Fin 1000 => m ((c : Thread nD τ).loc main_arg0) (ix2 i k)) (m ((c : Thread nD τ).loc main_arg1) (ix1 i))

/-- A point's sum is the sum of the losses of its 2048 rows of the argument arrays. -/
theorem totN_eq (c : Dev nD) (t : Fin 32) :
    totN m c t.val = ∑ j : Fin 2048, rowG m c ⟨t.val * 2048 + j.val, Cert.BlockSum.split_lt (by norm_num : 65536 = 32 * 2048) t j⟩ := by
  have hN : cfg0.N = 32 := N_0
  have ht : t.val < cfg0.N := by have := t.isLt; omega
  rw [totN, dif_pos ht]
  unfold tot
  refine Finset.sum_congr rfl fun j _ => ?_
  unfold rowG
  have ex : (fun k : Fin 1000 => inX m c ⟨t.val, ht⟩ (ix2 j k))
      = fun k : Fin 1000 => m ((c : Thread nD τ).loc main_arg0) (ix2 (⟨t.val * 2048 + j.val, Cert.BlockSum.split_lt (by norm_num : 65536 = 32 * 2048) t j⟩ : Fin 65536) k) := by
    funext k
    refine (xblk_apply m c ⟨t.val, ht⟩ j k).trans ?_
    exact congrArg (fun i : Fin 65536 => m ((c : Thread nD τ).loc main_arg0) (ix2 i k)) (Fin.ext (by show 2048 * t.val + j.val = t.val * 2048 + j.val; omega))
  have et : inT m c ⟨t.val, ht⟩ (ix2 j (0 : Fin 1))
      = m ((c : Thread nD τ).loc main_arg1) (ix1 (⟨t.val * 2048 + j.val, Cert.BlockSum.split_lt (by norm_num : 65536 = 32 * 2048) t j⟩ : Fin 65536)) := by
    refine (tblk_apply m c ⟨t.val, ht⟩ j).trans ?_
    exact congrArg (fun i : Fin 65536 => m ((c : Thread nD τ).loc main_arg1) (ix1 i)) (Fin.ext (by show 2048 * t.val + j.val = t.val * 2048 + j.val; omega))
  rw [ex, et]

/-- The kernel's result: the sum over all rows of the rows' losses (from the zero the host sum starts at). -/
theorem result_eq (c : Dev nD) :
    Pipeline.afterTail₀ cfgs (dats m) 0 (V0 m) [hostOps1] c main_v2
      = fun _ => Ideal.ofBits .f32 0x00000000#32 + ∑ i : Fin 65536, rowG m c i := by
  rw [tail_eq]
  funext j
  refine (Ideal.hostReduceAdd_total reducesTo_S16x128_S_d0_1 (fun b => b.elim0) (outE m c) (Ideal.ofBits .f32 0x00000000#32) j).trans ?_
  rw [sum_outArr, sweeps_eq, Finset.sum_congr rfl fun t _ => totN_eq m c t,
    Cert.BlockSum.sum_split 32 2048 (by norm_num : 65536 = 32 * 2048) (rowG m c)]

/-- The run, read: the result at the sum of the rows' losses, the arguments unchanged. -/
theorem run : θ_run defs (onTc (τ := τ) (main (F := Ideal))) ⟨m, fun _ => 0, ρ⟩ fun r => ∀ c : Dev nD,
      r.2.mem ((c.tc : Thread nD τ).loc main_v2) = (fun _ => Ideal.ofBits .f32 0x00000000#32 + ∑ i : Fin 65536, rowG m c i)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KValue

end
-- ==== Proof.RefRun.lean ====
/-
  The reference program's run, read back stage by stage.

  @main is a straight line of 71 host operations, each writing one buffer as a function of the buffers it reads
  (a called function's operations stand in its call's place).  Every weakly fair execution ends with each buffer at
  the fold `after ops` of the operations' results over the launch contents.  The result buffer's value under that
  fold is `ReadP.val_main_v20` of the two arguments: going down the line one operation at a time, the contents
  `V` after the first `k` operations hold, at every buffer a later operation still reads, that buffer's stage value
  `ReadP.val_<buffer>` of the arguments — the operation's own result is its function of the stage values of its
  operands, which is the next stage value by definition, and every other buffer keeps what it held, the two being
  distinct references.  No term ever holds more than one operation.  The arguments are written by no operation.
-/
import proofs.«406106_j66898410602953_2_alg».proof.Proof.Gen.ReferenceIdeal
import Idealize.ShloMosaic.Lib.StableHlo.Run
import proofs.«406106_j66898410602953_2_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 71 operations, in order (a called function's operations stand in its call's place, spelt `TRef.…`). -/
abbrev ops : List (HloOp τ sig (Elt F)) :=
  [ TRef.nullary (TRef.of (T := ⟨S_, .f32⟩) main_call0_cst) (constant S_ .f32 0xFF800000#32),
    TRef.binary (TRef.of (T := ⟨S65536x1000, .f32⟩) main_arg0) (TRef.of (T := ⟨S_, .f32⟩) main_call0_cst) (TRef.of (T := ⟨S65536, .f32⟩) main_call0_v0) (fun x v => Host.reduce FloatOps.maximumf x v reducesTo_S65536x1000_S65536_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S65536, .f32⟩) main_call0_v1) (broadcastInDim S65536 ![] bcast_S_S65536),
    TRef.binary (TRef.of (T := ⟨S65536, .f32⟩) main_call0_v1) (TRef.of (T := ⟨S65536, .f32⟩) main_call0_v0) (TRef.of (T := ⟨S65536, .f32⟩) main_call0_v2) maximumf,
    TRef.unary (TRef.of (T := ⟨S65536, .f32⟩) main_call0_v2) (TRef.of (T := ⟨S65536x1, .f32⟩) main_call0_v3) (broadcastInDim S65536x1 ![0] bcast_S65536_S65536x1_0),
    TRef.unary (TRef.of (T := ⟨S65536x1, .f32⟩) main_call0_v3) (TRef.of (T := ⟨S65536x1000, .f32⟩) main_call0_v4) (broadcastInDim S65536x1000 ![0, 1] bcast_S65536x1_S65536x1000_0_1),
    TRef.binary (TRef.of (T := ⟨S65536x1000, .f32⟩) main_arg0) (TRef.of (T := ⟨S65536x1000, .f32⟩) main_call0_v4) (TRef.of (T := ⟨S65536x1000, .f32⟩) main_call0_v5) subf,
    TRef.unary (TRef.of (T := ⟨S65536x1000, .f32⟩) main_call0_v5) (TRef.of (T := ⟨S65536x1000, .f32⟩) main_call0_v6) Host.exp,
    TRef.nullary (TRef.of (T := ⟨S_, .f32⟩) main_call0_cst_1) (constant S_ .f32 0x00000000#32),
    TRef.binary (TRef.of (T := ⟨S65536x1000, .f32⟩) main_call0_v6) (TRef.of (T := ⟨S_, .f32⟩) main_call0_cst_1) (TRef.of (T := ⟨S65536, .f32⟩) main_call0_v7) (fun x v => Host.reduceAdd x v reducesTo_S65536x1000_S65536_d1 h_S_),
    TRef.unary (TRef.of (T := ⟨S65536, .f32⟩) main_call0_v7) (TRef.of (T := ⟨S65536x1, .f32⟩) main_call0_v8) (broadcastInDim S65536x1 ![0] bcast_S65536_S65536x1_0),
    TRef.unary (TRef.of (T := ⟨S65536x1, .f32⟩) main_call0_v8) (TRef.of (T := ⟨S65536x1, .f32⟩) main_call0_v9) Host.log,
    TRef.unary (TRef.of (T := ⟨S65536x1, .f32⟩) main_call0_v9) (TRef.of (T := ⟨S65536x1000, .f32⟩) main_call0_v10) (broadcastInDim S65536x1000 ![0, 1] bcast_S65536x1_S65536x1000_0_1),
    TRef.binary (TRef.of (T := ⟨S65536x1000, .f32⟩) main_call0_v5) (TRef.of (T := ⟨S65536x1000, .f32⟩) main_call0_v10) (TRef.of (T := ⟨S65536x1000, .f32⟩) main_v0) subf,
    unary main_arg1 main_v1 (broadcastInDim S65536x1 ![0] bcast_S65536_S65536x1_0 : (⟨S65536, .i32⟩ : BufTy).Contents (Elt F) → (⟨S65536x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S65536x1, .i32⟩) main_call1_v0) (broadcastInDim S65536x1 ![] bcast_S_S65536x1),
    TRef.binary (TRef.of (T := ⟨S65536x1, .i32⟩) main_v1) (TRef.of (T := ⟨S65536x1, .i32⟩) main_call1_v0) (TRef.of (T := ⟨S65536x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S65536x1, .i32⟩) main_call1_v2) (broadcastInDim S65536x1 ![] bcast_S_S65536x1),
    TRef.binary (TRef.of (T := ⟨S65536x1, .i32⟩) main_v1) (TRef.of (T := ⟨S65536x1, .i32⟩) main_call1_v2) (TRef.of (T := ⟨S65536x1, .i32⟩) main_call1_v3) addi,
    TRef.ternary (TRef.of (T := ⟨S65536x1, .i1⟩) main_call1_v1) (TRef.of (T := ⟨S65536x1, .i32⟩) main_call1_v3) (TRef.of (T := ⟨S65536x1, .i32⟩) main_v1) (TRef.of (T := ⟨S65536x1, .i32⟩) main_call1_v4) select,
    TRef.reshape (TRef.of (T := ⟨S65536x1, .i32⟩) main_call1_v4) (TRef.of (T := ⟨S65536x1x1, .i32⟩) main_call1_v5) rfl shapeCasts_S65536x1_S65536x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S65536x1x1, .i32⟩) main_call1_v6) (broadcastInDim S65536x1x1 ![] bcast_S_S65536x1x1),
    TRef.binary (TRef.of (T := ⟨S65536x1x1, .i32⟩) main_call1_v5) (TRef.of (T := ⟨S65536x1x1, .i32⟩) main_call1_v6) (TRef.of (T := ⟨S65536x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S65536x1x1, .i32⟩) main_call1_v9) (broadcastInDim S65536x1x1 ![0, 1, 2] bcast_S1x1x1_S65536x1x1_0_1_2),
    TRef.binary (TRef.of (T := ⟨S65536x1x1, .i32⟩) main_call1_v5) (TRef.of (T := ⟨S65536x1x1, .i32⟩) main_call1_v9) (TRef.of (T := ⟨S65536x1x1, .i1⟩) main_call1_v10) (cmpi .sle),
    TRef.binary (TRef.of (T := ⟨S65536x1x1, .i1⟩) main_call1_v7) (TRef.of (T := ⟨S65536x1x1, .i1⟩) main_call1_v10) (TRef.of (T := ⟨S65536x1x1, .i1⟩) main_call1_v11) andi,
    TRef.nullary (TRef.of (T := ⟨S_, .i1⟩) main_call1_c_3) (constantI S_ 1 1#1),
    TRef.binary (TRef.of (T := ⟨S65536x1x1, .i1⟩) main_call1_v11) (TRef.of (T := ⟨S_, .i1⟩) main_call1_c_3) (TRef.of (T := ⟨S65536x1, .i1⟩) main_call1_v12) (fun x v => Host.reduce IntOp.andi x v reducesTo_S65536x1x1_S65536x1_d2 h_S_),
    TRef.binary (TRef.of (T := ⟨S65536x1000, .f32⟩) main_v0) (TRef.of (T := ⟨S65536x1x1, .i32⟩) main_call1_v5) (TRef.of (T := ⟨S65536x1, .f32⟩) main_call1_v13) (fun x i => Host.gather gather_S65536x1000_S65536x1x1_S65536x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S65536x1, .f32⟩) main_call1_v14) (broadcastInDim S65536x1 ![] bcast_S_S65536x1),
    TRef.ternary (TRef.of (T := ⟨S65536x1, .i1⟩) main_call1_v12) (TRef.of (T := ⟨S65536x1, .f32⟩) main_call1_v13) (TRef.of (T := ⟨S65536x1, .f32⟩) main_call1_v14) (TRef.of (T := ⟨S65536x1, .f32⟩) main_v2) select,
    reshape main_v2 main_v3 rfl shapeCasts_S65536x1_S65536,
    unary main_v0 main_v4 (Host.exp : (⟨S65536x1000, .f32⟩ : BufTy).Contents (Elt F) → (⟨S65536x1000, .f32⟩ : BufTy).Contents (Elt F)),
    unary main_v3 main_v5 (Host.exp : (⟨S65536, .f32⟩ : BufTy).Contents (Elt F) → (⟨S65536, .f32⟩ : BufTy).Contents (Elt F)),
    nullary main_cst (constant S_ .f32 0x3F000000#32),
    unary main_cst main_v6 (broadcastInDim S65536 ![] bcast_S_S65536 : (⟨S_, .f32⟩ : BufTy).Contents (Elt F) → (⟨S65536, .f32⟩ : BufTy).Contents (Elt F)),
    binary main_v5 main_v6 main_v7 (cmpf .oge : (⟨S65536, .f32⟩ : BufTy).Contents (Elt F) → (⟨S65536, .f32⟩ : BufTy).Contents (Elt F) → (⟨S65536, .i1⟩ : BufTy).Contents (Elt F)),
    nullary main_cst_0 (constant S_ .f32 0x3E4CCCCD#32),
    unary main_cst_0 main_v8 (broadcastInDim S65536 ![] bcast_S_S65536 : (⟨S_, .f32⟩ : BufTy).Contents (Elt F) → (⟨S65536, .f32⟩ : BufTy).Contents (Elt F)),
    binary main_v5 main_v8 main_v9 (cmpf .olt : (⟨S65536, .f32⟩ : BufTy).Contents (Elt F) → (⟨S65536, .f32⟩ : BufTy).Contents (Elt F) → (⟨S65536, .i1⟩ : BufTy).Contents (Elt F)),
    nullary main_cst_1 (constant S_ .f32 0x40A00000#32),
    nullary main_cst_2 (constant S_ .f32 0x40400000#32),
    TRef.unary (TRef.of (T := ⟨S_, .f32⟩) main_cst_1) (TRef.of (T := ⟨S65536, .f32⟩) main_call2_v0) (broadcastInDim S65536 ![] bcast_S_S65536),
    TRef.unary (TRef.of (T := ⟨S_, .f32⟩) main_cst_2) (TRef.of (T := ⟨S65536, .f32⟩) main_call2_v1) (broadcastInDim S65536 ![] bcast_S_S65536),
    TRef.ternary (TRef.of (T := ⟨S65536, .i1⟩) main_v9) (TRef.of (T := ⟨S65536, .f32⟩) main_call2_v0) (TRef.of (T := ⟨S65536, .f32⟩) main_call2_v1) (TRef.of (T := ⟨S65536, .f32⟩) main_v10) select,
    nullary main_cst_3 (constant S_ .f32 0x40400000#32),
    TRef.unary (TRef.of (T := ⟨S_, .f32⟩) main_cst_3) (TRef.of (T := ⟨S65536, .f32⟩) main_call3_v0) (broadcastInDim S65536 ![] bcast_S_S65536),
    TRef.ternary (TRef.of (T := ⟨S65536, .i1⟩) main_v7) (TRef.of (T := ⟨S65536, .f32⟩) main_call3_v0) (TRef.of (T := ⟨S65536, .f32⟩) main_v10) (TRef.of (T := ⟨S65536, .f32⟩) main_v11) select,
    TRef.unary (TRef.of (T := ⟨S65536, .i32⟩) main_arg1) (TRef.of (T := ⟨S65536x1, .i32⟩) main_call4_v0) (broadcastInDim S65536x1 ![0] bcast_S65536_S65536x1_0),
    TRef.nullary (TRef.of (T := ⟨S1x1000, .i32⟩) main_call4_v1) (iotaInDim S1x1000 32 1),
    TRef.unary (TRef.of (T := ⟨S65536x1, .i32⟩) main_call4_v0) (TRef.of (T := ⟨S65536x1000, .i32⟩) main_call4_v2) (broadcastInDim S65536x1000 ![0, 1] bcast_S65536x1_S65536x1000_0_1),
    TRef.unary (TRef.of (T := ⟨S1x1000, .i32⟩) main_call4_v1) (TRef.of (T := ⟨S65536x1000, .i32⟩) main_call4_v3) (broadcastInDim S65536x1000 ![0, 1] bcast_S1x1000_S65536x1000_0_1),
    TRef.binary (TRef.of (T := ⟨S65536x1000, .i32⟩) main_call4_v2) (TRef.of (T := ⟨S65536x1000, .i32⟩) main_call4_v3) (TRef.of (T := ⟨S65536x1000, .i1⟩) main_call4_v4) (cmpi .eq),
    TRef.unary (TRef.of (T := ⟨S65536x1000, .i1⟩) main_call4_v4) (TRef.of (T := ⟨S65536x1000, .f32⟩) main_v12) (uitofp .f32),
    binary main_v12 main_v4 main_v13 (subf : (⟨S65536x1000, .f32⟩ : BufTy).Contents (Elt F) → (⟨S65536x1000, .f32⟩ : BufTy).Contents (Elt F) → (⟨S65536x1000, .f32⟩ : BufTy).Contents (Elt F)),
    unary main_v13 main_v14 (Host.absf : (⟨S65536x1000, .f32⟩ : BufTy).Contents (Elt F) → (⟨S65536x1000, .f32⟩ : BufTy).Contents (Elt F)),
    nullary main_cst_4 (constant S_ .f32 0x00000000#32),
    binary main_v14 main_cst_4 main_v15 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_v11 main_v16 (id : (⟨S65536, .f32⟩ : BufTy).Contents (Elt F) → (⟨S65536, .f32⟩ : BufTy).Contents (Elt F)),
    binary main_v15 main_v16 main_v17 (Host.powf : (⟨S65536, .f32⟩ : BufTy).Contents (Elt F) → (⟨S65536, .f32⟩ : BufTy).Contents (Elt F) → (⟨S65536, .f32⟩ : BufTy).Contents (Elt F)),
    unary main_v17 main_v18 (Host.negf : (⟨S65536, .f32⟩ : BufTy).Contents (Elt F) → (⟨S65536, .f32⟩ : BufTy).Contents (Elt F)),
    binary main_v18 main_v3 main_v19 (mulf : (⟨S65536, .f32⟩ : BufTy).Contents (Elt F) → (⟨S65536, .f32⟩ : BufTy).Contents (Elt F) → (⟨S65536, .f32⟩ : BufTy).Contents (Elt F)),
    nullary main_cst_5 (constant S_ .f32 0x00000000#32),
    binary main_v19 main_cst_5 main_v20 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., ternary_bufs_sub .., unary_bufs_sub .., nullary_bufs_sub .., unary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., nullary_bufs_sub .., binary_bufs_sub ..⟩

/-- One operation of the line, peeled: what holds of the contents after it suffices. -/
theorem after_step {Val : EltTy → Type} (op : HloOp τ sig Val) (rest : List (HloOp τ sig Val)) (V : Valuation τ sig Val)
    (b : DevRef τ sig) (R : b.ty.Contents Val)
    (h : ∀ V' : Valuation τ sig Val, V' = op.result V → after rest V' b = R) : after (op :: rest) V b = R := h _ rfl

set_option maxRecDepth 8192 in
set_option maxHeartbeats 4000000 in
/-- The result buffer after the line, from any launch contents: the last stage value of the two arguments.
    `eK_<buffer>` says the contents after the first `K` operations hold the buffer's stage value. -/
theorem val_run (m : (ℓ : Loc nD τ sig) → Buf (Elt F) ℓ) (c : Dev nD) :
    after (ops (F := F)) (launchContents m c) (Proc.devRef .tc main_v20)
      = ReadP.val_main_v20 (F := F) (m ((c.tc : Thread nD τ).loc main_arg0)) (m ((c.tc : Thread nD τ).loc main_arg1)) := by
  generalize hx0 : m ((c.tc : Thread nD τ).loc main_arg0) = x0
  generalize hx1 : m ((c.tc : Thread nD τ).loc main_arg1) = x1
  have e0_main_arg0 : launchContents m c (Proc.devRef .tc main_arg0) = x0 := hx0
  have e0_main_arg1 : launchContents m c (Proc.devRef .tc main_arg1) = x1 := hx1
  generalize launchContents m c = V0 at e0_main_arg0 e0_main_arg1 ⊢
  clear hx0 hx1
  -- operation 0: nullary  → main_call0_cst
  refine after_step _ _ _ _ _ fun V1 hV1 => ?_
  have e1_main_call0_cst : V1 (Proc.devRef .tc main_call0_cst) = (ReadP.val_main_call0_cst (F := F)) := by
    simp (disch := decide) only [hV1, nullary_result', TRef.toBuf, TRef.ofBuf, cast_eq]
    rfl
  have e1_main_arg0 : V1 (Proc.devRef .tc main_arg0) = x0 := by
    simp (disch := decide) only [hV1, nullary_result_ne', e0_main_arg0]
  have e1_main_arg1 : V1 (Proc.devRef .tc main_arg1) = x1 := by
    simp (disch := decide) only [hV1, nullary_result_ne', e0_main_arg1]
  clear hV1 e0_main_arg0 e0_main_arg1 V0
  -- operation 1: binary main_arg0 main_call0_cst → main_call0_v0
  refine after_step _ _ _ _ _ fun V2 hV2 => ?_
  have e2_main_call0_v0 : V2 (Proc.devRef .tc main_call0_v0) = (ReadP.val_main_call0_v0 (F := F) x0) := by
    simp (disch := decide) only [hV2, binary_result', TRef.toBuf, TRef.ofBuf, cast_eq, e1_main_arg0, e1_main_call0_cst]
    rfl
  have e2_main_arg0 : V2 (Proc.devRef .tc main_arg0) = x0 := by
    simp (disch := decide) only [hV2, binary_result_ne', e1_main_arg0]
  have e2_main_arg1 : V2 (Proc.devRef .tc main_arg1) = x1 := by
    simp (disch := decide) only [hV2, binary_result_ne', e1_main_arg1]
  clear hV2 e1_main_arg0 e1_main_arg1 e1_main_call0_cst V1
  -- operation 2: nullary  → main_call0_cst_0
  refine after_step _ _ _ _ _ fun V3 hV3 => ?_
  have e3_main_call0_cst_0 : V3 (Proc.devRef .tc main_call0_cst_0) = (ReadP.val_main_call0_cst_0 (F := F)) := by
    simp (disch := decide) only [hV3, nullary_result', TRef.toBuf, TRef.ofBuf, cast_eq]
    rfl
  have e3_main_arg0 : V3 (Proc.devRef .tc main_arg0) = x0 := by
    simp (disch := decide) only [hV3, nullary_result_ne', e2_main_arg0]
  have e3_main_arg1 : V3 (Proc.devRef .tc main_arg1) = x1 := by
    simp (disch := decide) only [hV3, nullary_result_ne', e2_main_arg1]
  have e3_main_call0_v0 : V3 (Proc.devRef .tc main_call0_v0) = (ReadP.val_main_call0_v0 (F := F) x0) := by
    simp (disch := decide) only [hV3, nullary_result_ne', e2_main_call0_v0]
  clear hV3 e2_main_arg0 e2_main_arg1 e2_main_call0_v0 V2
  -- operation 3: unary main_call0_cst_0 → main_call0_v1
  refine after_step _ _ _ _ _ fun V4 hV4 => ?_
  have e4_main_call0_v1 : V4 (Proc.devRef .tc main_call0_v1) = (ReadP.val_main_call0_v1 (F := F)) := by
    simp (disch := decide) only [hV4, unary_result', TRef.toBuf, TRef.ofBuf, cast_eq, e3_main_call0_cst_0]
    rfl
  have e4_main_arg0 : V4 (Proc.devRef .tc main_arg0) = x0 := by
    simp (disch := decide) only [hV4, unary_result_ne', e3_main_arg0]
  have e4_main_arg1 : V4 (Proc.devRef .tc main_arg1) = x1 := by
    simp (disch := decide) only [hV4, unary_result_ne', e3_main_arg1]
  have e4_main_call0_v0 : V4 (Proc.devRef .tc main_call0_v0) = (ReadP.val_main_call0_v0 (F := F) x0) := by
    simp (disch := decide) only [hV4, unary_result_ne', e3_main_call0_v0]
  clear hV4 e3_main_arg0 e3_main_arg1 e3_main_call0_v0 e3_main_call0_cst_0 V3
  -- operation 4: binary main_call0_v1 main_call0_v0 → main_call0_v2
  refine after_step _ _ _ _ _ fun V5 hV5 => ?_
  have e5_main_call0_v2 : V5 (Proc.devRef .tc main_call0_v2) = (ReadP.val_main_call0_v2 (F := F) x0) := by
    simp (disch := decide) only [hV5, binary_result', TRef.toBuf, TRef.ofBuf, cast_eq, e4_main_call0_v1, e4_main_call0_v0]
    rfl
  have e5_main_arg0 : V5 (Proc.devRef .tc main_arg0) = x0 := by
    simp (disch := decide) only [hV5, binary_result_ne', e4_main_arg0]
  have e5_main_arg1 : V5 (Proc.devRef .tc main_arg1) = x1 := by
    simp (disch := decide) only [hV5, binary_result_ne', e4_main_arg1]
  clear hV5 e4_main_arg0 e4_main_arg1 e4_main_call0_v0 e4_main_call0_v1 V4
  -- operation 5: unary main_call0_v2 → main_call0_v3
  refine after_step _ _ _ _ _ fun V6 hV6 => ?_
  have e6_main_call0_v3 : V6 (Proc.devRef .tc main_call0_v3) = (ReadP.val_main_call0_v3 (F := F) x0) := by
    simp (disch := decide) only [hV6, unary_result', TRef.toBuf, TRef.ofBuf, cast_eq, e5_main_call0_v2]
    rfl
  have e6_main_arg0 : V6 (Proc.devRef .tc main_arg0) = x0 := by
    simp (disch := decide) only [hV6, unary_result_ne', e5_main_arg0]
  have e6_main_arg1 : V6 (Proc.devRef .tc main_arg1) = x1 := by
    simp (disch := decide) only [hV6, unary_result_ne', e5_main_arg1]
  clear hV6 e5_main_arg0 e5_main_arg1 e5_main_call0_v2 V5
  -- operation 6: unary main_call0_v3 → main_call0_v4
  refine after_step _ _ _ _ _ fun V7 hV7 => ?_
  have e7_main_call0_v4 : V7 (Proc.devRef .tc main_call0_v4) = (ReadP.val_main_call0_v4 (F := F) x0) := by
    simp (disch := decide) only [hV7, unary_result', TRef.toBuf, TRef.ofBuf, cast_eq, e6_main_call0_v3]
    rfl
  have e7_main_arg0 : V7 (Proc.devRef .tc main_arg0) = x0 := by
    simp (disch := decide) only [hV7, unary_result_ne', e6_main_arg0]
  have e7_main_arg1 : V7 (Proc.devRef .tc main_arg1) = x1 := by
    simp (disch := decide) only [hV7, unary_result_ne', e6_main_arg1]
  clear hV7 e6_main_arg0 e6_main_arg1 e6_main_call0_v3 V6
  -- operation 7: binary main_arg0 main_call0_v4 → main_call0_v5
  refine after_step _ _ _ _ _ fun V8 hV8 => ?_
  have e8_main_call0_v5 : V8 (Proc.devRef .tc main_call0_v5) = (ReadP.val_main_call0_v5 (F := F) x0) := by
    simp (disch := decide) only [hV8, binary_result', TRef.toBuf, TRef.ofBuf, cast_eq, e7_main_arg0, e7_main_call0_v4]
    rfl
  have e8_main_arg1 : V8 (Proc.devRef .tc main_arg1) = x1 := by
    simp (disch := decide) only [hV8, binary_result_ne', e7_main_arg1]
  clear hV8 e7_main_arg0 e7_main_arg1 e7_main_call0_v4 V7
  -- operation 8: unary main_call0_v5 → main_call0_v6
  refine after_step _ _ _ _ _ fun V9 hV9 => ?_
  have e9_main_call0_v6 : V9 (Proc.devRef .tc main_call0_v6) = (ReadP.val_main_call0_v6 (F := F) x0) := by
    simp (disch := decide) only [hV9, unary_result', TRef.toBuf, TRef.ofBuf, cast_eq, e8_main_call0_v5]
    rfl
  have e9_main_arg1 : V9 (Proc.devRef .tc main_arg1) = x1 := by
    simp (disch := decide) only [hV9, unary_result_ne', e8_main_arg1]
  have e9_main_call0_v5 : V9 (Proc.devRef .tc main_call0_v5) = (ReadP.val_main_call0_v5 (F := F) x0) := by
    simp (disch := decide) only [hV9, unary_result_ne', e8_main_call0_v5]
  clear hV9 e8_main_arg1 e8_main_call0_v5 V8
  -- operation 9: nullary  → main_call0_cst_1
  refine after_step _ _ _ _ _ fun V10 hV10 => ?_
  have e10_main_call0_cst_1 : V10 (Proc.devRef .tc main_call0_cst_1) = (ReadP.val_main_call0_cst_1 (F := F)) := by
    simp (disch := decide) only [hV10, nullary_result', TRef.toBuf, TRef.ofBuf, cast_eq]
    rfl
  have e10_main_arg1 : V10 (Proc.devRef .tc main_arg1) = x1 := by
    simp (disch := decide) only [hV10, nullary_result_ne', e9_main_arg1]
  have e10_main_call0_v5 : V10 (Proc.devRef .tc main_call0_v5) = (ReadP.val_main_call0_v5 (F := F) x0) := by
    simp (disch := decide) only [hV10, nullary_result_ne', e9_main_call0_v5]
  have e10_main_call0_v6 : V10 (Proc.devRef .tc main_call0_v6) = (ReadP.val_main_call0_v6 (F := F) x0) := by
    simp (disch := decide) only [hV10, nullary_result_ne', e9_main_call0_v6]
  clear hV10 e9_main_arg1 e9_main_call0_v5 e9_main_call0_v6 V9
  -- operation 10: binary main_call0_v6 main_call0_cst_1 → main_call0_v7
  refine after_step _ _ _ _ _ fun V11 hV11 => ?_
  have e11_main_call0_v7 : V11 (Proc.devRef .tc main_call0_v7) = (ReadP.val_main_call0_v7 (F := F) x0) := by
    simp (disch := decide) only [hV11, binary_result', TRef.toBuf, TRef.ofBuf, cast_eq, e10_main_call0_v6, e10_main_call0_cst_1]
    rfl
  have e11_main_arg1 : V11 (Proc.devRef .tc main_arg1) = x1 := by
    simp (disch := decide) only [hV11, binary_result_ne', e10_main_arg1]
  have e11_main_call0_v5 : V11 (Proc.devRef .tc main_call0_v5) = (ReadP.val_main_call0_v5 (F := F) x0) := by
    simp (disch := decide) only [hV11, binary_result_ne', e10_main_call0_v5]
  clear hV11 e10_main_arg1 e10_main_call0_v5 e10_main_call0_v6 e10_main_call0_cst_1 V10
  -- operation 11: unary main_call0_v7 → main_call0_v8
  refine after_step _ _ _ _ _ fun V12 hV12 => ?_
  have e12_main_call0_v8 : V12 (Proc.devRef .tc main_call0_v8) = (ReadP.val_main_call0_v8 (F := F) x0) := by
    simp (disch := decide) only [hV12, unary_result', TRef.toBuf, TRef.ofBuf, cast_eq, e11_main_call0_v7]
    rfl
  have e12_main_arg1 : V12 (Proc.devRef .tc main_arg1) = x1 := by
    simp (disch := decide) only [hV12, unary_result_ne', e11_main_arg1]
  have e12_main_call0_v5 : V12 (Proc.devRef .tc main_call0_v5) = (ReadP.val_main_call0_v5 (F := F) x0) := by
    simp (disch := decide) only [hV12, unary_result_ne', e11_main_call0_v5]
  clear hV12 e11_main_arg1 e11_main_call0_v5 e11_main_call0_v7 V11
  -- operation 12: unary main_call0_v8 → main_call0_v9
  refine after_step _ _ _ _ _ fun V13 hV13 => ?_
  have e13_main_call0_v9 : V13 (Proc.devRef .tc main_call0_v9) = (ReadP.val_main_call0_v9 (F := F) x0) := by
    simp (disch := decide) only [hV13, unary_result', TRef.toBuf, TRef.ofBuf, cast_eq, e12_main_call0_v8]
    rfl
  have e13_main_arg1 : V13 (Proc.devRef .tc main_arg1) = x1 := by
    simp (disch := decide) only [hV13, unary_result_ne', e12_main_arg1]
  have e13_main_call0_v5 : V13 (Proc.devRef .tc main_call0_v5) = (ReadP.val_main_call0_v5 (F := F) x0) := by
    simp (disch := decide) only [hV13, unary_result_ne', e12_main_call0_v5]
  clear hV13 e12_main_arg1 e12_main_call0_v5 e12_main_call0_v8 V12
  -- operation 13: unary main_call0_v9 → main_call0_v10
  refine after_step _ _ _ _ _ fun V14 hV14 => ?_
  have e14_main_call0_v10 : V14 (Proc.devRef .tc main_call0_v10) = (ReadP.val_main_call0_v10 (F := F) x0) := by
    simp (disch := decide) only [hV14, unary_result', TRef.toBuf, TRef.ofBuf, cast_eq, e13_main_call0_v9]
    rfl
  have e14_main_arg1 : V14 (Proc.devRef .tc main_arg1) = x1 := by
    simp (disch := decide) only [hV14, unary_result_ne', e13_main_arg1]
  have e14_main_call0_v5 : V14 (Proc.devRef .tc main_call0_v5) = (ReadP.val_main_call0_v5 (F := F) x0) := by
    simp (disch := decide) only [hV14, unary_result_ne', e13_main_call0_v5]
  clear hV14 e13_main_arg1 e13_main_call0_v5 e13_main_call0_v9 V13
  -- operation 14: binary main_call0_v5 main_call0_v10 → main_v0
  refine after_step _ _ _ _ _ fun V15 hV15 => ?_
  have e15_main_v0 : V15 (Proc.devRef .tc main_v0) = (ReadP.val_main_v0 (F := F) x0) := by
    simp (disch := decide) only [hV15, binary_result', TRef.toBuf, TRef.ofBuf, cast_eq, e14_main_call0_v5, e14_main_call0_v10]
    rfl
  have e15_main_arg1 : V15 (Proc.devRef .tc main_arg1) = x1 := by
    simp (disch := decide) only [hV15, binary_result_ne', e14_main_arg1]
  clear hV15 e14_main_arg1 e14_main_call0_v5 e14_main_call0_v10 V14
  -- operation 15: unary main_arg1 → main_v1
  refine after_step _ _ _ _ _ fun V16 hV16 => ?_
  have e16_main_v1 : V16 (Proc.devRef .tc main_v1) = (ReadP.val_main_v1 (F := F) x1) := by
    simp (disch := decide) only [hV16, unary_result', TRef.toBuf, TRef.ofBuf, cast_eq, e15_main_arg1]
    rfl
  have e16_main_arg1 : V16 (Proc.devRef .tc main_arg1) = x1 := by
    simp (disch := decide) only [hV16, unary_result_ne', e15_main_arg1]
  have e16_main_v0 : V16 (Proc.devRef .tc main_v0) = (ReadP.val_main_v0 (F := F) x0) := by
    simp (disch := decide) only [hV16, unary_result_ne', e15_main_v0]
  clear hV16 e15_main_arg1 e15_main_v0 V15
  -- operation 16: nullary  → main_call1_c
  refine after_step _ _ _ _ _ fun V17 hV17 => ?_
  have e17_main_call1_c : V17 (Proc.devRef .tc main_call1_c) = (ReadP.val_main_call1_c (F := F)) := by
    simp (disch := decide) only [hV17, nullary_result', TRef.toBuf, TRef.ofBuf, cast_eq]
    rfl
  have e17_main_arg1 : V17 (Proc.devRef .tc main_arg1) = x1 := by
    simp (disch := decide) only [hV17, nullary_result_ne', e16_main_arg1]
  have e17_main_v0 : V17 (Proc.devRef .tc main_v0) = (ReadP.val_main_v0 (F := F) x0) := by
    simp (disch := decide) only [hV17, nullary_result_ne', e16_main_v0]
  have e17_main_v1 : V17 (Proc.devRef .tc main_v1) = (ReadP.val_main_v1 (F := F) x1) := by
    simp (disch := decide) only [hV17, nullary_result_ne', e16_main_v1]
  clear hV17 e16_main_arg1 e16_main_v0 e16_main_v1 V16
  -- operation 17: unary main_call1_c → main_call1_v0
  refine after_step _ _ _ _ _ fun V18 hV18 => ?_
  have e18_main_call1_v0 : V18 (Proc.devRef .tc main_call1_v0) = (ReadP.val_main_call1_v0 (F := F)) := by
    simp (disch := decide) only [hV18, unary_result', TRef.toBuf, TRef.ofBuf, cast_eq, e17_main_call1_c]
    rfl
  have e18_main_arg1 : V18 (Proc.devRef .tc main_arg1) = x1 := by
    simp (disch := decide) only [hV18, unary_result_ne', e17_main_arg1]
  have e18_main_v0 : V18 (Proc.devRef .tc main_v0) = (ReadP.val_main_v0 (F := F) x0) := by
    simp (disch := decide) only [hV18, unary_result_ne', e17_main_v0]
  have e18_main_v1 : V18 (Proc.devRef .tc main_v1) = (ReadP.val_main_v1 (F := F) x1) := by
    simp (disch := decide) only [hV18, unary_result_ne', e17_main_v1]
  clear hV18 e17_main_arg1 e17_main_v0 e17_main_v1 e17_main_call1_c V17
  -- operation 18: binary main_v1 main_call1_v0 → main_call1_v1
  refine after_step _ _ _ _ _ fun V19 hV19 => ?_
  have e19_main_call1_v1 : V19 (Proc.devRef .tc main_call1_v1) = (ReadP.val_main_call1_v1 (F := F) x1) := by
    simp (disch := decide) only [hV19, binary_result', TRef.toBuf, TRef.ofBuf, cast_eq, e18_main_v1, e18_main_call1_v0]
    rfl
  have e19_main_arg1 : V19 (Proc.devRef .tc main_arg1) = x1 := by
    simp (disch := decide) only [hV19, binary_result_ne', e18_main_arg1]
  have e19_main_v0 : V19 (Proc.devRef .tc main_v0) = (ReadP.val_main_v0 (F := F) x0) := by
    simp (disch := decide) only [hV19, binary_result_ne', e18_main_v0]
  have e19_main_v1 : V19 (Proc.devRef .tc main_v1) = (ReadP.val_main_v1 (F := F) x1) := by
    simp (disch := decide) only [hV19, binary_result_ne', e18_main_v1]
  clear hV19 e18_main_arg1 e18_main_v0 e18_main_v1 e18_main_call1_v0 V18
  -- operation 19: nullary  → main_call1_c_0
  refine after_step _ _ _ _ _ fun V20 hV20 => ?_
  have e20_main_call1_c_0 : V20 (Proc.devRef .tc main_call1_c_0) = (ReadP.val_main_call1_c_0 (F := F)) := by
    simp (disch := decide) only [hV20, nullary_result', TRef.toBuf, TRef.ofBuf, cast_eq]
    rfl
  have e20_main_arg1 : V20 (Proc.devRef .tc main_arg1) = x1 := by
    simp (disch := decide) only [hV20, nullary_result_ne', e19_main_arg1]
  have e20_main_v0 : V20 (Proc.devRef .tc main_v0) = (ReadP.val_main_v0 (F := F) x0) := by
    simp (disch := decide) only [hV20, nullary_result_ne', e19_main_v0]
  have e20_main_v1 : V20 (Proc.devRef .tc main_v1) = (ReadP.val_main_v1 (F := F) x1) := by
    simp (disch := decide) only [hV20, nullary_result_ne', e19_main_v1]
  have e20_main_call1_v1 : V20 (Proc.devRef .tc main_call1_v1) = (ReadP.val_main_call1_v1 (F := F) x1) := by
    simp (disch := decide) only [hV20, nullary_result_ne', e19_main_call1_v1]
  clear hV20 e19_main_arg1 e19_main_v0 e19_main_v1 e19_main_call1_v1 V19
  -- operation 20: unary main_call1_c_0 → main_call1_v2
  refine after_step _ _ _ _ _ fun V21 hV21 => ?_
  have e21_main_call1_v2 : V21 (Proc.devRef .tc main_call1_v2) = (ReadP.val_main_call1_v2 (F := F)) := by
    simp (disch := decide) only [hV21, unary_result', TRef.toBuf, TRef.ofBuf, cast_eq, e20_main_call1_c_0]
    rfl
  have e21_main_arg1 : V21 (Proc.devRef .tc main_arg1) = x1 := by
    simp (disch := decide) only [hV21, unary_result_ne', e20_main_arg1]
  have e21_main_v0 : V21 (Proc.devRef .tc main_v0) = (ReadP.val_main_v0 (F := F) x0) := by
    simp (disch := decide) only [hV21, unary_result_ne', e20_main_v0]
  have e21_main_v1 : V21 (Proc.devRef .tc main_v1) = (ReadP.val_main_v1 (F := F) x1) := by
    simp (disch := decide) only [hV21, unary_result_ne', e20_main_v1]
  have e21_main_call1_v1 : V21 (Proc.devRef .tc main_call1_v1) = (ReadP.val_main_call1_v1 (F := F) x1) := by
    simp (disch := decide) only [hV21, unary_result_ne', e20_main_call1_v1]
  clear hV21 e20_main_arg1 e20_main_v0 e20_main_v1 e20_main_call1_v1 e20_main_call1_c_0 V20
  -- operation 21: binary main_v1 main_call1_v2 → main_call1_v3
  refine after_step _ _ _ _ _ fun V22 hV22 => ?_
  have e22_main_call1_v3 : V22 (Proc.devRef .tc main_call1_v3) = (ReadP.val_main_call1_v3 (F := F) x1) := by
    simp (disch := decide) only [hV22, binary_result', TRef.toBuf, TRef.ofBuf, cast_eq, e21_main_v1, e21_main_call1_v2]
    rfl
  have e22_main_arg1 : V22 (Proc.devRef .tc main_arg1) = x1 := by
    simp (disch := decide) only [hV22, binary_result_ne', e21_main_arg1]
  have e22_main_v0 : V22 (Proc.devRef .tc main_v0) = (ReadP.val_main_v0 (F := F) x0) := by
    simp (disch := decide) only [hV22, binary_result_ne', e21_main_v0]
  have e22_main_v1 : V22 (Proc.devRef .tc main_v1) = (ReadP.val_main_v1 (F := F) x1) := by
    simp (disch := decide) only [hV22, binary_result_ne', e21_main_v1]
  have e22_main_call1_v1 : V22 (Proc.devRef .tc main_call1_v1) = (ReadP.val_main_call1_v1 (F := F) x1) := by
    simp (disch := decide) only [hV22, binary_result_ne', e21_main_call1_v1]
  clear hV22 e21_main_arg1 e21_main_v0 e21_main_v1 e21_main_call1_v1 e21_main_call1_v2 V21
  -- operation 22: ternary main_call1_v1 main_call1_v3 main_v1 → main_call1_v4
  refine after_step _ _ _ _ _ fun V23 hV23 => ?_
  have e23_main_call1_v4 : V23 (Proc.devRef .tc main_call1_v4) = (ReadP.val_main_call1_v4 (F := F) x1) := by
    simp (disch := decide) only [hV23, ternary_result', TRef.toBuf, TRef.ofBuf, cast_eq, e22_main_call1_v1, e22_main_call1_v3, e22_main_v1]
    rfl
  have e23_main_arg1 : V23 (Proc.devRef .tc main_arg1) = x1 := by
    simp (disch := decide) only [hV23, ternary_result_ne', e22_main_arg1]
  have e23_main_v0 : V23 (Proc.devRef .tc main_v0) = (ReadP.val_main_v0 (F := F) x0) := by
    simp (disch := decide) only [hV23, ternary_result_ne', e22_main_v0]
  clear hV23 e22_main_arg1 e22_main_v0 e22_main_v1 e22_main_call1_v1 e22_main_call1_v3 V22
  -- operation 23: reshape main_call1_v4 → main_call1_v5
  refine after_step _ _ _ _ _ fun V24 hV24 => ?_
  have e24_main_call1_v5 : V24 (Proc.devRef .tc main_call1_v5) = (ReadP.val_main_call1_v5 (F := F) x1) := by
    simp (disch := decide) only [hV24, reshape_result', TRef.toBuf, TRef.ofBuf, cast_eq, e23_main_call1_v4]
    rfl
  have e24_main_arg1 : V24 (Proc.devRef .tc main_arg1) = x1 := by
    simp (disch := decide) only [hV24, reshape_result_ne', e23_main_arg1]
  have e24_main_v0 : V24 (Proc.devRef .tc main_v0) = (ReadP.val_main_v0 (F := F) x0) := by
    simp (disch := decide) only [hV24, reshape_result_ne', e23_main_v0]
  clear hV24 e23_main_arg1 e23_main_v0 e23_main_call1_v4 V23
  -- operation 24: nullary  → main_call1_c_1
  refine after_step _ _ _ _ _ fun V25 hV25 => ?_
  have e25_main_call1_c_1 : V25 (Proc.devRef .tc main_call1_c_1) = (ReadP.val_main_call1_c_1 (F := F)) := by
    simp (disch := decide) only [hV25, nullary_result', TRef.toBuf, TRef.ofBuf, cast_eq]
    rfl
  have e25_main_arg1 : V25 (Proc.devRef .tc main_arg1) = x1 := by
    simp (disch := decide) only [hV25, nullary_result_ne', e24_main_arg1]
  have e25_main_v0 : V25 (Proc.devRef .tc main_v0) = (ReadP.val_main_v0 (F := F) x0) := by
    simp (disch := decide) only [hV25, nullary_result_ne', e24_main_v0]
  have e25_main_call1_v5 : V25 (Proc.devRef .tc main_call1_v5) = (ReadP.val_main_call1_v5 (F := F) x1) := by
    simp (disch := decide) only [hV25, nullary_result_ne', e24_main_call1_v5]
  clear hV25 e24_main_arg1 e24_main_v0 e24_main_call1_v5 V24
  -- operation 25: nullary  → main_call1_c_2
  refine after_step _ _ _ _ _ fun V26 hV26 => ?_
  have e26_main_call1_c_2 : V26 (Proc.devRef .tc main_call1_c_2) = (ReadP.val_main_call1_c_2 (F := F)) := by
    simp (disch := decide) only [hV26, nullary_result', TRef.toBuf, TRef.ofBuf, cast_eq]
    rfl
  have e26_main_arg1 : V26 (Proc.devRef .tc main_arg1) = x1 := by
    simp (disch := decide) only [hV26, nullary_result_ne', e25_main_arg1]
  have e26_main_v0 : V26 (Proc.devRef .tc main_v0) = (ReadP.val_main_v0 (F := F) x0) := by
    simp (disch := decide) only [hV26, nullary_result_ne', e25_main_v0]
  have e26_main_call1_v5 : V26 (Proc.devRef .tc main_call1_v5) = (ReadP.val_main_call1_v5 (F := F) x1) := by
    simp (disch := decide) only [hV26, nullary_result_ne', e25_main_call1_v5]
  have e26_main_call1_c_1 : V26 (Proc.devRef .tc main_call1_c_1) = (ReadP.val_main_call1_c_1 (F := F)) := by
    simp (disch := decide) only [hV26, nullary_result_ne', e25_main_call1_c_1]
  clear hV26 e25_main_arg1 e25_main_v0 e25_main_call1_v5 e25_main_call1_c_1 V25
  -- operation 26: unary main_call1_c_2 → main_call1_v6
  refine after_step _ _ _ _ _ fun V27 hV27 => ?_
  have e27_main_call1_v6 : V27 (Proc.devRef .tc main_call1_v6) = (ReadP.val_main_call1_v6 (F := F)) := by
    simp (disch := decide) only [hV27, unary_result', TRef.toBuf, TRef.ofBuf, cast_eq, e26_main_call1_c_2]
    rfl
  have e27_main_arg1 : V27 (Proc.devRef .tc main_arg1) = x1 := by
    simp (disch := decide) only [hV27, unary_result_ne', e26_main_arg1]
  have e27_main_v0 : V27 (Proc.devRef .tc main_v0) = (ReadP.val_main_v0 (F := F) x0) := by
    simp (disch := decide) only [hV27, unary_result_ne', e26_main_v0]
  have e27_main_call1_v5 : V27 (Proc.devRef .tc main_call1_v5) = (ReadP.val_main_call1_v5 (F := F) x1) := by
    simp (disch := decide) only [hV27, unary_result_ne', e26_main_call1_v5]
  have e27_main_call1_c_1 : V27 (Proc.devRef .tc main_call1_c_1) = (ReadP.val_main_call1_c_1 (F := F)) := by
    simp (disch := decide) only [hV27, unary_result_ne', e26_main_call1_c_1]
  clear hV27 e26_main_arg1 e26_main_v0 e26_main_call1_v5 e26_main_call1_c_1 e26_main_call1_c_2 V26
  -- operation 27: binary main_call1_v5 main_call1_v6 → main_call1_v7
  refine after_step _ _ _ _ _ fun V28 hV28 => ?_
  have e28_main_call1_v7 : V28 (Proc.devRef .tc main_call1_v7) = (ReadP.val_main_call1_v7 (F := F) x1) := by
    simp (disch := decide) only [hV28, binary_result', TRef.toBuf, TRef.ofBuf, cast_eq, e27_main_call1_v5, e27_main_call1_v6]
    rfl
  have e28_main_arg1 : V28 (Proc.devRef .tc main_arg1) = x1 := by
    simp (disch := decide) only [hV28, binary_result_ne', e27_main_arg1]
  have e28_main_v0 : V28 (Proc.devRef .tc main_v0) = (ReadP.val_main_v0 (F := F) x0) := by
    simp (disch := decide) only [hV28, binary_result_ne', e27_main_v0]
  have e28_main_call1_v5 : V28 (Proc.devRef .tc main_call1_v5) = (ReadP.val_main_call1_v5 (F := F) x1) := by
    simp (disch := decide) only [hV28, binary_result_ne', e27_main_call1_v5]
  have e28_main_call1_c_1 : V28 (Proc.devRef .tc main_call1_c_1) = (ReadP.val_main_call1_c_1 (F := F)) := by
    simp (disch := decide) only [hV28, binary_result_ne', e27_main_call1_c_1]
  clear hV28 e27_main_arg1 e27_main_v0 e27_main_call1_v5 e27_main_call1_c_1 e27_main_call1_v6 V27
  -- operation 28: unary main_call1_c_1 → main_call1_v8
  refine after_step _ _ _ _ _ fun V29 hV29 => ?_
  have e29_main_call1_v8 : V29 (Proc.devRef .tc main_call1_v8) = (ReadP.val_main_call1_v8 (F := F)) := by
    simp (disch := decide) only [hV29, unary_result', TRef.toBuf, TRef.ofBuf, cast_eq, e28_main_call1_c_1]
    rfl
  have e29_main_arg1 : V29 (Proc.devRef .tc main_arg1) = x1 := by
    simp (disch := decide) only [hV29, unary_result_ne', e28_main_arg1]
  have e29_main_v0 : V29 (Proc.devRef .tc main_v0) = (ReadP.val_main_v0 (F := F) x0) := by
    simp (disch := decide) only [hV29, unary_result_ne', e28_main_v0]
  have e29_main_call1_v5 : V29 (Proc.devRef .tc main_call1_v5) = (ReadP.val_main_call1_v5 (F := F) x1) := by
    simp (disch := decide) only [hV29, unary_result_ne', e28_main_call1_v5]
  have e29_main_call1_v7 : V29 (Proc.devRef .tc main_call1_v7) = (ReadP.val_main_call1_v7 (F := F) x1) := by
    simp (disch := decide) only [hV29, unary_result_ne', e28_main_call1_v7]
  clear hV29 e28_main_arg1 e28_main_v0 e28_main_call1_v5 e28_main_call1_c_1 e28_main_call1_v7 V28
  -- operation 29: unary main_call1_v8 → main_call1_v9
  refine after_step _ _ _ _ _ fun V30 hV30 => ?_
  have e30_main_call1_v9 : V30 (Proc.devRef .tc main_call1_v9) = (ReadP.val_main_call1_v9 (F := F)) := by
    simp (disch := decide) only [hV30, unary_result', TRef.toBuf, TRef.ofBuf, cast_eq, e29_main_call1_v8]
    rfl
  have e30_main_arg1 : V30 (Proc.devRef .tc main_arg1) = x1 := by
    simp (disch := decide) only [hV30, unary_result_ne', e29_main_arg1]
  have e30_main_v0 : V30 (Proc.devRef .tc main_v0) = (ReadP.val_main_v0 (F := F) x0) := by
    simp (disch := decide) only [hV30, unary_result_ne', e29_main_v0]
  have e30_main_call1_v5 : V30 (Proc.devRef .tc main_call1_v5) = (ReadP.val_main_call1_v5 (F := F) x1) := by
    simp (disch := decide) only [hV30, unary_result_ne', e29_main_call1_v5]
  have e30_main_call1_v7 : V30 (Proc.devRef .tc main_call1_v7) = (ReadP.val_main_call1_v7 (F := F) x1) := by
    simp (disch := decide) only [hV30, unary_result_ne', e29_main_call1_v7]
  clear hV30 e29_main_arg1 e29_main_v0 e29_main_call1_v5 e29_main_call1_v7 e29_main_call1_v8 V29
  -- operation 30: binary main_call1_v5 main_call1_v9 → main_call1_v10
  refine after_step _ _ _ _ _ fun V31 hV31 => ?_
  have e31_main_call1_v10 : V31 (Proc.devRef .tc main_call1_v10) = (ReadP.val_main_call1_v10 (F := F) x1) := by
    simp (disch := decide) only [hV31, binary_result', TRef.toBuf, TRef.ofBuf, cast_eq, e30_main_call1_v5, e30_main_call1_v9]
    rfl
  have e31_main_arg1 : V31 (Proc.devRef .tc main_arg1) = x1 := by
    simp (disch := decide) only [hV31, binary_result_ne', e30_main_arg1]
  have e31_main_v0 : V31 (Proc.devRef .tc main_v0) = (ReadP.val_main_v0 (F := F) x0) := by
    simp (disch := decide) only [hV31, binary_result_ne', e30_main_v0]
  have e31_main_call1_v5 : V31 (Proc.devRef .tc main_call1_v5) = (ReadP.val_main_call1_v5 (F := F) x1) := by
    simp (disch := decide) only [hV31, binary_result_ne', e30_main_call1_v5]
  have e31_main_call1_v7 : V31 (Proc.devRef .tc main_call1_v7) = (ReadP.val_main_call1_v7 (F := F) x1) := by
    simp (disch := decide) only [hV31, binary_result_ne', e30_main_call1_v7]
  clear hV31 e30_main_arg1 e30_main_v0 e30_main_call1_v5 e30_main_call1_v7 e30_main_call1_v9 V30
  -- operation 31: binary main_call1_v7 main_call1_v10 → main_call1_v11
  refine after_step _ _ _ _ _ fun V32 hV32 => ?_
  have e32_main_call1_v11 : V32 (Proc.devRef .tc main_call1_v11) = (ReadP.val_main_call1_v11 (F := F) x1) := by
    simp (disch := decide) only [hV32, binary_result', TRef.toBuf, TRef.ofBuf, cast_eq, e31_main_call1_v7, e31_main_call1_v10]
    rfl
  have e32_main_arg1 : V32 (Proc.devRef .tc main_arg1) = x1 := by
    simp (disch := decide) only [hV32, binary_result_ne', e31_main_arg1]
  have e32_main_v0 : V32 (Proc.devRef .tc main_v0) = (ReadP.val_main_v0 (F := F) x0) := by
    simp (disch := decide) only [hV32, binary_result_ne', e31_main_v0]
  have e32_main_call1_v5 : V32 (Proc.devRef .tc main_call1_v5) = (ReadP.val_main_call1_v5 (F := F) x1) := by
    simp (disch := decide) only [hV32, binary_result_ne', e31_main_call1_v5]
  clear hV32 e31_main_arg1 e31_main_v0 e31_main_call1_v5 e31_main_call1_v7 e31_main_call1_v10 V31
  -- operation 32: nullary  → main_call1_c_3
  refine after_step _ _ _ _ _ fun V33 hV33 => ?_
  have e33_main_call1_c_3 : V33 (Proc.devRef .tc main_call1_c_3) = (ReadP.val_main_call1_c_3 (F := F)) := by
    simp (disch := decide) only [hV33, nullary_result', TRef.toBuf, TRef.ofBuf, cast_eq]
    rfl
  have e33_main_arg1 : V33 (Proc.devRef .tc main_arg1) = x1 := by
    simp (disch := decide) only [hV33, nullary_result_ne', e32_main_arg1]
  have e33_main_v0 : V33 (Proc.devRef .tc main_v0) = (ReadP.val_main_v0 (F := F) x0) := by
    simp (disch := decide) only [hV33, nullary_result_ne', e32_main_v0]
  have e33_main_call1_v5 : V33 (Proc.devRef .tc main_call1_v5) = (ReadP.val_main_call1_v5 (F := F) x1) := by
    simp (disch := decide) only [hV33, nullary_result_ne', e32_main_call1_v5]
  have e33_main_call1_v11 : V33 (Proc.devRef .tc main_call1_v11) = (ReadP.val_main_call1_v11 (F := F) x1) := by
    simp (disch := decide) only [hV33, nullary_result_ne', e32_main_call1_v11]
  clear hV33 e32_main_arg1 e32_main_v0 e32_main_call1_v5 e32_main_call1_v11 V32
  -- operation 33: binary main_call1_v11 main_call1_c_3 → main_call1_v12
  refine after_step _ _ _ _ _ fun V34 hV34 => ?_
  have e34_main_call1_v12 : V34 (Proc.devRef .tc main_call1_v12) = (ReadP.val_main_call1_v12 (F := F) x1) := by
    simp (disch := decide) only [hV34, binary_result', TRef.toBuf, TRef.ofBuf, cast_eq, e33_main_call1_v11, e33_main_call1_c_3]
    rfl
  have e34_main_arg1 : V34 (Proc.devRef .tc main_arg1) = x1 := by
    simp (disch := decide) only [hV34, binary_result_ne', e33_main_arg1]
  have e34_main_v0 : V34 (Proc.devRef .tc main_v0) = (ReadP.val_main_v0 (F := F) x0) := by
    simp (disch := decide) only [hV34, binary_result_ne', e33_main_v0]
  have e34_main_call1_v5 : V34 (Proc.devRef .tc main_call1_v5) = (ReadP.val_main_call1_v5 (F := F) x1) := by
    simp (disch := decide) only [hV34, binary_result_ne', e33_main_call1_v5]
  clear hV34 e33_main_arg1 e33_main_v0 e33_main_call1_v5 e33_main_call1_v11 e33_main_call1_c_3 V33
  -- operation 34: binary main_v0 main_call1_v5 → main_call1_v13
  refine after_step _ _ _ _ _ fun V35 hV35 => ?_
  have e35_main_call1_v13 : V35 (Proc.devRef .tc main_call1_v13) = (ReadP.val_main_call1_v13 (F := F) x0 x1) := by
    simp (disch := decide) only [hV35, binary_result', TRef.toBuf, TRef.ofBuf, cast_eq, e34_main_v0, e34_main_call1_v5]
    rfl
  have e35_main_arg1 : V35 (Proc.devRef .tc main_arg1) = x1 := by
    simp (disch := decide) only [hV35, binary_result_ne', e34_main_arg1]
  have e35_main_v0 : V35 (Proc.devRef .tc main_v0) = (ReadP.val_main_v0 (F := F) x0) := by
    simp (disch := decide) only [hV35, binary_result_ne', e34_main_v0]
  have e35_main_call1_v12 : V35 (Proc.devRef .tc main_call1_v12) = (ReadP.val_main_call1_v12 (F := F) x1) := by
    simp (disch := decide) only [hV35, binary_result_ne', e34_main_call1_v12]
  clear hV35 e34_main_arg1 e34_main_v0 e34_main_call1_v5 e34_main_call1_v12 V34
  -- operation 35: nullary  → main_call1_cst
  refine after_step _ _ _ _ _ fun V36 hV36 => ?_
  have e36_main_call1_cst : V36 (Proc.devRef .tc main_call1_cst) = (ReadP.val_main_call1_cst (F := F)) := by
    simp (disch := decide) only [hV36, nullary_result', TRef.toBuf, TRef.ofBuf, cast_eq]
    rfl
  have e36_main_arg1 : V36 (Proc.devRef .tc main_arg1) = x1 := by
    simp (disch := decide) only [hV36, nullary_result_ne', e35_main_arg1]
  have e36_main_v0 : V36 (Proc.devRef .tc main_v0) = (ReadP.val_main_v0 (F := F) x0) := by
    simp (disch := decide) only [hV36, nullary_result_ne', e35_main_v0]
  have e36_main_call1_v12 : V36 (Proc.devRef .tc main_call1_v12) = (ReadP.val_main_call1_v12 (F := F) x1) := by
    simp (disch := decide) only [hV36, nullary_result_ne', e35_main_call1_v12]
  have e36_main_call1_v13 : V36 (Proc.devRef .tc main_call1_v13) = (ReadP.val_main_call1_v13 (F := F) x0 x1) := by
    simp (disch := decide) only [hV36, nullary_result_ne', e35_main_call1_v13]
  clear hV36 e35_main_arg1 e35_main_v0 e35_main_call1_v12 e35_main_call1_v13 V35
  -- operation 36: unary main_call1_cst → main_call1_v14
  refine after_step _ _ _ _ _ fun V37 hV37 => ?_
  have e37_main_call1_v14 : V37 (Proc.devRef .tc main_call1_v14) = (ReadP.val_main_call1_v14 (F := F)) := by
    simp (disch := decide) only [hV37, unary_result', TRef.toBuf, TRef.ofBuf, cast_eq, e36_main_call1_cst]
    rfl
  have e37_main_arg1 : V37 (Proc.devRef .tc main_arg1) = x1 := by
    simp (disch := decide) only [hV37, unary_result_ne', e36_main_arg1]
  have e37_main_v0 : V37 (Proc.devRef .tc main_v0) = (ReadP.val_main_v0 (F := F) x0) := by
    simp (disch := decide) only [hV37, unary_result_ne', e36_main_v0]
  have e37_main_call1_v12 : V37 (Proc.devRef .tc main_call1_v12) = (ReadP.val_main_call1_v12 (F := F) x1) := by
    simp (disch := decide) only [hV37, unary_result_ne', e36_main_call1_v12]
  have e37_main_call1_v13 : V37 (Proc.devRef .tc main_call1_v13) = (ReadP.val_main_call1_v13 (F := F) x0 x1) := by
    simp (disch := decide) only [hV37, unary_result_ne', e36_main_call1_v13]
  clear hV37 e36_main_arg1 e36_main_v0 e36_main_call1_v12 e36_main_call1_v13 e36_main_call1_cst V36
  -- operation 37: ternary main_call1_v12 main_call1_v13 main_call1_v14 → main_v2
  refine after_step _ _ _ _ _ fun V38 hV38 => ?_
  have e38_main_v2 : V38 (Proc.devRef .tc main_v2) = (ReadP.val_main_v2 (F := F) x0 x1) := by
    simp (disch := decide) only [hV38, ternary_result', TRef.toBuf, TRef.ofBuf, cast_eq, e37_main_call1_v12, e37_main_call1_v13, e37_main_call1_v14]
    rfl
  have e38_main_arg1 : V38 (Proc.devRef .tc main_arg1) = x1 := by
    simp (disch := decide) only [hV38, ternary_result_ne', e37_main_arg1]
  have e38_main_v0 : V38 (Proc.devRef .tc main_v0) = (ReadP.val_main_v0 (F := F) x0) := by
    simp (disch := decide) only [hV38, ternary_result_ne', e37_main_v0]
  clear hV38 e37_main_arg1 e37_main_v0 e37_main_call1_v12 e37_main_call1_v13 e37_main_call1_v14 V37
  -- operation 38: reshape main_v2 → main_v3
  refine after_step _ _ _ _ _ fun V39 hV39 => ?_
  have e39_main_v3 : V39 (Proc.devRef .tc main_v3) = (ReadP.val_main_v3 (F := F) x0 x1) := by
    simp (disch := decide) only [hV39, reshape_result', TRef.toBuf, TRef.ofBuf, cast_eq, e38_main_v2]
    rfl
  have e39_main_arg1 : V39 (Proc.devRef .tc main_arg1) = x1 := by
    simp (disch := decide) only [hV39, reshape_result_ne', e38_main_arg1]
  have e39_main_v0 : V39 (Proc.devRef .tc main_v0) = (ReadP.val_main_v0 (F := F) x0) := by
    simp (disch := decide) only [hV39, reshape_result_ne', e38_main_v0]
  clear hV39 e38_main_arg1 e38_main_v0 e38_main_v2 V38
  -- operation 39: unary main_v0 → main_v4
  refine after_step _ _ _ _ _ fun V40 hV40 => ?_
  have e40_main_v4 : V40 (Proc.devRef .tc main_v4) = (ReadP.val_main_v4 (F := F) x0) := by
    simp (disch := decide) only [hV40, unary_result', TRef.toBuf, TRef.ofBuf, cast_eq, e39_main_v0]
    rfl
  have e40_main_arg1 : V40 (Proc.devRef .tc main_arg1) = x1 := by
    simp (disch := decide) only [hV40, unary_result_ne', e39_main_arg1]
  have e40_main_v3 : V40 (Proc.devRef .tc main_v3) = (ReadP.val_main_v3 (F := F) x0 x1) := by
    simp (disch := decide) only [hV40, unary_result_ne', e39_main_v3]
  clear hV40 e39_main_arg1 e39_main_v0 e39_main_v3 V39
  -- operation 40: unary main_v3 → main_v5
  refine after_step _ _ _ _ _ fun V41 hV41 => ?_
  have e41_main_v5 : V41 (Proc.devRef .tc main_v5) = (ReadP.val_main_v5 (F := F) x0 x1) := by
    simp (disch := decide) only [hV41, unary_result', TRef.toBuf, TRef.ofBuf, cast_eq, e40_main_v3]
    rfl
  have e41_main_arg1 : V41 (Proc.devRef .tc main_arg1) = x1 := by
    simp (disch := decide) only [hV41, unary_result_ne', e40_main_arg1]
  have e41_main_v3 : V41 (Proc.devRef .tc main_v3) = (ReadP.val_main_v3 (F := F) x0 x1) := by
    simp (disch := decide) only [hV41, unary_result_ne', e40_main_v3]
  have e41_main_v4 : V41 (Proc.devRef .tc main_v4) = (ReadP.val_main_v4 (F := F) x0) := by
    simp (disch := decide) only [hV41, unary_result_ne', e40_main_v4]
  clear hV41 e40_main_arg1 e40_main_v3 e40_main_v4 V40
  -- operation 41: nullary  → main_cst
  refine after_step _ _ _ _ _ fun V42 hV42 => ?_
  have e42_main_cst : V42 (Proc.devRef .tc main_cst) = (ReadP.val_main_cst (F := F)) := by
    simp (disch := decide) only [hV42, nullary_result', TRef.toBuf, TRef.ofBuf, cast_eq]
    rfl
  have e42_main_arg1 : V42 (Proc.devRef .tc main_arg1) = x1 := by
    simp (disch := decide) only [hV42, nullary_result_ne', e41_main_arg1]
  have e42_main_v3 : V42 (Proc.devRef .tc main_v3) = (ReadP.val_main_v3 (F := F) x0 x1) := by
    simp (disch := decide) only [hV42, nullary_result_ne', e41_main_v3]
  have e42_main_v4 : V42 (Proc.devRef .tc main_v4) = (ReadP.val_main_v4 (F := F) x0) := by
    simp (disch := decide) only [hV42, nullary_result_ne', e41_main_v4]
  have e42_main_v5 : V42 (Proc.devRef .tc main_v5) = (ReadP.val_main_v5 (F := F) x0 x1) := by
    simp (disch := decide) only [hV42, nullary_result_ne', e41_main_v5]
  clear hV42 e41_main_arg1 e41_main_v3 e41_main_v4 e41_main_v5 V41
  -- operation 42: unary main_cst → main_v6
  refine after_step _ _ _ _ _ fun V43 hV43 => ?_
  have e43_main_v6 : V43 (Proc.devRef .tc main_v6) = (ReadP.val_main_v6 (F := F)) := by
    simp (disch := decide) only [hV43, unary_result', TRef.toBuf, TRef.ofBuf, cast_eq, e42_main_cst]
    rfl
  have e43_main_arg1 : V43 (Proc.devRef .tc main_arg1) = x1 := by
    simp (disch := decide) only [hV43, unary_result_ne', e42_main_arg1]
  have e43_main_v3 : V43 (Proc.devRef .tc main_v3) = (ReadP.val_main_v3 (F := F) x0 x1) := by
    simp (disch := decide) only [hV43, unary_result_ne', e42_main_v3]
  have e43_main_v4 : V43 (Proc.devRef .tc main_v4) = (ReadP.val_main_v4 (F := F) x0) := by
    simp (disch := decide) only [hV43, unary_result_ne', e42_main_v4]
  have e43_main_v5 : V43 (Proc.devRef .tc main_v5) = (ReadP.val_main_v5 (F := F) x0 x1) := by
    simp (disch := decide) only [hV43, unary_result_ne', e42_main_v5]
  clear hV43 e42_main_arg1 e42_main_v3 e42_main_v4 e42_main_v5 e42_main_cst V42
  -- operation 43: binary main_v5 main_v6 → main_v7
  refine after_step _ _ _ _ _ fun V44 hV44 => ?_
  have e44_main_v7 : V44 (Proc.devRef .tc main_v7) = (ReadP.val_main_v7 (F := F) x0 x1) := by
    simp (disch := decide) only [hV44, binary_result', TRef.toBuf, TRef.ofBuf, cast_eq, e43_main_v5, e43_main_v6]
    rfl
  have e44_main_arg1 : V44 (Proc.devRef .tc main_arg1) = x1 := by
    simp (disch := decide) only [hV44, binary_result_ne', e43_main_arg1]
  have e44_main_v3 : V44 (Proc.devRef .tc main_v3) = (ReadP.val_main_v3 (F := F) x0 x1) := by
    simp (disch := decide) only [hV44, binary_result_ne', e43_main_v3]
  have e44_main_v4 : V44 (Proc.devRef .tc main_v4) = (ReadP.val_main_v4 (F := F) x0) := by
    simp (disch := decide) only [hV44, binary_result_ne', e43_main_v4]
  have e44_main_v5 : V44 (Proc.devRef .tc main_v5) = (ReadP.val_main_v5 (F := F) x0 x1) := by
    simp (disch := decide) only [hV44, binary_result_ne', e43_main_v5]
  clear hV44 e43_main_arg1 e43_main_v3 e43_main_v4 e43_main_v5 e43_main_v6 V43
  -- operation 44: nullary  → main_cst_0
  refine after_step _ _ _ _ _ fun V45 hV45 => ?_
  have e45_main_cst_0 : V45 (Proc.devRef .tc main_cst_0) = (ReadP.val_main_cst_0 (F := F)) := by
    simp (disch := decide) only [hV45, nullary_result', TRef.toBuf, TRef.ofBuf, cast_eq]
    rfl
  have e45_main_arg1 : V45 (Proc.devRef .tc main_arg1) = x1 := by
    simp (disch := decide) only [hV45, nullary_result_ne', e44_main_arg1]
  have e45_main_v3 : V45 (Proc.devRef .tc main_v3) = (ReadP.val_main_v3 (F := F) x0 x1) := by
    simp (disch := decide) only [hV45, nullary_result_ne', e44_main_v3]
  have e45_main_v4 : V45 (Proc.devRef .tc main_v4) = (ReadP.val_main_v4 (F := F) x0) := by
    simp (disch := decide) only [hV45, nullary_result_ne', e44_main_v4]
  have e45_main_v5 : V45 (Proc.devRef .tc main_v5) = (ReadP.val_main_v5 (F := F) x0 x1) := by
    simp (disch := decide) only [hV45, nullary_result_ne', e44_main_v5]
  have e45_main_v7 : V45 (Proc.devRef .tc main_v7) = (ReadP.val_main_v7 (F := F) x0 x1) := by
    simp (disch := decide) only [hV45, nullary_result_ne', e44_main_v7]
  clear hV45 e44_main_arg1 e44_main_v3 e44_main_v4 e44_main_v5 e44_main_v7 V44
  -- operation 45: unary main_cst_0 → main_v8
  refine after_step _ _ _ _ _ fun V46 hV46 => ?_
  have e46_main_v8 : V46 (Proc.devRef .tc main_v8) = (ReadP.val_main_v8 (F := F)) := by
    simp (disch := decide) only [hV46, unary_result', TRef.toBuf, TRef.ofBuf, cast_eq, e45_main_cst_0]
    rfl
  have e46_main_arg1 : V46 (Proc.devRef .tc main_arg1) = x1 := by
    simp (disch := decide) only [hV46, unary_result_ne', e45_main_arg1]
  have e46_main_v3 : V46 (Proc.devRef .tc main_v3) = (ReadP.val_main_v3 (F := F) x0 x1) := by
    simp (disch := decide) only [hV46, unary_result_ne', e45_main_v3]
  have e46_main_v4 : V46 (Proc.devRef .tc main_v4) = (ReadP.val_main_v4 (F := F) x0) := by
    simp (disch := decide) only [hV46, unary_result_ne', e45_main_v4]
  have e46_main_v5 : V46 (Proc.devRef .tc main_v5) = (ReadP.val_main_v5 (F := F) x0 x1) := by
    simp (disch := decide) only [hV46, unary_result_ne', e45_main_v5]
  have e46_main_v7 : V46 (Proc.devRef .tc main_v7) = (ReadP.val_main_v7 (F := F) x0 x1) := by
    simp (disch := decide) only [hV46, unary_result_ne', e45_main_v7]
  clear hV46 e45_main_arg1 e45_main_v3 e45_main_v4 e45_main_v5 e45_main_v7 e45_main_cst_0 V45
  -- operation 46: binary main_v5 main_v8 → main_v9
  refine after_step _ _ _ _ _ fun V47 hV47 => ?_
  have e47_main_v9 : V47 (Proc.devRef .tc main_v9) = (ReadP.val_main_v9 (F := F) x0 x1) := by
    simp (disch := decide) only [hV47, binary_result', TRef.toBuf, TRef.ofBuf, cast_eq, e46_main_v5, e46_main_v8]
    rfl
  have e47_main_arg1 : V47 (Proc.devRef .tc main_arg1) = x1 := by
    simp (disch := decide) only [hV47, binary_result_ne', e46_main_arg1]
  have e47_main_v3 : V47 (Proc.devRef .tc main_v3) = (ReadP.val_main_v3 (F := F) x0 x1) := by
    simp (disch := decide) only [hV47, binary_result_ne', e46_main_v3]
  have e47_main_v4 : V47 (Proc.devRef .tc main_v4) = (ReadP.val_main_v4 (F := F) x0) := by
    simp (disch := decide) only [hV47, binary_result_ne', e46_main_v4]
  have e47_main_v7 : V47 (Proc.devRef .tc main_v7) = (ReadP.val_main_v7 (F := F) x0 x1) := by
    simp (disch := decide) only [hV47, binary_result_ne', e46_main_v7]
  clear hV47 e46_main_arg1 e46_main_v3 e46_main_v4 e46_main_v5 e46_main_v7 e46_main_v8 V46
  -- operation 47: nullary  → main_cst_1
  refine after_step _ _ _ _ _ fun V48 hV48 => ?_
  have e48_main_cst_1 : V48 (Proc.devRef .tc main_cst_1) = (ReadP.val_main_cst_1 (F := F)) := by
    simp (disch := decide) only [hV48, nullary_result', TRef.toBuf, TRef.ofBuf, cast_eq]
    rfl
  have e48_main_arg1 : V48 (Proc.devRef .tc main_arg1) = x1 := by
    simp (disch := decide) only [hV48, nullary_result_ne', e47_main_arg1]
  have e48_main_v3 : V48 (Proc.devRef .tc main_v3) = (ReadP.val_main_v3 (F := F) x0 x1) := by
    simp (disch := decide) only [hV48, nullary_result_ne', e47_main_v3]
  have e48_main_v4 : V48 (Proc.devRef .tc main_v4) = (ReadP.val_main_v4 (F := F) x0) := by
    simp (disch := decide) only [hV48, nullary_result_ne', e47_main_v4]
  have e48_main_v7 : V48 (Proc.devRef .tc main_v7) = (ReadP.val_main_v7 (F := F) x0 x1) := by
    simp (disch := decide) only [hV48, nullary_result_ne', e47_main_v7]
  have e48_main_v9 : V48 (Proc.devRef .tc main_v9) = (ReadP.val_main_v9 (F := F) x0 x1) := by
    simp (disch := decide) only [hV48, nullary_result_ne', e47_main_v9]
  clear hV48 e47_main_arg1 e47_main_v3 e47_main_v4 e47_main_v7 e47_main_v9 V47
  -- operation 48: nullary  → main_cst_2
  refine after_step _ _ _ _ _ fun V49 hV49 => ?_
  have e49_main_cst_2 : V49 (Proc.devRef .tc main_cst_2) = (ReadP.val_main_cst_2 (F := F)) := by
    simp (disch := decide) only [hV49, nullary_result', TRef.toBuf, TRef.ofBuf, cast_eq]
    rfl
  have e49_main_arg1 : V49 (Proc.devRef .tc main_arg1) = x1 := by
    simp (disch := decide) only [hV49, nullary_result_ne', e48_main_arg1]
  have e49_main_v3 : V49 (Proc.devRef .tc main_v3) = (ReadP.val_main_v3 (F := F) x0 x1) := by
    simp (disch := decide) only [hV49, nullary_result_ne', e48_main_v3]
  have e49_main_v4 : V49 (Proc.devRef .tc main_v4) = (ReadP.val_main_v4 (F := F) x0) := by
    simp (disch := decide) only [hV49, nullary_result_ne', e48_main_v4]
  have e49_main_v7 : V49 (Proc.devRef .tc main_v7) = (ReadP.val_main_v7 (F := F) x0 x1) := by
    simp (disch := decide) only [hV49, nullary_result_ne', e48_main_v7]
  have e49_main_v9 : V49 (Proc.devRef .tc main_v9) = (ReadP.val_main_v9 (F := F) x0 x1) := by
    simp (disch := decide) only [hV49, nullary_result_ne', e48_main_v9]
  have e49_main_cst_1 : V49 (Proc.devRef .tc main_cst_1) = (ReadP.val_main_cst_1 (F := F)) := by
    simp (disch := decide) only [hV49, nullary_result_ne', e48_main_cst_1]
  clear hV49 e48_main_arg1 e48_main_v3 e48_main_v4 e48_main_v7 e48_main_v9 e48_main_cst_1 V48
  -- operation 49: unary main_cst_1 → main_call2_v0
  refine after_step _ _ _ _ _ fun V50 hV50 => ?_
  have e50_main_call2_v0 : V50 (Proc.devRef .tc main_call2_v0) = (ReadP.val_main_call2_v0 (F := F)) := by
    simp (disch := decide) only [hV50, unary_result', TRef.toBuf, TRef.ofBuf, cast_eq, e49_main_cst_1]
    rfl
  have e50_main_arg1 : V50 (Proc.devRef .tc main_arg1) = x1 := by
    simp (disch := decide) only [hV50, unary_result_ne', e49_main_arg1]
  have e50_main_v3 : V50 (Proc.devRef .tc main_v3) = (ReadP.val_main_v3 (F := F) x0 x1) := by
    simp (disch := decide) only [hV50, unary_result_ne', e49_main_v3]
  have e50_main_v4 : V50 (Proc.devRef .tc main_v4) = (ReadP.val_main_v4 (F := F) x0) := by
    simp (disch := decide) only [hV50, unary_result_ne', e49_main_v4]
  have e50_main_v7 : V50 (Proc.devRef .tc main_v7) = (ReadP.val_main_v7 (F := F) x0 x1) := by
    simp (disch := decide) only [hV50, unary_result_ne', e49_main_v7]
  have e50_main_v9 : V50 (Proc.devRef .tc main_v9) = (ReadP.val_main_v9 (F := F) x0 x1) := by
    simp (disch := decide) only [hV50, unary_result_ne', e49_main_v9]
  have e50_main_cst_2 : V50 (Proc.devRef .tc main_cst_2) = (ReadP.val_main_cst_2 (F := F)) := by
    simp (disch := decide) only [hV50, unary_result_ne', e49_main_cst_2]
  clear hV50 e49_main_arg1 e49_main_v3 e49_main_v4 e49_main_v7 e49_main_v9 e49_main_cst_1 e49_main_cst_2 V49
  -- operation 50: unary main_cst_2 → main_call2_v1
  refine after_step _ _ _ _ _ fun V51 hV51 => ?_
  have e51_main_call2_v1 : V51 (Proc.devRef .tc main_call2_v1) = (ReadP.val_main_call2_v1 (F := F)) := by
    simp (disch := decide) only [hV51, unary_result', TRef.toBuf, TRef.ofBuf, cast_eq, e50_main_cst_2]
    rfl
  have e51_main_arg1 : V51 (Proc.devRef .tc main_arg1) = x1 := by
    simp (disch := decide) only [hV51, unary_result_ne', e50_main_arg1]
  have e51_main_v3 : V51 (Proc.devRef .tc main_v3) = (ReadP.val_main_v3 (F := F) x0 x1) := by
    simp (disch := decide) only [hV51, unary_result_ne', e50_main_v3]
  have e51_main_v4 : V51 (Proc.devRef .tc main_v4) = (ReadP.val_main_v4 (F := F) x0) := by
    simp (disch := decide) only [hV51, unary_result_ne', e50_main_v4]
  have e51_main_v7 : V51 (Proc.devRef .tc main_v7) = (ReadP.val_main_v7 (F := F) x0 x1) := by
    simp (disch := decide) only [hV51, unary_result_ne', e50_main_v7]
  have e51_main_v9 : V51 (Proc.devRef .tc main_v9) = (ReadP.val_main_v9 (F := F) x0 x1) := by
    simp (disch := decide) only [hV51, unary_result_ne', e50_main_v9]
  have e51_main_call2_v0 : V51 (Proc.devRef .tc main_call2_v0) = (ReadP.val_main_call2_v0 (F := F)) := by
    simp (disch := decide) only [hV51, unary_result_ne', e50_main_call2_v0]
  clear hV51 e50_main_arg1 e50_main_v3 e50_main_v4 e50_main_v7 e50_main_v9 e50_main_cst_2 e50_main_call2_v0 V50
  -- operation 51: ternary main_v9 main_call2_v0 main_call2_v1 → main_v10
  refine after_step _ _ _ _ _ fun V52 hV52 => ?_
  have e52_main_v10 : V52 (Proc.devRef .tc main_v10) = (ReadP.val_main_v10 (F := F) x0 x1) := by
    simp (disch := decide) only [hV52, ternary_result', TRef.toBuf, TRef.ofBuf, cast_eq, e51_main_v9, e51_main_call2_v0, e51_main_call2_v1]
    rfl
  have e52_main_arg1 : V52 (Proc.devRef .tc main_arg1) = x1 := by
    simp (disch := decide) only [hV52, ternary_result_ne', e51_main_arg1]
  have e52_main_v3 : V52 (Proc.devRef .tc main_v3) = (ReadP.val_main_v3 (F := F) x0 x1) := by
    simp (disch := decide) only [hV52, ternary_result_ne', e51_main_v3]
  have e52_main_v4 : V52 (Proc.devRef .tc main_v4) = (ReadP.val_main_v4 (F := F) x0) := by
    simp (disch := decide) only [hV52, ternary_result_ne', e51_main_v4]
  have e52_main_v7 : V52 (Proc.devRef .tc main_v7) = (ReadP.val_main_v7 (F := F) x0 x1) := by
    simp (disch := decide) only [hV52, ternary_result_ne', e51_main_v7]
  clear hV52 e51_main_arg1 e51_main_v3 e51_main_v4 e51_main_v7 e51_main_v9 e51_main_call2_v0 e51_main_call2_v1 V51
  -- operation 52: nullary  → main_cst_3
  refine after_step _ _ _ _ _ fun V53 hV53 => ?_
  have e53_main_cst_3 : V53 (Proc.devRef .tc main_cst_3) = (ReadP.val_main_cst_3 (F := F)) := by
    simp (disch := decide) only [hV53, nullary_result', TRef.toBuf, TRef.ofBuf, cast_eq]
    rfl
  have e53_main_arg1 : V53 (Proc.devRef .tc main_arg1) = x1 := by
    simp (disch := decide) only [hV53, nullary_result_ne', e52_main_arg1]
  have e53_main_v3 : V53 (Proc.devRef .tc main_v3) = (ReadP.val_main_v3 (F := F) x0 x1) := by
    simp (disch := decide) only [hV53, nullary_result_ne', e52_main_v3]
  have e53_main_v4 : V53 (Proc.devRef .tc main_v4) = (ReadP.val_main_v4 (F := F) x0) := by
    simp (disch := decide) only [hV53, nullary_result_ne', e52_main_v4]
  have e53_main_v7 : V53 (Proc.devRef .tc main_v7) = (ReadP.val_main_v7 (F := F) x0 x1) := by
    simp (disch := decide) only [hV53, nullary_result_ne', e52_main_v7]
  have e53_main_v10 : V53 (Proc.devRef .tc main_v10) = (ReadP.val_main_v10 (F := F) x0 x1) := by
    simp (disch := decide) only [hV53, nullary_result_ne', e52_main_v10]
  clear hV53 e52_main_arg1 e52_main_v3 e52_main_v4 e52_main_v7 e52_main_v10 V52
  -- operation 53: unary main_cst_3 → main_call3_v0
  refine after_step _ _ _ _ _ fun V54 hV54 => ?_
  have e54_main_call3_v0 : V54 (Proc.devRef .tc main_call3_v0) = (ReadP.val_main_call3_v0 (F := F)) := by
    simp (disch := decide) only [hV54, unary_result', TRef.toBuf, TRef.ofBuf, cast_eq, e53_main_cst_3]
    rfl
  have e54_main_arg1 : V54 (Proc.devRef .tc main_arg1) = x1 := by
    simp (disch := decide) only [hV54, unary_result_ne', e53_main_arg1]
  have e54_main_v3 : V54 (Proc.devRef .tc main_v3) = (ReadP.val_main_v3 (F := F) x0 x1) := by
    simp (disch := decide) only [hV54, unary_result_ne', e53_main_v3]
  have e54_main_v4 : V54 (Proc.devRef .tc main_v4) = (ReadP.val_main_v4 (F := F) x0) := by
    simp (disch := decide) only [hV54, unary_result_ne', e53_main_v4]
  have e54_main_v7 : V54 (Proc.devRef .tc main_v7) = (ReadP.val_main_v7 (F := F) x0 x1) := by
    simp (disch := decide) only [hV54, unary_result_ne', e53_main_v7]
  have e54_main_v10 : V54 (Proc.devRef .tc main_v10) = (ReadP.val_main_v10 (F := F) x0 x1) := by
    simp (disch := decide) only [hV54, unary_result_ne', e53_main_v10]
  clear hV54 e53_main_arg1 e53_main_v3 e53_main_v4 e53_main_v7 e53_main_v10 e53_main_cst_3 V53
  -- operation 54: ternary main_v7 main_call3_v0 main_v10 → main_v11
  refine after_step _ _ _ _ _ fun V55 hV55 => ?_
  have e55_main_v11 : V55 (Proc.devRef .tc main_v11) = (ReadP.val_main_v11 (F := F) x0 x1) := by
    simp (disch := decide) only [hV55, ternary_result', TRef.toBuf, TRef.ofBuf, cast_eq, e54_main_v7, e54_main_call3_v0, e54_main_v10]
    rfl
  have e55_main_arg1 : V55 (Proc.devRef .tc main_arg1) = x1 := by
    simp (disch := decide) only [hV55, ternary_result_ne', e54_main_arg1]
  have e55_main_v3 : V55 (Proc.devRef .tc main_v3) = (ReadP.val_main_v3 (F := F) x0 x1) := by
    simp (disch := decide) only [hV55, ternary_result_ne', e54_main_v3]
  have e55_main_v4 : V55 (Proc.devRef .tc main_v4) = (ReadP.val_main_v4 (F := F) x0) := by
    simp (disch := decide) only [hV55, ternary_result_ne', e54_main_v4]
  clear hV55 e54_main_arg1 e54_main_v3 e54_main_v4 e54_main_v7 e54_main_v10 e54_main_call3_v0 V54
  -- operation 55: unary main_arg1 → main_call4_v0
  refine after_step _ _ _ _ _ fun V56 hV56 => ?_
  have e56_main_call4_v0 : V56 (Proc.devRef .tc main_call4_v0) = (ReadP.val_main_call4_v0 (F := F) x1) := by
    simp (disch := decide) only [hV56, unary_result', TRef.toBuf, TRef.ofBuf, cast_eq, e55_main_arg1]
    rfl
  have e56_main_v3 : V56 (Proc.devRef .tc main_v3) = (ReadP.val_main_v3 (F := F) x0 x1) := by
    simp (disch := decide) only [hV56, unary_result_ne', e55_main_v3]
  have e56_main_v4 : V56 (Proc.devRef .tc main_v4) = (ReadP.val_main_v4 (F := F) x0) := by
    simp (disch := decide) only [hV56, unary_result_ne', e55_main_v4]
  have e56_main_v11 : V56 (Proc.devRef .tc main_v11) = (ReadP.val_main_v11 (F := F) x0 x1) := by
    simp (disch := decide) only [hV56, unary_result_ne', e55_main_v11]
  clear hV56 e55_main_arg1 e55_main_v3 e55_main_v4 e55_main_v11 V55
  -- operation 56: nullary  → main_call4_v1
  refine after_step _ _ _ _ _ fun V57 hV57 => ?_
  have e57_main_call4_v1 : V57 (Proc.devRef .tc main_call4_v1) = (ReadP.val_main_call4_v1 (F := F)) := by
    simp (disch := decide) only [hV57, nullary_result', TRef.toBuf, TRef.ofBuf, cast_eq]
    rfl
  have e57_main_v3 : V57 (Proc.devRef .tc main_v3) = (ReadP.val_main_v3 (F := F) x0 x1) := by
    simp (disch := decide) only [hV57, nullary_result_ne', e56_main_v3]
  have e57_main_v4 : V57 (Proc.devRef .tc main_v4) = (ReadP.val_main_v4 (F := F) x0) := by
    simp (disch := decide) only [hV57, nullary_result_ne', e56_main_v4]
  have e57_main_v11 : V57 (Proc.devRef .tc main_v11) = (ReadP.val_main_v11 (F := F) x0 x1) := by
    simp (disch := decide) only [hV57, nullary_result_ne', e56_main_v11]
  have e57_main_call4_v0 : V57 (Proc.devRef .tc main_call4_v0) = (ReadP.val_main_call4_v0 (F := F) x1) := by
    simp (disch := decide) only [hV57, nullary_result_ne', e56_main_call4_v0]
  clear hV57 e56_main_v3 e56_main_v4 e56_main_v11 e56_main_call4_v0 V56
  -- operation 57: unary main_call4_v0 → main_call4_v2
  refine after_step _ _ _ _ _ fun V58 hV58 => ?_
  have e58_main_call4_v2 : V58 (Proc.devRef .tc main_call4_v2) = (ReadP.val_main_call4_v2 (F := F) x1) := by
    simp (disch := decide) only [hV58, unary_result', TRef.toBuf, TRef.ofBuf, cast_eq, e57_main_call4_v0]
    rfl
  have e58_main_v3 : V58 (Proc.devRef .tc main_v3) = (ReadP.val_main_v3 (F := F) x0 x1) := by
    simp (disch := decide) only [hV58, unary_result_ne', e57_main_v3]
  have e58_main_v4 : V58 (Proc.devRef .tc main_v4) = (ReadP.val_main_v4 (F := F) x0) := by
    simp (disch := decide) only [hV58, unary_result_ne', e57_main_v4]
  have e58_main_v11 : V58 (Proc.devRef .tc main_v11) = (ReadP.val_main_v11 (F := F) x0 x1) := by
    simp (disch := decide) only [hV58, unary_result_ne', e57_main_v11]
  have e58_main_call4_v1 : V58 (Proc.devRef .tc main_call4_v1) = (ReadP.val_main_call4_v1 (F := F)) := by
    simp (disch := decide) only [hV58, unary_result_ne', e57_main_call4_v1]
  clear hV58 e57_main_v3 e57_main_v4 e57_main_v11 e57_main_call4_v0 e57_main_call4_v1 V57
  -- operation 58: unary main_call4_v1 → main_call4_v3
  refine after_step _ _ _ _ _ fun V59 hV59 => ?_
  have e59_main_call4_v3 : V59 (Proc.devRef .tc main_call4_v3) = (ReadP.val_main_call4_v3 (F := F)) := by
    simp (disch := decide) only [hV59, unary_result', TRef.toBuf, TRef.ofBuf, cast_eq, e58_main_call4_v1]
    rfl
  have e59_main_v3 : V59 (Proc.devRef .tc main_v3) = (ReadP.val_main_v3 (F := F) x0 x1) := by
    simp (disch := decide) only [hV59, unary_result_ne', e58_main_v3]
  have e59_main_v4 : V59 (Proc.devRef .tc main_v4) = (ReadP.val_main_v4 (F := F) x0) := by
    simp (disch := decide) only [hV59, unary_result_ne', e58_main_v4]
  have e59_main_v11 : V59 (Proc.devRef .tc main_v11) = (ReadP.val_main_v11 (F := F) x0 x1) := by
    simp (disch := decide) only [hV59, unary_result_ne', e58_main_v11]
  have e59_main_call4_v2 : V59 (Proc.devRef .tc main_call4_v2) = (ReadP.val_main_call4_v2 (F := F) x1) := by
    simp (disch := decide) only [hV59, unary_result_ne', e58_main_call4_v2]
  clear hV59 e58_main_v3 e58_main_v4 e58_main_v11 e58_main_call4_v1 e58_main_call4_v2 V58
  -- operation 59: binary main_call4_v2 main_call4_v3 → main_call4_v4
  refine after_step _ _ _ _ _ fun V60 hV60 => ?_
  have e60_main_call4_v4 : V60 (Proc.devRef .tc main_call4_v4) = (ReadP.val_main_call4_v4 (F := F) x1) := by
    simp (disch := decide) only [hV60, binary_result', TRef.toBuf, TRef.ofBuf, cast_eq, e59_main_call4_v2, e59_main_call4_v3]
    rfl
  have e60_main_v3 : V60 (Proc.devRef .tc main_v3) = (ReadP.val_main_v3 (F := F) x0 x1) := by
    simp (disch := decide) only [hV60, binary_result_ne', e59_main_v3]
  have e60_main_v4 : V60 (Proc.devRef .tc main_v4) = (ReadP.val_main_v4 (F := F) x0) := by
    simp (disch := decide) only [hV60, binary_result_ne', e59_main_v4]
  have e60_main_v11 : V60 (Proc.devRef .tc main_v11) = (ReadP.val_main_v11 (F := F) x0 x1) := by
    simp (disch := decide) only [hV60, binary_result_ne', e59_main_v11]
  clear hV60 e59_main_v3 e59_main_v4 e59_main_v11 e59_main_call4_v2 e59_main_call4_v3 V59
  -- operation 60: unary main_call4_v4 → main_v12
  refine after_step _ _ _ _ _ fun V61 hV61 => ?_
  have e61_main_v12 : V61 (Proc.devRef .tc main_v12) = (ReadP.val_main_v12 (F := F) x1) := by
    simp (disch := decide) only [hV61, unary_result', TRef.toBuf, TRef.ofBuf, cast_eq, e60_main_call4_v4]
    rfl
  have e61_main_v3 : V61 (Proc.devRef .tc main_v3) = (ReadP.val_main_v3 (F := F) x0 x1) := by
    simp (disch := decide) only [hV61, unary_result_ne', e60_main_v3]
  have e61_main_v4 : V61 (Proc.devRef .tc main_v4) = (ReadP.val_main_v4 (F := F) x0) := by
    simp (disch := decide) only [hV61, unary_result_ne', e60_main_v4]
  have e61_main_v11 : V61 (Proc.devRef .tc main_v11) = (ReadP.val_main_v11 (F := F) x0 x1) := by
    simp (disch := decide) only [hV61, unary_result_ne', e60_main_v11]
  clear hV61 e60_main_v3 e60_main_v4 e60_main_v11 e60_main_call4_v4 V60
  -- operation 61: binary main_v12 main_v4 → main_v13
  refine after_step _ _ _ _ _ fun V62 hV62 => ?_
  have e62_main_v13 : V62 (Proc.devRef .tc main_v13) = (ReadP.val_main_v13 (F := F) x0 x1) := by
    simp (disch := decide) only [hV62, binary_result', TRef.toBuf, TRef.ofBuf, cast_eq, e61_main_v12, e61_main_v4]
    rfl
  have e62_main_v3 : V62 (Proc.devRef .tc main_v3) = (ReadP.val_main_v3 (F := F) x0 x1) := by
    simp (disch := decide) only [hV62, binary_result_ne', e61_main_v3]
  have e62_main_v11 : V62 (Proc.devRef .tc main_v11) = (ReadP.val_main_v11 (F := F) x0 x1) := by
    simp (disch := decide) only [hV62, binary_result_ne', e61_main_v11]
  clear hV62 e61_main_v3 e61_main_v4 e61_main_v11 e61_main_v12 V61
  -- operation 62: unary main_v13 → main_v14
  refine after_step _ _ _ _ _ fun V63 hV63 => ?_
  have e63_main_v14 : V63 (Proc.devRef .tc main_v14) = (ReadP.val_main_v14 (F := F) x0 x1) := by
    simp (disch := decide) only [hV63, unary_result', TRef.toBuf, TRef.ofBuf, cast_eq, e62_main_v13]
    rfl
  have e63_main_v3 : V63 (Proc.devRef .tc main_v3) = (ReadP.val_main_v3 (F := F) x0 x1) := by
    simp (disch := decide) only [hV63, unary_result_ne', e62_main_v3]
  have e63_main_v11 : V63 (Proc.devRef .tc main_v11) = (ReadP.val_main_v11 (F := F) x0 x1) := by
    simp (disch := decide) only [hV63, unary_result_ne', e62_main_v11]
  clear hV63 e62_main_v3 e62_main_v11 e62_main_v13 V62
  -- operation 63: nullary  → main_cst_4
  refine after_step _ _ _ _ _ fun V64 hV64 => ?_
  have e64_main_cst_4 : V64 (Proc.devRef .tc main_cst_4) = (ReadP.val_main_cst_4 (F := F)) := by
    simp (disch := decide) only [hV64, nullary_result', TRef.toBuf, TRef.ofBuf, cast_eq]
    rfl
  have e64_main_v3 : V64 (Proc.devRef .tc main_v3) = (ReadP.val_main_v3 (F := F) x0 x1) := by
    simp (disch := decide) only [hV64, nullary_result_ne', e63_main_v3]
  have e64_main_v11 : V64 (Proc.devRef .tc main_v11) = (ReadP.val_main_v11 (F := F) x0 x1) := by
    simp (disch := decide) only [hV64, nullary_result_ne', e63_main_v11]
  have e64_main_v14 : V64 (Proc.devRef .tc main_v14) = (ReadP.val_main_v14 (F := F) x0 x1) := by
    simp (disch := decide) only [hV64, nullary_result_ne', e63_main_v14]
  clear hV64 e63_main_v3 e63_main_v11 e63_main_v14 V63
  -- operation 64: binary main_v14 main_cst_4 → main_v15
  refine after_step _ _ _ _ _ fun V65 hV65 => ?_
  have e65_main_v15 : V65 (Proc.devRef .tc main_v15) = (ReadP.val_main_v15 (F := F) x0 x1) := by
    simp (disch := decide) only [hV65, binary_result', TRef.toBuf, TRef.ofBuf, cast_eq, e64_main_v14, e64_main_cst_4]
    rfl
  have e65_main_v3 : V65 (Proc.devRef .tc main_v3) = (ReadP.val_main_v3 (F := F) x0 x1) := by
    simp (disch := decide) only [hV65, binary_result_ne', e64_main_v3]
  have e65_main_v11 : V65 (Proc.devRef .tc main_v11) = (ReadP.val_main_v11 (F := F) x0 x1) := by
    simp (disch := decide) only [hV65, binary_result_ne', e64_main_v11]
  clear hV65 e64_main_v3 e64_main_v11 e64_main_v14 e64_main_cst_4 V64
  -- operation 65: unary main_v11 → main_v16
  refine after_step _ _ _ _ _ fun V66 hV66 => ?_
  have e66_main_v16 : V66 (Proc.devRef .tc main_v16) = (ReadP.val_main_v16 (F := F) x0 x1) := by
    simp (disch := decide) only [hV66, unary_result', TRef.toBuf, TRef.ofBuf, cast_eq, e65_main_v11]
    rfl
  have e66_main_v3 : V66 (Proc.devRef .tc main_v3) = (ReadP.val_main_v3 (F := F) x0 x1) := by
    simp (disch := decide) only [hV66, unary_result_ne', e65_main_v3]
  have e66_main_v15 : V66 (Proc.devRef .tc main_v15) = (ReadP.val_main_v15 (F := F) x0 x1) := by
    simp (disch := decide) only [hV66, unary_result_ne', e65_main_v15]
  clear hV66 e65_main_v3 e65_main_v11 e65_main_v15 V65
  -- operation 66: binary main_v15 main_v16 → main_v17
  refine after_step _ _ _ _ _ fun V67 hV67 => ?_
  have e67_main_v17 : V67 (Proc.devRef .tc main_v17) = (ReadP.val_main_v17 (F := F) x0 x1) := by
    simp (disch := decide) only [hV67, binary_result', TRef.toBuf, TRef.ofBuf, cast_eq, e66_main_v15, e66_main_v16]
    rfl
  have e67_main_v3 : V67 (Proc.devRef .tc main_v3) = (ReadP.val_main_v3 (F := F) x0 x1) := by
    simp (disch := decide) only [hV67, binary_result_ne', e66_main_v3]
  clear hV67 e66_main_v3 e66_main_v15 e66_main_v16 V66
  -- operation 67: unary main_v17 → main_v18
  refine after_step _ _ _ _ _ fun V68 hV68 => ?_
  have e68_main_v18 : V68 (Proc.devRef .tc main_v18) = (ReadP.val_main_v18 (F := F) x0 x1) := by
    simp (disch := decide) only [hV68, unary_result', TRef.toBuf, TRef.ofBuf, cast_eq, e67_main_v17]
    rfl
  have e68_main_v3 : V68 (Proc.devRef .tc main_v3) = (ReadP.val_main_v3 (F := F) x0 x1) := by
    simp (disch := decide) only [hV68, unary_result_ne', e67_main_v3]
  clear hV68 e67_main_v3 e67_main_v17 V67
  -- operation 68: binary main_v18 main_v3 → main_v19
  refine after_step _ _ _ _ _ fun V69 hV69 => ?_
  have e69_main_v19 : V69 (Proc.devRef .tc main_v19) = (ReadP.val_main_v19 (F := F) x0 x1) := by
    simp (disch := decide) only [hV69, binary_result', TRef.toBuf, TRef.ofBuf, cast_eq, e68_main_v18, e68_main_v3]
    rfl
  clear hV69 e68_main_v3 e68_main_v18 V68
  -- operation 69: nullary  → main_cst_5
  refine after_step _ _ _ _ _ fun V70 hV70 => ?_
  have e70_main_cst_5 : V70 (Proc.devRef .tc main_cst_5) = (ReadP.val_main_cst_5 (F := F)) := by
    simp (disch := decide) only [hV70, nullary_result', TRef.toBuf, TRef.ofBuf, cast_eq]
    rfl
  have e70_main_v19 : V70 (Proc.devRef .tc main_v19) = (ReadP.val_main_v19 (F := F) x0 x1) := by
    simp (disch := decide) only [hV70, nullary_result_ne', e69_main_v19]
  clear hV70 e69_main_v19 V69
  -- operation 70: binary main_v19 main_cst_5 → main_v20
  refine after_step _ _ _ _ _ fun V71 hV71 => ?_
  have e71_main_v20 : V71 (Proc.devRef .tc main_v20) = (ReadP.val_main_v20 (F := F) x0 x1) := by
    simp (disch := decide) only [hV71, binary_result', TRef.toBuf, TRef.ofBuf, cast_eq, e70_main_v19, e70_main_cst_5]
    rfl
  clear hV71 e70_main_v19 e70_main_cst_5 V70
  exact e71_main_v20

set_option maxRecDepth 8192 in
set_option maxHeartbeats 28400000 in
/-- On every device, for any float values, from any memory with zero counters: every weakly fair execution of
    @main terminates with the result at its stage value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = Cert.ReferenceIdeal.ReadP.val_main_v20 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v20).trans (val_run m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefRowA.lean ====
/-
  The reference's log-softmax stage read at one element.

  At row `i` and column `c` it is `(x_{ic} - m_i) - log (0 + Σ_k exp (x_{ik} - m_i))`, where
  `m_i = max (-∞) (the fold of max from -∞ over row i)`: the reduction over the column axis read as the fold over
  that axis's coordinates, the broadcasts read through their index maps, the sum read as the sum over the columns.
-/
import proofs.«406106_j66898410602953_2_alg».proof.Proof.RefReadP
import proofs.«406106_j66898410602953_2_alg».proof.Proof.RowLoss
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.ReadP

/-- Dropping the column axis of the array's shape leaves the row axis. -/
theorem reduces_d1 : S65536x1000.Reduces [1] S65536 := by decide

/-- The row index with a column inserted is the pair of coordinates. -/
theorem lift_d1 (i : Fin 65536) (c : Fin 1000) : reduces_d1.lift (ix1 i) c = ix2 i c := by
  funext a
  refine Fin.ext ?_
  match a with
  | ⟨0, _⟩ => rfl
  | ⟨1, _⟩ => rfl

/-- The row maximum stage at row `i` is the fold of `max` from `-∞` over the row. -/
theorem v0_row (x : FVec Ideal S65536x1000 .f32) (i : Fin 65536) :
    val_main_call0_v0 (F := Ideal) x (ix1 i) = Cert.RowLoss.rowMax (fun c : Fin 1000 => x (ix2 i c)) := by
  unfold val_main_call0_v0
  rw [Host.reduce_eq_fold_single _ _ _ _ reduces_d1]
  unfold Cert.RowLoss.rowMax
  have hx : (x ∘ reduces_d1.lift (ix1 i)) = (fun c : Fin 1000 => x (ix2 i c)) := by
    funext c
    exact congrArg x (lift_d1 i c)
  rw [hx]
  rfl

/-- The maximum with the `-∞` splat, at row `i`. -/
theorem v2_row (x : FVec Ideal S65536x1000 .f32) (i : Fin 65536) :
    val_main_call0_v2 (F := Ideal) x (ix1 i)
      = max (Ideal.ofBits .f32 0xFF800000#32) (Cert.RowLoss.rowMax (fun c : Fin 1000 => x (ix2 i c))) := by
  rw [val_main_call0_v2_apply, val_main_call0_v1_apply, val_main_call0_cst_0_apply, v0_row]
  rfl

/-- The row maximum broadcast over the columns. -/
theorem v4_elt (x : FVec Ideal S65536x1000 .f32) (i : Fin 65536) (c : Fin 1000) :
    val_main_call0_v4 (F := Ideal) x (ix2 i c)
      = max (Ideal.ofBits .f32 0xFF800000#32) (Cert.RowLoss.rowMax (fun c : Fin 1000 => x (ix2 i c))) := by
  rw [val_main_call0_v4_apply, val_main_call0_v3_apply]
  have h : idx_main_call0_v3 (idx_main_call0_v4 (ix2 i c)) = ix1 i := by
    funext a
    match a with
    | ⟨0, _⟩ => rfl
  rw [h, v2_row]

/-- The shifted entry. -/
theorem v5_elt (x : FVec Ideal S65536x1000 .f32) (i : Fin 65536) (c : Fin 1000) :
    val_main_call0_v5 (F := Ideal) x (ix2 i c)
      = x (ix2 i c) - max (Ideal.ofBits .f32 0xFF800000#32) (Cert.RowLoss.rowMax (fun c : Fin 1000 => x (ix2 i c))) := by
  rw [val_main_call0_v5_apply, v4_elt]
  rfl

/-- The sum of the exponentials of the shifted row. -/
theorem v7_row (x : FVec Ideal S65536x1000 .f32) (i : Fin 65536) :
    val_main_call0_v7 (F := Ideal) x (ix1 i)
      = Ideal.ofBits .f32 0x00000000#32 + ∑ k : Fin 1000, Ideal.exp (x (ix2 i k)
          - max (Ideal.ofBits .f32 0xFF800000#32) (Cert.RowLoss.rowMax (fun c : Fin 1000 => x (ix2 i c)))) := by
  rw [val_main_call0_v7_apply, val_main_call0_cst_1_apply]
  refine congrArg (_ + ·) (Finset.sum_congr rfl fun k _ => ?_)
  have h : idx_main_call0_v7 (ix1 i) k = ix2 i k := by
    funext a
    match a with
    | ⟨0, _⟩ => rfl
    | ⟨1, _⟩ => rfl
  rw [h, val_main_call0_v6_apply, v5_elt]
  rfl

/-- Its logarithm broadcast over the columns. -/
theorem v10_elt (x : FVec Ideal S65536x1000 .f32) (i : Fin 65536) (c : Fin 1000) :
    val_main_call0_v10 (F := Ideal) x (ix2 i c)
      = Ideal.log (Ideal.ofBits .f32 0x00000000#32 + ∑ k : Fin 1000, Ideal.exp (x (ix2 i k)
          - max (Ideal.ofBits .f32 0xFF800000#32) (Cert.RowLoss.rowMax (fun c : Fin 1000 => x (ix2 i c))))) := by
  rw [val_main_call0_v10_apply, val_main_call0_v9_apply, val_main_call0_v8_apply]
  have h : idx_main_call0_v8 (idx_main_call0_v10 (ix2 i c)) = ix1 i := by
    funext a
    match a with
    | ⟨0, _⟩ => rfl
  rw [h, v7_row]
  rfl

/-- The log-softmax row at a column: the entry less the row's maximum, less the logarithm of the sum of
    the exponentials of the row so shifted. -/
theorem logp_elt (x : FVec Ideal S65536x1000 .f32) (i : Fin 65536) (c : Fin 1000) :
    val_main_v0 (F := Ideal) x (ix2 i c)
      = (x (ix2 i c) - max (Ideal.ofBits .f32 0xFF800000#32) (Cert.RowLoss.rowMax (fun c : Fin 1000 => x (ix2 i c))))
        - Ideal.log (Ideal.ofBits .f32 0x00000000#32 + ∑ k : Fin 1000, Ideal.exp (x (ix2 i k)
          - max (Ideal.ofBits .f32 0xFF800000#32) (Cert.RowLoss.rowMax (fun c : Fin 1000 => x (ix2 i c))))) := by
  rw [val_main_v0_apply, v5_elt, v10_elt]
  rfl

end Cert.ReferenceIdeal.RefValue

end
-- ==== Proof.RowLossEq.lean ====
/-
  The two spellings of a row's loss agree on a row of reals.

  Write the row as reals `r c`, and let `M` be the real the fold of `max` from `-∞` takes (it is one of the
  `r c`).  With `S = Σ_c exp (r c - M) > 0` and `ℓ = r t - M - log S`,
  the softmax row `q c = exp (r c - M - log S) = exp (r c - M) / S` is nonnegative and sums to one, so
  `q t ≤ 1` and `Σ_c |δ_{ct} - q c| = (1 - q t) + Σ_{c ≠ t} q c = 2 (1 - q t) ≥ 0`.  The sum of the row masked by
  `column = label` is the label's entry, because two columns below `1000 < 2^32` have equal words only if
  equal.  For `d ≥ 0` and `γ ∈ {3, 5}`, `exp (γ · log d)` where `d > 0` and `0` where `d = 0` is the real
  power `d ^ γ`.  The exponent `γ` is the same function of `p = exp ℓ` on both sides, with values in `{3, 5}`.
-/
import proofs.«406106_j66898410602953_2_alg».proof.Proof.RowLoss
import Mathlib.Analysis.SpecialFunctions.Pow.Real
import Mathlib.Analysis.SpecialFunctions.Log.Basic

noncomputable section

namespace Cert.RowLoss

open Idealize.ShloMosaic

/-! The constant words, evaluated once each. -/

theorem w_zero : Ideal.ofBits .f32 0x00000000#32 = 0 := by simp [Ideal.ofBits, Ideal.ieee]
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_five : Ideal.ofBits .f32 0x40A00000#32 = ((5 : ℝ) : EReal) := by
  simp [Ideal.ofBits, Ideal.ieee, -EReal.coe_mul]; norm_num
theorem w_ninf : Ideal.ofBits .f32 0xFF800000#32 = ⊥ := by
  simp [Ideal.ofBits, Ideal.ieee]

/-- A word whose signed value lies in `[0, 1000)` is the word of its column. -/
theorem ofNat_tIdx (w : BitVec 32) (h0 : 0 ≤ w.toInt) (h1 : w.toInt < 1000) : BitVec.ofNat 32 (tIdx w).val = w := by
  have hlt := w.isLt
  have hw : w.toNat < 1000 := by
    rw [BitVec.toInt_eq_toNat_cond] at h0 h1
    split_ifs at h0 h1 <;> omega
  show BitVec.ofNat 32 (w.toNat % 1000) = w
  rw [Nat.mod_eq_of_lt hw, BitVec.ofNat_toNat, BitVec.setWidth_eq]

/-- The exponent is `3` or `5`. -/
theorem gamma_cases (p : EReal) : gamma p = ((3 : ℝ) : EReal) ∨ gamma p = ((5 : ℝ) : EReal) := by
  unfold gamma Scalar.select
  rw [w_three, w_five]
  split_ifs <;> simp

/-- Two columns have equal words exactly when they are equal. -/
theorem cmpi_eq_ofNat (c t : Fin 1000) :
    IntOp.cmpi .eq (BitVec.ofNat 32 c.val) (BitVec.ofNat 32 t.val) = 1 ↔ c = t := by
  have hc := c.isLt
  have ht := t.isLt
  unfold IntOp.cmpi
  constructor
  · intro h
    have h2 : BitVec.ofNat 32 c.val = BitVec.ofNat 32 t.val := by
      by_contra hne
      have hb : (BitVec.ofNat 32 c.val == BitVec.ofNat 32 t.val) = false := beq_eq_false_iff_ne.2 hne
      have h' : BitVec.ofBool (BitVec.ofNat 32 c.val == BitVec.ofNat 32 t.val) = 1 := h
      rw [hb] at h'
      exact absurd h' (by decide)
    have h3 := congrArg BitVec.toNat h2
    simp only [BitVec.toNat_ofNat] at h3
    apply Fin.ext
    omega
  · intro h
    subst h
    simp

/-- The sum of the row masked by `column = label` is the label's entry. -/
theorem masked_sum (xs : Fin 1000 → EReal) (t : Fin 1000) :
    (∑ c : Fin 1000, Scalar.select (IntOp.cmpi .eq (BitVec.ofNat 32 c.val) (BitVec.ofNat 32 t.val)) (xs c)
      (Ideal.ofBits .f32 0x00000000#32)) = xs t := by
  have h : ∀ c : Fin 1000, Scalar.select (IntOp.cmpi .eq (BitVec.ofNat 32 c.val) (BitVec.ofNat 32 t.val)) (xs c)
      (Ideal.ofBits .f32 0x00000000#32) = if c = t then xs c else 0 := by
    intro c
    unfold Scalar.select
    rw [w_zero]
    by_cases hct : c = t
    · rw [if_pos ((cmpi_eq_ofNat c t).2 hct), if_pos hct]
    · rw [if_neg (fun h => hct ((cmpi_eq_ofNat c t).1 h)), if_neg hct]
  simp only [h]
  rw [Finset.sum_ite_eq' Finset.univ t xs, if_pos (Finset.mem_univ t)]

/-- The fold of `max` from `-∞` over a row of reals is a real (one of the entries). -/
theorem rowMax_real (r : Fin 1000 → ℝ) : ∃ M : ℝ, rowMax (fun c => (r c : EReal)) = (M : EReal) := by
  obtain ⟨i, -, hi⟩ := Finset.exists_mem_eq_sup (Finset.univ : Finset (Fin 1000)) ⟨0, Finset.mem_univ _⟩
    (fun c => (r c : EReal))
  refine ⟨r i, ?_⟩
  unfold rowMax
  rw [w_ninf]
  exact hi

/-- The coercion of reals passes through a finite sum. -/
theorem coe_sum {ι : Type} (s : Finset ι) (f : ι → ℝ) :
    (∑ c ∈ s, (f c : EReal)) = ((∑ c ∈ s, f c : ℝ) : EReal) := by
  classical
  induction s using Finset.induction_on with
  | empty => simp
  | insert a s ha ih => rw [Finset.sum_insert ha, Finset.sum_insert ha, ih, EReal.coe_add]

/-- The 1-norm distance of a one-hot row from a nonnegative row summing to one is `2 (1 - q t)`. -/
theorem l1_onehot {ι : Type} [Fintype ι] [DecidableEq ι] (q : ι → ℝ) (hq : ∀ c, 0 ≤ q c) (hs : ∑ c, q c = 1) (t : ι) :
    ∑ c, |(if c = t then (1 : ℝ) else 0) - q c| = 2 * (1 - q t) := by
  have hle : q t ≤ 1 := by
    rw [← hs]; exact Finset.single_le_sum (fun c _ => hq c) (Finset.mem_univ t)
  rw [← Finset.add_sum_erase _ _ (Finset.mem_univ t)]
  have h1 : ∑ c ∈ Finset.univ.erase t, |(if c = t then (1 : ℝ) else 0) - q c| = ∑ c ∈ Finset.univ.erase t, q c := by
    apply Finset.sum_congr rfl
    intro c hc
    rw [if_neg (Finset.ne_of_mem_erase hc), zero_sub, abs_neg, abs_of_nonneg (hq c)]
  have h2 : q t + ∑ c ∈ Finset.univ.erase t, q c = 1 := by
    rw [Finset.add_sum_erase _ _ (Finset.mem_univ t)]; exact hs
  rw [h1, if_pos rfl, abs_of_nonneg (by linarith)]
  linarith

theorem coe_max' (a b : ℝ) : ((max a b : ℝ) : EReal) = max (a : EReal) (b : EReal) :=
  EReal.coe_strictMono.monotone.map_max

/-- The power spelled by exponential and logarithm, guarded at zero, is the real power. -/
theorem guarded_pow (d γ : ℝ) (hd : 0 ≤ d) (hγ : γ ≠ 0) :
    (if 0 < d then Real.exp (γ * Real.log d) else 0) = Real.rpow d γ := by
  show _ = d ^ γ
  by_cases h : 0 < d
  · rw [if_pos h, Real.rpow_def_of_pos h, mul_comm]
  · have h0 : d = 0 := le_antisymm (not_lt.1 h) hd
    rw [if_neg h, h0, Real.zero_rpow hγ]

/-- From the label's log-probability `ℓ` on, the first spelling is `-(d ^ γ) · ℓ` with `d = 2 (1 - exp ℓ)`. -/
theorem tailK (ℓ : ℝ) (hp : Real.exp ℓ ≤ 1) :
    (Ideal.ofBits .f32 0x00000000#32 -
      Scalar.select
        (Ideal.cmp .ogt (max (Ideal.ofBits .f32 0x40000000#32 * (Ideal.ofBits .f32 0x3F800000#32 - Ideal.exp (ℓ : EReal)))
          (Ideal.ofBits .f32 0x00000000#32)) (Ideal.ofBits .f32 0x00000000#32))
        (Ideal.exp (gamma (Ideal.exp (ℓ : EReal)) * Ideal.log (Scalar.select
          (Ideal.cmp .ogt (max (Ideal.ofBits .f32 0x40000000#32 * (Ideal.ofBits .f32 0x3F800000#32 - Ideal.exp (ℓ : EReal)))
            (Ideal.ofBits .f32 0x00000000#32)) (Ideal.ofBits .f32 0x00000000#32))
          (max (Ideal.ofBits .f32 0x40000000#32 * (Ideal.ofBits .f32 0x3F800000#32 - Ideal.exp (ℓ : EReal)))
            (Ideal.ofBits .f32 0x00000000#32)) (Ideal.ofBits .f32 0x3F800000#32))))
        (Ideal.ofBits .f32 0x00000000#32)) * (ℓ : EReal)
    = (-(Ideal.pow ((2 * (1 - Real.exp ℓ) : ℝ) : EReal) (gamma ((Real.exp ℓ : ℝ) : EReal)))) * (ℓ : EReal) := by
  have hd : 0 ≤ 2 * (1 - Real.exp ℓ) := by linarith
  have hbase : max (Ideal.ofBits .f32 0x40000000#32 * (Ideal.ofBits .f32 0x3F800000#32 - Ideal.exp (ℓ : EReal)))
      (Ideal.ofBits .f32 0x00000000#32) = ((2 * (1 - Real.exp ℓ) : ℝ) : EReal) := by
    rw [w_zero, w_one, w_two, Ideal.exp_coe, ← EReal.coe_sub, ← EReal.coe_mul, ← EReal.coe_zero, ← coe_max',
      max_eq_left hd]
  rw [hbase, Ideal.exp_coe, w_zero, zero_sub]
  congr 2
  obtain ⟨γ, hγ, hγ0⟩ : ∃ γ : ℝ, gamma ((Real.exp ℓ : ℝ) : EReal) = (γ : EReal) ∧ γ ≠ 0 := by
    rcases gamma_cases ((Real.exp ℓ : ℝ) : EReal) with h | h
    · exact ⟨3, h, by norm_num⟩
    · exact ⟨5, h, by norm_num⟩
  rw [hγ, Ideal.pow_coe_coe, ← guarded_pow _ _ hd hγ0]
  unfold Ideal.cmp Scalar.select
  by_cases h : 0 < 2 * (1 - Real.exp ℓ)
  · have h' : ((0 : ℝ) : EReal) < ((2 * (1 - Real.exp ℓ) : ℝ) : EReal) := EReal.coe_lt_coe_iff.2 h
    rw [EReal.coe_zero] at h'
    simp only [h', decide_true, BitVec.ofBool_true, if_true]
    rw [Ideal.log_coe, if_neg (not_le.2 h), ← EReal.coe_mul, Ideal.exp_coe, if_pos h]
  · have h' : ¬ ((0 : ℝ) : EReal) < ((2 * (1 - Real.exp ℓ) : ℝ) : EReal) := fun hh => h (EReal.coe_lt_coe_iff.1 hh)
    rw [EReal.coe_zero] at h'
    simp only [h', decide_false, BitVec.ofBool_false]
    rw [if_neg (by decide), if_neg h, EReal.coe_zero]

theorem exp_sub_coe (a b : ℝ) : Ideal.exp ((a : EReal) - (b : EReal)) = ((Real.exp (a - b) : ℝ) : EReal) := by
  rw [← EReal.coe_sub, Ideal.exp_coe]

/-- The two spellings of the row's loss agree on a row of reals. -/
theorem rowK_eq_rowR (xs : Fin 1000 → EReal) (hfin : ∀ c, ∃ r : ℝ, xs c = (r : EReal)) (t : Fin 1000) :
    rowK xs (BitVec.ofNat 32 t.val) = rowR xs t := by
  choose r hr using hfin
  have hxs : xs = fun c => (r c : EReal) := funext hr
  subst hxs
  obtain ⟨M, hM⟩ := rowMax_real r
  have hS : 0 < ∑ c : Fin 1000, Real.exp (r c - M) :=
    Finset.sum_pos (fun c _ => Real.exp_pos _) ⟨0, Finset.mem_univ _⟩
  have hse : (∑ c : Fin 1000, Ideal.exp ((r c : EReal) - (M : EReal)))
      = ((∑ c : Fin 1000, Real.exp (r c - M) : ℝ) : EReal) := by
    simp only [exp_sub_coe]
    exact coe_sum _ _
  have hlog : Ideal.log ((∑ c : Fin 1000, Real.exp (r c - M) : ℝ) : EReal)
      = ((Real.log (∑ c : Fin 1000, Real.exp (r c - M)) : ℝ) : EReal) := by
    rw [Ideal.log_coe, if_neg (not_le.2 hS)]
  have hq : ∀ c, Real.exp (r c - M - Real.log (∑ c : Fin 1000, Real.exp (r c - M)))
      = Real.exp (r c - M) / ∑ c : Fin 1000, Real.exp (r c - M) := by
    intro c
    rw [Real.exp_sub, Real.exp_log hS]
  have hq0 : ∀ c, 0 ≤ Real.exp (r c - M - Real.log (∑ c : Fin 1000, Real.exp (r c - M))) :=
    fun c => (Real.exp_pos _).le
  have hsum : ∑ c : Fin 1000, Real.exp (r c - M - Real.log (∑ c : Fin 1000, Real.exp (r c - M))) = 1 := by
    simp only [hq]
    rw [← Finset.sum_div, div_self hS.ne']
  have hp : Real.exp (r t - M - Real.log (∑ c : Fin 1000, Real.exp (r c - M))) ≤ 1 := by
    rw [← hsum]
    exact Finset.single_le_sum (f := fun c => Real.exp (r c - M - Real.log (∑ c : Fin 1000, Real.exp (r c - M))))
      (fun c _ => hq0 c) (Finset.mem_univ t)
  have hK : rowK (fun c => (r c : EReal)) (BitVec.ofNat 32 t.val)
      = (-(Ideal.pow ((2 * (1 - Real.exp (r t - M - Real.log (∑ c : Fin 1000, Real.exp (r c - M)))) : ℝ) : EReal)
          (gamma ((Real.exp (r t - M - Real.log (∑ c : Fin 1000, Real.exp (r c - M))) : ℝ) : EReal))))
        * ((r t - M - Real.log (∑ c : Fin 1000, Real.exp (r c - M)) : ℝ) : EReal) := by
    unfold rowK
    simp only []
    rw [masked_sum, hM, hse, hlog, ← EReal.coe_add, ← EReal.coe_sub, sub_add_eq_sub_sub]
    exact tailK _ hp
  have hR : rowR (fun c => (r c : EReal)) t
      = (-(Ideal.pow ((2 * (1 - Real.exp (r t - M - Real.log (∑ c : Fin 1000, Real.exp (r c - M)))) : ℝ) : EReal)
          (gamma ((Real.exp (r t - M - Real.log (∑ c : Fin 1000, Real.exp (r c - M))) : ℝ) : EReal))))
        * ((r t - M - Real.log (∑ c : Fin 1000, Real.exp (r c - M)) : ℝ) : EReal) := by
    have hlogp : ∀ c, ((r c : EReal) - (M : EReal)) - ((Real.log (∑ c : Fin 1000, Real.exp (r c - M)) : ℝ) : EReal)
        = ((r c - M - Real.log (∑ c : Fin 1000, Real.exp (r c - M)) : ℝ) : EReal) := by
      intro c
      rw [← EReal.coe_sub, ← EReal.coe_sub]
    have hdev : ∀ c : Fin 1000,
        max ((if c = t then (1 : EReal) else 0)
              - ((Real.exp (r c - M - Real.log (∑ c : Fin 1000, Real.exp (r c - M))) : ℝ) : EReal))
            (-((if c = t then (1 : EReal) else 0)
              - ((Real.exp (r c - M - Real.log (∑ c : Fin 1000, Real.exp (r c - M))) : ℝ) : EReal)))
        = ((|(if c = t then (1 : ℝ) else 0)
              - Real.exp (r c - M - Real.log (∑ c : Fin 1000, Real.exp (r c - M)))| : ℝ) : EReal) := by
      intro c
      have h1 : (if c = t then (1 : EReal) else 0) = (((if c = t then (1 : ℝ) else 0) : ℝ) : EReal) := by
        split_ifs <;> simp
      rw [h1, ← EReal.coe_sub, ← EReal.coe_neg, ← coe_max', ← abs_eq_max_neg]
    unfold rowR
    simp only []
    rw [hM, w_ninf, max_eq_right bot_le, w_zero, zero_add, zero_add, hse, hlog]
    simp only [hlogp, Ideal.exp_coe, hdev]
    rw [coe_sum, l1_onehot _ hq0 hsum t]
  rw [hK, hR]

end Cert.RowLoss

end
-- ==== Proof.RefRowB.lean ====
/-
  The reference's gather and one-hot stages read at one row, for a label whose signed value lies in `[0, 1000)`.

  Such a word is not negative, so the wrap `select (t < 0) (t + 1000) t` is `t` itself; it passes the range test
  `0 ≤ t ≤ 999`, whose conjunction folded with `and` over the one-element axis is the bit one, so the select keeps
  the gathered entry; the gather's operand index at row `i` has the row `i` on the batching axis and on the column
  axis the start index `t` read signed and clamped to `[0, 999]`, which is the column `t` names.  The one-hot row is
  the comparison of the label's word with the column's word, converted: one at the label's column, zero elsewhere.
-/
import proofs.«406106_j66898410602953_2_alg».proof.Proof.RefReadP
import proofs.«406106_j66898410602953_2_alg».proof.Proof.RowLoss
import proofs.«406106_j66898410602953_2_alg».proof.Proof.RowLossEq
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.ReadP

/-- A word whose signed value lies in `[0, 1000)`: its comparisons with `0` and `999`, and its value. -/
theorem word_range (w : BitVec 32) (h0 : 0 ≤ w.toInt) (h1 : w.toInt < 1000) :
    IntOp.cmpi .slt w 0#32 = 0#1 ∧ IntOp.cmpi .sge w 0#32 = 1#1 ∧ IntOp.cmpi .sle w 999#32 = 1#1
      ∧ w.toInt.toNat = (Cert.RowLoss.tIdx w).val := by
  have z0 : (0#32 : BitVec 32).toInt = 0 := by decide
  have z9 : (999#32 : BitVec 32).toInt = 999 := by decide
  have hlt := w.isLt
  have hw : w.toInt = (w.toNat : Int) := by
    rw [BitVec.toInt_eq_toNat_cond] at h0 ⊢
    split_ifs at h0 ⊢ <;> omega
  refine ⟨?_, ?_, ?_, ?_⟩
  · show BitVec.ofBool (w.slt 0#32) = 0#1
    have : w.slt 0#32 = false := by
      unfold BitVec.slt
      exact decide_eq_false (by omega)
    rw [this]; rfl
  · show BitVec.ofBool ((0#32 : BitVec 32).sle w) = 1#1
    have : (0#32 : BitVec 32).sle w = true := by
      unfold BitVec.sle
      exact decide_eq_true (by omega)
    rw [this]; rfl
  · show BitVec.ofBool (w.sle 999#32) = 1#1
    have : w.sle 999#32 = true := by
      unfold BitVec.sle
      exact decide_eq_true (by omega)
    rw [this]; rfl
  · show w.toInt.toNat = w.toNat % 1000
    omega

/-- The labels broadcast to a column, at row `i`. -/
theorem v1_row (tg : IVec S65536 32) (i : Fin 65536) :
    val_main_v1 (F := Ideal) tg (ix2 i (0 : Fin 1)) = tg (ix1 i) := by
  rw [val_main_v1_apply]
  refine congrArg tg (funext fun a => ?_)
  match a with
  | ⟨0, _⟩ => rfl

/-- The wrapped label at row `i` is the label. -/
theorem v4_row (tg : IVec S65536 32) (i : Fin 65536) (h0 : 0 ≤ (tg (ix1 i)).toInt) (h1 : (tg (ix1 i)).toInt < 1000) :
    val_main_call1_v4 (F := Ideal) tg (ix2 i (0 : Fin 1)) = tg (ix1 i) := by
  rw [val_main_call1_v4_apply, val_main_call1_v1_apply, val_main_call1_v0_apply, val_main_call1_c_apply, v1_row,
    (word_range _ h0 h1).1, select_zero]

/-- The start index at row `i` is the label. -/
theorem v5_row (tg : IVec S65536 32) (i : Fin 65536) (h0 : 0 ≤ (tg (ix1 i)).toInt) (h1 : (tg (ix1 i)).toInt < 1000) :
    val_main_call1_v5 (F := Ideal) tg (ix3 i (0 : Fin 1) (0 : Fin 1)) = tg (ix1 i) := by
  rw [val_main_call1_v5_apply]
  have h : idx_main_call1_v5 (ix3 i (0 : Fin 1) (0 : Fin 1)) = ix2 i (0 : Fin 1) := by
    funext a
    match a with
    | ⟨0, _⟩ => exact Fin.ext (by show ((i.val * 1 + 0) * 1 + 0) / 1 = i.val; omega)
    | ⟨1, _⟩ => rfl
  rw [h, v4_row tg i h0 h1]

/-- Dropping the last axis of the start indices' shape leaves the first two. -/
theorem reduces_d2 : S65536x1x1.Reduces [2] S65536x1 := by decide

/-- The range test at row `i` holds. -/
theorem v11_row (tg : IVec S65536 32) (i : Fin 65536) (h0 : 0 ≤ (tg (ix1 i)).toInt) (h1 : (tg (ix1 i)).toInt < 1000) :
    val_main_call1_v11 (F := Ideal) tg (ix3 i (0 : Fin 1) (0 : Fin 1)) = 1#1 := by
  rw [val_main_call1_v11_apply, val_main_call1_v7_apply, val_main_call1_v10_apply, val_main_call1_v6_apply,
    val_main_call1_c_2_apply, val_main_call1_v9_apply, val_main_call1_v8_apply, val_main_call1_c_1_apply,
    v5_row tg i h0 h1, (word_range _ h0 h1).2.1, (word_range _ h0 h1).2.2.1]
  rfl

/-- A fold over the one-element range is one application of the operation. -/
theorem fold_fin1 {β : Type} (op : β → β → β) [Std.Commutative op] [Std.Associative op] (b : β) (f : Fin 1 → β) :
    (Finset.univ : Finset (Fin 1)).fold op b f = op (f 0) b := by
  rw [Finset.univ_unique, Finset.fold_singleton]
  rfl

/-- Its fold with `and` over the one-element axis is the bit one. -/
theorem v12_row (tg : IVec S65536 32) (i : Fin 65536) (h0 : 0 ≤ (tg (ix1 i)).toInt) (h1 : (tg (ix1 i)).toInt < 1000) :
    val_main_call1_v12 (F := Ideal) tg (ix2 i (0 : Fin 1)) = 1#1 := by
  unfold val_main_call1_v12
  rw [Host.reduce_eq_fold_single _ _ _ _ reduces_d2]
  have hl : reduces_d2.lift (ix2 i (0 : Fin 1)) (0 : Fin 1) = ix3 i (0 : Fin 1) (0 : Fin 1) := by
    funext a
    refine Fin.ext ?_
    match a with
    | ⟨0, _⟩ => rfl
    | ⟨1, _⟩ => rfl
    | ⟨2, _⟩ => rfl
  refine (fold_fin1 IntOp.andi _ _).trans ?_
  refine (congrArg (fun z => IntOp.andi (val_main_call1_v11 (F := Ideal) tg z) _) hl).trans ?_
  show IntOp.andi (val_main_call1_v11 (F := Ideal) tg (ix3 i (0 : Fin 1) (0 : Fin 1))) _ = 1#1
  rw [v11_row tg i h0 h1]
  rfl

/-- The gather at row `i`: with the batch axis the row and the start index the label's word, it reads the operand at
    the row and at the column the word names. -/
theorem v13_row (x : FVec Ideal S65536x1000 .f32) (tg : IVec S65536 32) (i : Fin 65536)
    (h0 : 0 ≤ (tg (ix1 i)).toInt) (h1 : (tg (ix1 i)).toInt < 1000) :
    val_main_call1_v13 (F := Ideal) x tg (ix2 i (0 : Fin 1))
      = val_main_v0 (F := Ideal) x (ix2 i (Cert.RowLoss.tIdx (tg (ix1 i)))) := by
  unfold val_main_call1_v13
  have h5 := v5_row tg i h0 h1
  generalize val_main_v0 (F := Ideal) x = y
  generalize val_main_call1_v5 (F := Ideal) tg = idx at h5 ⊢
  unfold Host.gather
  refine congrArg y ?_
  funext a
  refine Fin.ext ?_
  match a with
  | ⟨0, _⟩ =>
    show gather_S65536x1000_S65536x1x1_S65536x1_n_1_0_0_1_2_11.start (ix2 i (0 : Fin 1)) idx (0 : Fin 2)
      + gather_S65536x1000_S65536x1x1_S65536x1_n_1_0_0_1_2_11.batchCoord (ix2 i (0 : Fin 1)) (0 : Fin 2)
      + gather_S65536x1000_S65536x1x1_S65536x1_n_1_0_0_1_2_11.offCoord (ix2 i (0 : Fin 1)) (0 : Fin 2) = i.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S65536x1000_S65536x1x1_S65536x1_n_1_0_0_1_2_11.operandBatchingDims from
      List.mem_singleton.mpr rfl)]
    unfold GatherDims.siCoord
    simp only [Fin.coe_cast]
    refine congrArg (fun z => ((ix2 i (0 : Fin 1) : S65536x1.Idx) z).val) (a₂ := (0 : Fin 2)) ?_
    decide
  | ⟨1, _⟩ =>
    show gather_S65536x1000_S65536x1x1_S65536x1_n_1_0_0_1_2_11.start (ix2 i (0 : Fin 1)) idx (1 : Fin 2)
      + gather_S65536x1000_S65536x1x1_S65536x1_n_1_0_0_1_2_11.batchCoord (ix2 i (0 : Fin 1)) (1 : Fin 2)
      + gather_S65536x1000_S65536x1x1_S65536x1_n_1_0_0_1_2_11.offCoord (ix2 i (0 : Fin 1)) (1 : Fin 2)
        = (Cert.RowLoss.tIdx (tg (ix1 i))).val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S65536x1000_S65536x1x1_S65536x1_n_1_0_0_1_2_11.startIndexMap from
      List.mem_singleton.mpr rfl)]
    have hsi : gather_S65536x1000_S65536x1x1_S65536x1_n_1_0_0_1_2_11.siIdx (ix2 i (0 : Fin 1))
        ⟨List.idxOf (1 : Fin 2) gather_S65536x1000_S65536x1x1_S65536x1_n_1_0_0_1_2_11.startIndexMap,
          List.idxOf_lt_length_iff.2 (List.mem_singleton.mpr rfl)⟩ = ix3 i (0 : Fin 1) (0 : Fin 1) := by
      funext b
      refine Fin.ext ?_
      match b with
      | ⟨0, _⟩ => rfl
      | ⟨1, _⟩ => rfl
      | ⟨2, _⟩ => rfl
    rw [hsi, h5, (word_range _ h0 h1).2.2.2]
    have := (Cert.RowLoss.tIdx (tg (ix1 i))).isLt
    show min (Cert.RowLoss.tIdx (tg (ix1 i))).val (1000 - 1) = _
    omega

/-- The gathered log-probability at row `i`: the log-softmax row at the label's column. -/
theorem v3_row (x : FVec Ideal S65536x1000 .f32) (tg : IVec S65536 32) (i : Fin 65536)
    (h0 : 0 ≤ (tg (ix1 i)).toInt) (h1 : (tg (ix1 i)).toInt < 1000) :
    val_main_v3 (F := Ideal) x tg (ix1 i)
      = val_main_v0 (F := Ideal) x (ix2 i (Cert.RowLoss.tIdx (tg (ix1 i)))) := by
  rw [val_main_v3_apply]
  have h : idx_main_v3 (ix1 i) = ix2 i (0 : Fin 1) := by
    funext a
    match a with
    | ⟨0, _⟩ => exact Fin.ext (Nat.div_one _)
    | ⟨1, _⟩ => rfl
  rw [h, val_main_v2_apply, v12_row tg i h0 h1, select_one, v13_row x tg i h0 h1]

/-- The one-hot row at a column: one at the label's column, zero elsewhere. -/
theorem onehot_elt (tg : IVec S65536 32) (i : Fin 65536) (c : Fin 1000)
    (h0 : 0 ≤ (tg (ix1 i)).toInt) (h1 : (tg (ix1 i)).toInt < 1000) :
    val_main_v12 (F := Ideal) tg (ix2 i c) = if c = Cert.RowLoss.tIdx (tg (ix1 i)) then (1 : EReal) else 0 := by
  rw [val_main_v12_apply, val_main_call4_v4_apply, val_main_call4_v2_apply, val_main_call4_v0_apply,
    val_main_call4_v3_apply, val_main_call4_v1_apply]
  have ha : idx_main_call4_v0 (idx_main_call4_v2 (ix2 i c)) = ix1 i := by
    funext a
    match a with
    | ⟨0, _⟩ => rfl
  rw [ha]
  have key : IntOp.cmpi .eq (tg (ix1 i)) (BitVec.ofNat 32 (idx_main_call4_v3 (ix2 i c) 1).val)
      = IntOp.cmpi .eq (BitVec.ofNat 32 (Cert.RowLoss.tIdx (tg (ix1 i))).val) (BitVec.ofNat 32 c.val) := by
    rw [Cert.RowLoss.ofNat_tIdx _ h0 h1]
  rw [key]
  by_cases hct : c = Cert.RowLoss.tIdx (tg (ix1 i))
  · rw [if_pos hct, (Cert.RowLoss.cmpi_eq_ofNat _ _).2 hct.symm]
    show (((1#1 : BitVec 1).toNat : ℝ) : EReal) = 1
    simp
  · rw [if_neg hct, eq_zero_of_ne_one (fun h => hct ((Cert.RowLoss.cmpi_eq_ofNat _ _).1 h).symm)]
    show (((0#1 : BitVec 1).toNat : ℝ) : EReal) = 0
    simp

end Cert.ReferenceIdeal.RefValue

end
-- ==== Proof.RefValue.lean ====
/-
  The reference's value as the sum of the rows' losses.

  For labels whose signed values lie in `[0, 1000)`, the reference's result is zero plus the sum over the rows of the
  row's loss in its second spelling: at row `i` with label column `t`, the gathered entry is the log-softmax row at `t`,
  its exponential passes the two thresholds to the exponent, the distance is zero plus the sum over the columns of
  `|δ_{ct} - exp (logp_c)|` spelled as `max a (-a)`, and the row's term is the negated power times the gathered entry.
  The sum over the rank-one index set is the sum over its coordinate range.
-/
import proofs.«406106_j66898410602953_2_alg».proof.Proof.RefRowA
import proofs.«406106_j66898410602953_2_alg».proof.Proof.RefRowB
import Idealize.ShloMosaic.Lib.ValueIdxRank1

noncomputable section

namespace Cert.ReferenceIdeal.RefValue

open Idealize.ShloMosaic Idealize.ShloMosaic.ValueIdx
open Cert.ReferenceIdeal Cert.ReferenceIdeal.Gen Cert.ReferenceIdeal.ReadP

/-- The exponent stage at row `i`: the exponent chosen by the two thresholds on the exponential of the gathered
    log-probability. -/
theorem v11_row' (x : FVec Ideal S65536x1000 .f32) (tg : IVec S65536 32) (i : Fin 65536) :
    val_main_v11 (F := Ideal) x tg (ix1 i)
      = Cert.RowLoss.gamma (Ideal.exp (val_main_v3 (F := Ideal) x tg (ix1 i))) := by
  rw [val_main_v11_apply, val_main_v7_apply, val_main_v10_apply, val_main_v9_apply, val_main_v5_apply,
    val_main_v6_apply, val_main_cst_apply, val_main_call3_v0_apply, val_main_cst_3_apply,
    val_main_v8_apply, val_main_cst_0_apply, val_main_call2_v0_apply, val_main_cst_1_apply,
    val_main_call2_v1_apply, val_main_cst_2_apply]
  generalize val_main_v3 (F := Ideal) x tg (ix1 i) = z
  rfl

/-- The distance stage at row `i`: zero plus the sum over the columns of the absolute deviations of the one-hot row
    from the exponential of the log-softmax row. -/
theorem v15_row (x : FVec Ideal S65536x1000 .f32) (tg : IVec S65536 32) (i : Fin 65536)
    (h0 : 0 ≤ (tg (ix1 i)).toInt) (h1 : (tg (ix1 i)).toInt < 1000) :
    val_main_v15 (F := Ideal) x tg (ix1 i)
      = Ideal.ofBits .f32 0x00000000#32 + ∑ k : Fin 1000,
          max ((if k = Cert.RowLoss.tIdx (tg (ix1 i)) then (1 : EReal) else 0)
                - Ideal.exp (val_main_v0 (F := Ideal) x (ix2 i k)))
              (-((if k = Cert.RowLoss.tIdx (tg (ix1 i)) then (1 : EReal) else 0)
                - Ideal.exp (val_main_v0 (F := Ideal) x (ix2 i k)))) := by
  rw [val_main_v15_apply, val_main_cst_4_apply]
  refine congrArg (_ + ·) (Finset.sum_congr rfl fun k _ => ?_)
  have h : idx_main_v15 (ix1 i) k = ix2 i k := by
    funext a
    match a with
    | ⟨0, _⟩ => rfl
    | ⟨1, _⟩ => rfl
  rw [h, val_main_v14_apply, val_main_v13_apply, val_main_v4_apply, onehot_elt tg i k h0 h1]
  generalize val_main_v0 (F := Ideal) x (ix2 i k) = z
  rfl

/-- The loss stage at row `i` is the row's loss in its second spelling. -/
theorem v19_row (x : FVec Ideal S65536x1000 .f32) (tg : IVec S65536 32) (i : Fin 65536)
    (h0 : 0 ≤ (tg (ix1 i)).toInt) (h1 : (tg (ix1 i)).toInt < 1000) :
    val_main_v19 (F := Ideal) x tg (ix1 i)
      = Cert.RowLoss.rowR (fun c : Fin 1000 => x (ix2 i c)) (Cert.RowLoss.tIdx (tg (ix1 i))) := by
  rw [val_main_v19_apply, val_main_v18_apply, val_main_v17_apply, val_main_v16_apply, v11_row', v15_row x tg i h0 h1,
    v3_row x tg i h0 h1]
  simp only [logp_elt]
  unfold Cert.RowLoss.rowR
  rfl

/-- The reference's result: zero plus the sum over the rows of the rows' losses. -/
theorem result_eq (x : FVec Ideal Cert.ReferenceIdeal.S65536x1000 .f32) (tg : IVec Cert.ReferenceIdeal.S65536 32)
    (hr : ∀ i : Fin 65536, 0 ≤ (tg (ix1 i)).toInt ∧ (tg (ix1 i)).toInt < 1000) :
    Cert.ReferenceIdeal.ReadP.val_main_v20 (F := Ideal) x tg
      = fun _ => Ideal.ofBits .f32 0x00000000#32 + ∑ i : Fin 65536,
          Cert.RowLoss.rowR (fun c : Fin 1000 => x (ix2 i c)) (Cert.RowLoss.tIdx (tg (ix1 i))) := by
  funext j
  rw [val_main_v20_apply, val_main_cst_5_apply]
  refine congrArg (_ + ·) ?_
  refine (Equiv.sum_comp (idxEquiv1 (n := 65536)).symm (val_main_v19 (F := Ideal) x tg)).symm.trans ?_
  exact Finset.sum_congr rfl fun i _ => v19_row x tg i (hr i).1 (hr i).2

end Cert.ReferenceIdeal.RefValue

end
-- ==== Proof.PreFacts.lean ====
/-
  The precondition, read back.  It states three things of the inputs, each at every index, joined by `and`:
  `|x| < +∞` of every logit, and `0 ≤ t` and `t < 1000` (signed) of every label.  A reduction by `and` that
  comes out `1` met only `1`s, so each holds at each index: a logit whose absolute value `max x (-x)` lies
  below `⊤` is neither infinity, hence a real; a label's signed value lies in `[0, 1000)`.
-/
import proofs.«406106_j66898410602953_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic

variable [Cert.Pre_finite_inputs.Facts]

/-- The shape of a scalar has one index. -/
instance : Subsingleton Cert.Pre_finite_inputs.S_.Idx := ⟨fun a b => funext fun d => d.elim0⟩

/-- The word `0x7F800000` is `+∞`. -/
theorem top_word : Ideal.ofBits .f32 0x7F800000#32 = (⊤ : EReal) := by
  simp [Ideal.ofBits, Ideal.ieee]

/-- An extended real whose absolute value lies below `⊤` is a real. -/
theorem real_of_abs_lt_top (v : EReal) (h : max v (-v) < ⊤) : ∃ r : ℝ, v = (r : EReal) := by
  induction v using EReal.rec with
  | bot => simp at h
  | coe r => exact ⟨r, rfl⟩
  | top => simp at h

/-- The precondition's two reductions, each at every index. -/
theorem pre_parts (x : FVec Ideal Cert.Pre_finite_inputs.S65536x1000 .f32) (tg : IVec Cert.Pre_finite_inputs.S65536 32)
    (h : Cert.Pre_finite_inputs.fn (F := Ideal) x tg = fun _ => 1#1) :
    (∀ i, Ideal.cmp .olt (max (x i) (-(x i))) (Ideal.ofBits .f32 0x7F800000#32) = 1#1) ∧
    (∀ i, IntOp.cmpi .sge (tg i) 0#32 = 1#1 ∧ IntOp.cmpi .slt (tg i) 1000#32 = 1#1) := by
  have e := congrFun h ValueIdx.ix0
  dsimp only [Cert.Pre_finite_inputs.fn] at e
  obtain ⟨e1, e2⟩ := IntOp.andi_eq_one.1 e
  refine ⟨fun i => ?_, fun i => ?_⟩
  · exact Host.reduce_andi_all _ _ _ _ _ e1 i
  · exact IntOp.andi_eq_one.1 (Host.reduce_andi_all _ _ _ _ _ e2 i)

theorem finite_of_pre (x : FVec Ideal Cert.Pre_finite_inputs.S65536x1000 .f32) (tg : IVec Cert.Pre_finite_inputs.S65536 32)
    (h : Cert.Pre_finite_inputs.fn (F := Ideal) x tg = fun _ => 1#1) : ∀ i, ∃ r : ℝ, x i = (r : EReal) := by
  intro i
  have e := (pre_parts x tg h).1 i
  rw [top_word] at e
  simp only [Ideal.cmp, StableHlo.Predicate.ofBool_eq_one_iff, decide_eq_true_eq] at e
  exact real_of_abs_lt_top (x i) e

theorem range_of_pre (x : FVec Ideal Cert.Pre_finite_inputs.S65536x1000 .f32) (tg : IVec Cert.Pre_finite_inputs.S65536 32)
    (h : Cert.Pre_finite_inputs.fn (F := Ideal) x tg = fun _ => 1#1) : ∀ i, 0 ≤ (tg i).toInt ∧ (tg i).toInt < 1000 := by
  intro i
  obtain ⟨e0, e1⟩ := (pre_parts x tg h).2 i
  have h0 : (0#32 : BitVec 32).toInt = 0 := by decide
  have h1 : (1000#32 : BitVec 32).toInt = 1000 := by decide
  rw [IntOp.cmpi_sge, h0] at e0
  rw [IntOp.cmpi_slt, h1] at e1
  exact ⟨e0, e1⟩

end Cert.PreFacts

end
-- ==== Proof.lean ====
/-
  A summed classification loss over 65536 rows of 1000 logits, computed two ways.

  For a row `x` with label `t` (assumed in `[0, 1000)`; the logits assumed finite), with `m = max_c x_c`,
  `S = Σ_c exp (x_c - m)`, the label's log-probability is `ℓ = x_t - (m + log S)` and its probability `p = exp ℓ`.
  The row's loss is `-(d ^ γ(p)) · ℓ`, where `d = Σ_c |δ_{ct} - softmax(x)_c|` and `γ(p) ∈ {3, 5}` is chosen by two
  thresholds on `p`; the result is the sum of the rows' losses.

  The kernel never forms the softmax row: the softmax sums to one and `p ≤ 1`, so `d = 2 (1 - p)`, and it takes
  `d ^ γ` as `exp (γ · log d)` where `d > 0` and as `0` where `d = 0` (`Proof/RowLossEq.lean`: the one piece of
  analysis).  It takes `x_t` as the row masked by `column = t` and summed.  Its grid is two cores by sixteen
  points of 2048 rows; each core accumulates its points' sums in entry (0, 0) of its own [8,128] block of a
  [16,128] array, which the host then sums (`Proof/KernelAccum.lean`, `Proof/KernelFinal.lean`, `Proof/KernelRun.lean`).
  The reference forms the log-softmax, gathers the label's entry, and sums `-(d ^ γ) · ℓ` over the rows
  (`Proof/RefValue.lean` over the reference's run `Proof/RefRun.lean`).  Both results are
  `0 + Σ_i loss_i` over the extended reals, and the rows' losses agree row by row.

  The three frames: the kernel's two are the generated frame certificates; the reference's is its run with the
  result dropped.  The idealization rewrote nothing.
-/
import proofs.«406106_j66898410602953_2_alg».proof.Defs
import proofs.«406106_j66898410602953_2_alg».proof.Proof.Gen.Kernel
import proofs.«406106_j66898410602953_2_alg».proof.Proof.Gen.Kernel.Skeleton
import proofs.«406106_j66898410602953_2_alg».proof.Proof.Gen.Kernel.Launch
import proofs.«406106_j66898410602953_2_alg».proof.Proof.Gen.Kernel.Points
import proofs.«406106_j66898410602953_2_alg».proof.Proof.Gen.Kernel.Frame
import proofs.«406106_j66898410602953_2_alg».proof.Proof.Gen.KernelIdeal
import proofs.«406106_j66898410602953_2_alg».proof.Proof.Gen.KernelIdeal.Skeleton
import proofs.«406106_j66898410602953_2_alg».proof.Proof.Gen.KernelIdeal.Launch
import proofs.«406106_j66898410602953_2_alg».proof.Proof.Gen.KernelIdeal.Points
import proofs.«406106_j66898410602953_2_alg».proof.Proof.Gen.KernelIdeal.Frame
import proofs.«406106_j66898410602953_2_alg».proof.Proof.Gen.ReferenceIdeal
import proofs.«406106_j66898410602953_2_alg».proof.Proof.Gen.Pre_finite_inputs
import proofs.«406106_j66898410602953_2_alg».proof.Proof.KernelRun
import proofs.«406106_j66898410602953_2_alg».proof.Proof.RefRun
import proofs.«406106_j66898410602953_2_alg».proof.Proof.RefValue
import proofs.«406106_j66898410602953_2_alg».proof.Proof.RowLossEq
import proofs.«406106_j66898410602953_2_alg».proof.Proof.PreFacts
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Row by row the two spellings of the loss agree, for finite logits and a label in range. -/
theorem row_eq (xs : Fin 1000 → EReal) (hfin : ∀ c, ∃ r : ℝ, xs c = (r : EReal)) (tw : BitVec 32)
    (h0 : 0 ≤ tw.toInt) (h1 : tw.toInt < 1000) :
    Cert.RowLoss.rowK xs tw = Cert.RowLoss.rowR xs (Cert.RowLoss.tIdx tw) := by
  have e := Cert.RowLoss.rowK_eq_rowR xs hfin (Cert.RowLoss.tIdx tw)
  rwa [Cert.RowLoss.ofNat_tIdx tw h0 h1] at e

theorem algebraic : Cert.algebraic_KernelIdeal_ReferenceIdeal := by
  intro m ρ m' ρ' hpre hagree
  refine ⟨fun c => fun _ => Ideal.ofBits .f32 0x00000000#32 + ∑ i : Fin 65536, Cert.KernelIdeal.KValue.rowG m c i,
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  have hfin := Cert.PreFacts.finite_of_pre _ _ (hpre c)
  have hrng := Cert.PreFacts.range_of_pre _ _ (hpre c)
  rw [Cert.ReferenceIdeal.RefValue.result_eq _ _ (fun i => hrng (ix1 i))]
  funext _
  refine congrArg (fun z => Ideal.ofBits .f32 0x00000000#32 + z) (Finset.sum_congr rfl fun i _ => ?_)
  exact (row_eq _ (fun k => hfin (ix2 i k)) _ (hrng (ix1 i)).1 (hrng (ix1 i)).2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
